-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S6144 : Shape := ⟨1, ![6144]⟩
abbrev S32x128 : Shape := ⟨2, ![32, 128]⟩
abbrev S128x128 : Shape := ⟨2, ![128, 128]⟩
abbrev S128 : Shape := ⟨1, ![128]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_arg19 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  main_v93

def fn_part4 {F : FTy → Type} [FloatOps F] (main_arg15 : FVec F S128 .f32) (main_arg16 : FVec F S128 .f32) (main_arg17 : FVec F S128x128 .f32) (main_arg18 : FVec F S128 .f32) (main_arg19 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg17
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S128 .f32) (main_arg13 : FVec F S128 .f32) (main_arg14 : FVec F S128x128 .f32) (main_arg15 : FVec F S128 .f32) (main_arg16 : FVec F S128 .f32) (main_arg17 : FVec F S128x128 .f32) (main_arg18 : FVec F S128 .f32) (main_arg19 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_arg18 main_arg19 main_v63 main_v67

def fn_part2 {F : FTy → Type} [FloatOps F] (main_arg8 : FVec F S128x128 .f32) (main_arg9 : FVec F S128x128 .f32) (main_arg10 : FVec F S128 .f32) (main_arg11 : FVec F S128 .f32) (main_arg12 : FVec F S128 .f32) (main_arg13 : FVec F S128 .f32) (main_arg14 : FVec F S128x128 .f32) (main_arg15 : FVec F S128 .f32) (main_arg16 : FVec F S128 .f32) (main_arg17 : FVec F S128x128 .f32) (main_arg18 : FVec F S128 .f32) (main_arg19 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_v48 main_v49 main_v50

def fn_part1 {F : FTy → Type} [FloatOps F] (main_arg5 : FVec F S128 .f32) (main_arg6 : FVec F S128x128 .f32) (main_arg7 : FVec F S128x128 .f32) (main_arg8 : FVec F S128x128 .f32) (main_arg9 : FVec F S128x128 .f32) (main_arg10 : FVec F S128 .f32) (main_arg11 : FVec F S128 .f32) (main_arg12 : FVec F S128 .f32) (main_arg13 : FVec F S128 .f32) (main_arg14 : FVec F S128x128 .f32) (main_arg15 : FVec F S128 .f32) (main_arg16 : FVec F S128 .f32) (main_arg17 : FVec F S128x128 .f32) (main_arg18 : FVec F S128 .f32) (main_arg19 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S16384x32 .f32) (main_arg1 : IVec S6144 32) (main_arg2 : FVec F S32x128 .f32) (main_arg3 : FVec F S128x128 .f32) (main_arg4 : FVec F S128 .f32) (main_arg5 : FVec F S128 .f32) (main_arg6 : FVec F S128x128 .f32) (main_arg7 : FVec F S128x128 .f32) (main_arg8 : FVec F S128x128 .f32) (main_arg9 : FVec F S128x128 .f32) (main_arg10 : FVec F S128 .f32) (main_arg11 : FVec F S128 .f32) (main_arg12 : FVec F S128 .f32) (main_arg13 : FVec F S128 .f32) (main_arg14 : FVec F S128x128 .f32) (main_arg15 : FVec F S128 .f32) (main_arg16 : FVec F S128 .f32) (main_arg17 : FVec F S128x128 .f32) (main_arg18 : FVec F S128 .f32) (main_arg19 : FVec F S128 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S32x128 .f32 := Host.absf main_arg2
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S16384x32 : Shape := ⟨2, ![16384, 32]⟩
abbrev S6144 : Shape := ⟨1, ![6144]⟩
abbrev S32x128 : Shape := ⟨2, ![32, 128]⟩
abbrev S128x128 : Shape := ⟨2, ![128, 128]⟩
abbrev S128 : Shape := ⟨1, ![128]⟩
abbrev S16384x128 : Shape := ⟨2, ![16384, 128]⟩
abbrev S_ : Shape := ⟨0, ![]⟩
abbrev S6144x1 : Shape := ⟨2, ![6144, 1]⟩
abbrev S6144x128 : Shape := ⟨2, ![6144, 128]⟩
abbrev S1x128 : Shape := ⟨2, ![1, 128]⟩
abbrev S128x6144 : Shape := ⟨2, ![128, 6144]⟩
abbrev S512x128 : Shape := ⟨2, ![512, 128]⟩
abbrev S512x6144 : Shape := ⟨2, ![512, 6144]⟩
abbrev S512 : Shape := ⟨1, ![512]⟩
abbrev S512x1 : Shape := ⟨2, ![512, 1]⟩

abbrev nBuf : Space → Nat
  | .hbm => 273
  | .vmem => 8
  | .smem => 0
  | _ => 0

abbrev hbmTy0_0 (i : Nat) : BufTy := match i % 128 with
  | 0 => ⟨S16384x32, .f32⟩
  | 1 => ⟨S6144, .i32⟩
  | 2 => ⟨S32x128, .f32⟩
  | 3 => ⟨S128x128, .f32⟩
  | 4 => ⟨S128, .f32⟩
  | 5 => ⟨S128, .f32⟩
  | 6 => ⟨S128x128, .f32⟩
  | 7 => ⟨S128x128, .f32⟩
  | 8 => ⟨S128x128, .f32⟩
  | 9 => ⟨S128x128, .f32⟩
  | 10 => ⟨S128, .f32⟩
  | 11 => ⟨S128, .f32⟩
  | 12 => ⟨S128, .f32⟩
  | 13 => ⟨S128, .f32⟩
  | 14 => ⟨S128x128, .f32⟩
  | 15 => ⟨S128, .f32⟩
  | 16 => ⟨S128, .f32⟩
  | 17 => ⟨S128x128, .f32⟩
  | 18 => ⟨S128, .f32⟩
  | 19 => ⟨S128, .f32⟩
  | 20 => ⟨S16384x128, .f32⟩
  | 21 => ⟨S_, .i32⟩
  | 22 => ⟨S6144, .i32⟩
  | 23 => ⟨S6144, .i1⟩
  | 24 => ⟨S_, .i32⟩
  | 25 => ⟨S6144, .i32⟩
  | 26 => ⟨S6144, .i32⟩
  | 27 => ⟨S6144, .i32⟩
  | 28 => ⟨S6144x1, .i32⟩
  | 29 => ⟨S6144x128, .f32⟩
  | 30 => ⟨S6144x128, .f32⟩
  | 31 => ⟨S_, .f32⟩
  | 32 => ⟨S128, .f32⟩
  | 33 => ⟨S1x128, .f32⟩
  | 34 => ⟨S_, .f32⟩
  | 35 => ⟨S1x128, .f32⟩
  | 36 => ⟨S1x128, .f32⟩
  | 37 => ⟨S_, .i32⟩
  | 38 => ⟨S_, .f32⟩
  | 39 => ⟨S128, .f32⟩
  | 40 => ⟨S1x128, .f32⟩
  | 41 => ⟨S_, .f32⟩
  | 42 => ⟨S1x128, .f32⟩
  | 43 => ⟨S1x128, .f32⟩
  | 44 => ⟨S6144x128, .f32⟩
  | 45 => ⟨S6144x128, .f32⟩
  | 46 => ⟨S6144x128, .f32⟩
  | 47 => ⟨S_, .f32⟩
  | 48 => ⟨S_, .f32⟩
  | 49 => ⟨S_, .f32⟩
  | 50 => ⟨S_, .f32⟩
  | 51 => ⟨S128, .f32⟩
  | 52 => ⟨S1x128, .f32⟩
  | 53 => ⟨S1x128, .f32⟩
  | 54 => ⟨S1x128, .f32⟩
  | 55 => ⟨S_, .f32⟩
  | 56 => ⟨S_, .i1⟩
  | 57 => ⟨S_, .f32⟩
  | 58 => ⟨S_, .f32⟩
  | 59 => ⟨S1x128, .f32⟩
  | 60 => ⟨S1x128, .f32⟩
  | 61 => ⟨S6144x128, .f32⟩
  | 62 => ⟨S6144x128, .f32⟩
  | 63 => ⟨S_, .f32⟩
  | 64 => ⟨S1x128, .f32⟩
  | 65 => ⟨S1x128, .f32⟩
  | 66 => ⟨S1x128, .f32⟩
  | 67 => ⟨S6144x128, .f32⟩
  | 68 => ⟨S6144x128, .f32⟩
  | 69 => ⟨S1x128, .f32⟩
  | 70 => ⟨S6144x128, .f32⟩
  | 71 => ⟨S6144x128, .f32⟩
  | 72 => ⟨S1x128, .f32⟩
  | 73 => ⟨S6144x128, .f32⟩
  | 74 => ⟨S6144x128, .f32⟩
  | 75 => ⟨S6144x128, .f32⟩
  | 76 => ⟨S6144x128, .f32⟩
  | 77 => ⟨S16384x128, .bf16⟩
  | 78 => ⟨S6144x128, .bf16⟩
  | 79 => ⟨S128x6144, .bf16⟩
  | 80 => ⟨S6144x128, .bf16⟩
  | 81 => ⟨S128x128, .bf16⟩
  | 82 => ⟨S128x128, .bf16⟩
  | 83 => ⟨S16384x128, .f32⟩
  | 84 => ⟨S_, .f32⟩
  | 85 => ⟨S128, .f32⟩
  | 86 => ⟨S1x128, .f32⟩
  | 87 => ⟨S_, .f32⟩
  | 88 => ⟨S1x128, .f32⟩
  | 89 => ⟨S1x128, .f32⟩
  | 90 => ⟨S_, .i32⟩
  | 91 => ⟨S_, .f32⟩
  | 92 => ⟨S128, .f32⟩
  | 93 => ⟨S1x128, .f32⟩
  | 94 => ⟨S_, .f32⟩
  | 95 => ⟨S1x128, .f32⟩
  | 96 => ⟨S1x128, .f32⟩
  | 97 => ⟨S16384x128, .f32⟩
  | 98 => ⟨S16384x128, .f32⟩
  | 99 => ⟨S16384x128, .f32⟩
  | 100 => ⟨S_, .f32⟩
  | 101 => ⟨S_, .f32⟩
  | 102 => ⟨S_, .f32⟩
  | 103 => ⟨S_, .f32⟩
  | 104 => ⟨S128, .f32⟩
  | 105 => ⟨S1x128, .f32⟩
  | 106 => ⟨S1x128, .f32⟩
  | 107 => ⟨S1x128, .f32⟩
  | 108 => ⟨S_, .f32⟩
  | 109 => ⟨S_, .i1⟩
  | 110 => ⟨S_, .f32⟩
  | 111 => ⟨S_, .f32⟩
  | 112 => ⟨S1x128, .f32⟩
  | 113 => ⟨S1x128, .f32⟩
  | 114 => ⟨S16384x128, .f32⟩
  | 115 => ⟨S16384x128, .f32⟩
  | 116 => ⟨S_, .f32⟩
  | 117 => ⟨S1x128, .f32⟩
  | 118 => ⟨S1x128, .f32⟩
  | 119 => ⟨S1x128, .f32⟩
  | 120 => ⟨S16384x128, .f32⟩
  | 121 => ⟨S16384x128, .f32⟩
  | 122 => ⟨S1x128, .f32⟩
  | 123 => ⟨S16384x128, .f32⟩
  | 124 => ⟨S16384x128, .f32⟩
  | 125 => ⟨S1x128, .f32⟩
  | 126 => ⟨S16384x128, .f32⟩
  | 127 => ⟨S16384x128, .f32⟩
  | _ => ⟨S16384x32, .f32⟩

abbrev hbmTy0_1 (i : Nat) : BufTy := match i % 128 with
  | 0 => ⟨S16384x128, .f32⟩
  | 1 => ⟨S_, .f32⟩
  | 2 => ⟨S128, .f32⟩
  | 3 => ⟨S1x128, .f32⟩
  | 4 => ⟨S_, .f32⟩
  | 5 => ⟨S1x128, .f32⟩
  | 6 => ⟨S1x128, .f32⟩
  | 7 => ⟨S_, .i32⟩
  | 8 => ⟨S_, .f32⟩
  | 9 => ⟨S128, .f32⟩
  | 10 => ⟨S1x128, .f32⟩
  | 11 => ⟨S_, .f32⟩
  | 12 => ⟨S1x128, .f32⟩
  | 13 => ⟨S1x128, .f32⟩
  | 14 => ⟨S16384x128, .f32⟩
  | 15 => ⟨S16384x128, .f32⟩
  | 16 => ⟨S16384x128, .f32⟩
  | 17 => ⟨S_, .f32⟩
  | 18 => ⟨S_, .f32⟩
  | 19 => ⟨S_, .f32⟩
  | 20 => ⟨S_, .f32⟩
  | 21 => ⟨S128, .f32⟩
  | 22 => ⟨S1x128, .f32⟩
  | 23 => ⟨S1x128, .f32⟩
  | 24 => ⟨S1x128, .f32⟩
  | 25 => ⟨S_, .f32⟩
  | 26 => ⟨S_, .i1⟩
  | 27 => ⟨S_, .f32⟩
  | 28 => ⟨S_, .f32⟩
  | 29 => ⟨S1x128, .f32⟩
  | 30 => ⟨S1x128, .f32⟩
  | 31 => ⟨S16384x128, .f32⟩
  | 32 => ⟨S16384x128, .f32⟩
  | 33 => ⟨S_, .f32⟩
  | 34 => ⟨S1x128, .f32⟩
  | 35 => ⟨S1x128, .f32⟩
  | 36 => ⟨S1x128, .f32⟩
  | 37 => ⟨S16384x128, .f32⟩
  | 38 => ⟨S16384x128, .f32⟩
  | 39 => ⟨S1x128, .f32⟩
  | 40 => ⟨S16384x128, .f32⟩
  | 41 => ⟨S16384x128, .f32⟩
  | 42 => ⟨S1x128, .f32⟩
  | 43 => ⟨S16384x128, .f32⟩
  | 44 => ⟨S16384x128, .f32⟩
  | 45 => ⟨S_, .f32⟩
  | 46 => ⟨S16384x128, .f32⟩
  | 47 => ⟨S16384x128, .f32⟩
  | 48 => ⟨S16384x128, .f32⟩
  | 49 => ⟨S_, .f32⟩
  | 50 => ⟨S128, .f32⟩
  | 51 => ⟨S1x128, .f32⟩
  | 52 => ⟨S_, .f32⟩
  | 53 => ⟨S1x128, .f32⟩
  | 54 => ⟨S1x128, .f32⟩
  | 55 => ⟨S_, .i32⟩
  | 56 => ⟨S_, .f32⟩
  | 57 => ⟨S128, .f32⟩
  | 58 => ⟨S1x128, .f32⟩
  | 59 => ⟨S_, .f32⟩
  | 60 => ⟨S1x128, .f32⟩
  | 61 => ⟨S1x128, .f32⟩
  | 62 => ⟨S16384x128, .f32⟩
  | 63 => ⟨S16384x128, .f32⟩
  | 64 => ⟨S16384x128, .f32⟩
  | 65 => ⟨S_, .f32⟩
  | 66 => ⟨S_, .f32⟩
  | 67 => ⟨S_, .f32⟩
  | 68 => ⟨S_, .f32⟩
  | 69 => ⟨S128, .f32⟩
  | 70 => ⟨S1x128, .f32⟩
  | 71 => ⟨S1x128, .f32⟩
  | 72 => ⟨S1x128, .f32⟩
  | 73 => ⟨S_, .f32⟩
  | 74 => ⟨S_, .i1⟩
  | 75 => ⟨S_, .f32⟩
  | 76 => ⟨S_, .f32⟩
  | 77 => ⟨S1x128, .f32⟩
  | 78 => ⟨S1x128, .f32⟩
  | 79 => ⟨S16384x128, .f32⟩
  | 80 => ⟨S16384x128, .f32⟩
  | 81 => ⟨S_, .f32⟩
  | 82 => ⟨S1x128, .f32⟩
  | 83 => ⟨S1x128, .f32⟩
  | 84 => ⟨S1x128, .f32⟩
  | 85 => ⟨S16384x128, .f32⟩
  | 86 => ⟨S16384x128, .f32⟩
  | 87 => ⟨S1x128, .f32⟩
  | 88 => ⟨S16384x128, .f32⟩
  | 89 => ⟨S16384x128, .f32⟩
  | 90 => ⟨S1x128, .f32⟩
  | 91 => ⟨S16384x128, .f32⟩
  | 92 => ⟨S16384x128, .f32⟩
  | 93 => ⟨S_, .f32⟩
  | 94 => ⟨S16384x128, .f32⟩
  | 95 => ⟨S16384x128, .f32⟩
  | 96 => ⟨S16384x128, .f32⟩
  | 97 => ⟨S16384x128, .f32⟩
  | 98 => ⟨S_, .f32⟩
  | 99 => ⟨S128, .f32⟩
  | 100 => ⟨S1x128, .f32⟩
  | 101 => ⟨S_, .f32⟩
  | 102 => ⟨S1x128, .f32⟩
  | 103 => ⟨S1x128, .f32⟩
  | 104 => ⟨S_, .i32⟩
  | 105 => ⟨S_, .f32⟩
  | 106 => ⟨S128, .f32⟩
  | 107 => ⟨S1x128, .f32⟩
  | 108 => ⟨S_, .f32⟩
  | 109 => ⟨S1x128, .f32⟩
  | 110 => ⟨S1x128, .f32⟩
  | 111 => ⟨S16384x128, .f32⟩
  | 112 => ⟨S16384x128, .f32⟩
  | 113 => ⟨S16384x128, .f32⟩
  | 114 => ⟨S_, .f32⟩
  | 115 => ⟨S_, .f32⟩
  | 116 => ⟨S_, .f32⟩
  | 117 => ⟨S_, .f32⟩
  | 118 => ⟨S128, .f32⟩
  | 119 => ⟨S1x128, .f32⟩
  | 120 => ⟨S1x128, .f32⟩
  | 121 => ⟨S1x128, .f32⟩
  | 122 => ⟨S_, .f32⟩
  | 123 => ⟨S_, .i1⟩
  | 124 => ⟨S_, .f32⟩
  | 125 => ⟨S_, .f32⟩
  | 126 => ⟨S1x128, .f32⟩
  | 127 => ⟨S1x128, .f32⟩
  | _ => ⟨S16384x32, .f32⟩

abbrev hbmTy0_2 (i : Nat) : BufTy := match i % 128 with
  | 0 => ⟨S16384x128, .f32⟩
  | 1 => ⟨S16384x128, .f32⟩
  | 2 => ⟨S_, .f32⟩
  | 3 => ⟨S1x128, .f32⟩
  | 4 => ⟨S1x128, .f32⟩
  | 5 => ⟨S1x128, .f32⟩
  | 6 => ⟨S16384x128, .f32⟩
  | 7 => ⟨S16384x128, .f32⟩
  | 8 => ⟨S1x128, .f32⟩
  | 9 => ⟨S16384x128, .f32⟩
  | 10 => ⟨S16384x128, .f32⟩
  | 11 => ⟨S1x128, .f32⟩
  | 12 => ⟨S16384x128, .f32⟩
  | 13 => ⟨S16384x128, .f32⟩
  | 14 => ⟨S_, .f32⟩
  | 15 => ⟨S16384x128, .f32⟩
  | 16 => ⟨S16384x128, .f32⟩
  | _ => ⟨S16384x32, .f32⟩

abbrev hbmTy (i : Nat) : BufTy := match i / 128 with
  | 0 => hbmTy0_0 i
  | 1 => hbmTy0_1 i
  | 2 => hbmTy0_2 i
  | _ => ⟨S16384x32, .f32⟩

abbrev bufTy : (tb : Table) → Fin (tcTables nBuf tb) → BufTy
  | .hbm, ⟨i, _⟩ => hbmTy i
  | .local _ .vmem, ⟨0, _⟩ => ⟨S512x128, .bf16⟩
  | .local _ .vmem, ⟨1, _⟩ => ⟨S512x128, .bf16⟩
  | .local _ .vmem, ⟨2, _⟩ => ⟨S128x6144, .bf16⟩
  | .local _ .vmem, ⟨3, _⟩ => ⟨S6144x128, .bf16⟩
  | .local _ .vmem, ⟨4, _⟩ => ⟨S128x128, .bf16⟩
  | .local _ .vmem, ⟨5, _⟩ => ⟨S128x128, .bf16⟩
  | .local _ .vmem, ⟨6, _⟩ => ⟨S512x128, .f32⟩
  | .local _ .vmem, ⟨7, _⟩ => ⟨S512x128, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_c : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst : Ref sig .tc := ⟨.hbm, 31, rfl⟩
abbrev main_v9 : Ref sig .tc := ⟨.hbm, 32, rfl⟩
abbrev main_v10 : Ref sig .tc := ⟨.hbm, 33, rfl⟩
abbrev main_cst_1 : Ref sig .tc := ⟨.hbm, 34, rfl⟩
abbrev main_v11 : Ref sig .tc := ⟨.hbm, 35, rfl⟩
abbrev main_v12 : Ref sig .tc := ⟨.hbm, 36, rfl⟩
abbrev main_c_2 : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_cst_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_cst_1 : Ref sig .tc := ⟨.hbm, 48, rfl⟩
abbrev main_call0_v8 : Ref sig .tc := ⟨.hbm, 49, rfl⟩
abbrev main_call0_cst_2 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_v12 : Ref sig .tc := ⟨.hbm, 54, rfl⟩
abbrev main_call0_cst_3 : Ref sig .tc := ⟨.hbm, 55, rfl⟩
abbrev main_call0_v13 : Ref sig .tc := ⟨.hbm, 56, rfl⟩
abbrev main_call0_cst_4 : Ref sig .tc := ⟨.hbm, 57, rfl⟩
abbrev main_call0_call0_v0 : Ref sig .tc := ⟨.hbm, 58, rfl⟩
abbrev main_call0_call0_v1 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_cst_3 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_cst_4 : Ref sig .tc := ⟨.hbm, 84, rfl⟩
abbrev main_v36 : Ref sig .tc := ⟨.hbm, 85, rfl⟩
abbrev main_v37 : Ref sig .tc := ⟨.hbm, 86, rfl⟩
abbrev main_cst_5 : Ref sig .tc := ⟨.hbm, 87, rfl⟩
abbrev main_v38 : Ref sig .tc := ⟨.hbm, 88, rfl⟩
abbrev main_v39 : Ref sig .tc := ⟨.hbm, 89, rfl⟩
abbrev main_c_6 : Ref sig .tc := ⟨.hbm, 90, rfl⟩
abbrev main_call1_cst : Ref sig .tc := ⟨.hbm, 91, rfl⟩
abbrev main_call1_v0 : Ref sig .tc := ⟨.hbm, 92, rfl⟩
abbrev main_call1_v1 : Ref sig .tc := ⟨.hbm, 93, rfl⟩
abbrev main_call1_cst_0 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_call1_v5 : Ref sig .tc := ⟨.hbm, 98, rfl⟩
abbrev main_call1_v6 : Ref sig .tc := ⟨.hbm, 99, rfl⟩
abbrev main_call1_v7 : Ref sig .tc := ⟨.hbm, 100, rfl⟩
abbrev main_call1_cst_1 : Ref sig .tc := ⟨.hbm, 101, rfl⟩
abbrev main_call1_v8 : Ref sig .tc := ⟨.hbm, 102, rfl⟩
abbrev main_call1_cst_2 : Ref sig .tc := ⟨.hbm, 103, rfl⟩
abbrev main_call1_v9 : Ref sig .tc := ⟨.hbm, 104, rfl⟩
abbrev main_call1_v10 : Ref sig .tc := ⟨.hbm, 105, rfl⟩
abbrev main_call1_v11 : Ref sig .tc := ⟨.hbm, 106, rfl⟩
abbrev main_call1_v12 : Ref sig .tc := ⟨.hbm, 107, rfl⟩
abbrev main_call1_cst_3 : Ref sig .tc := ⟨.hbm, 108, rfl⟩
abbrev main_call1_v13 : Ref sig .tc := ⟨.hbm, 109, rfl⟩
abbrev main_call1_cst_4 : Ref sig .tc := ⟨.hbm, 110, rfl⟩
abbrev main_call1_call0_v0 : Ref sig .tc := ⟨.hbm, 111, rfl⟩
abbrev main_call1_call0_v1 : Ref sig .tc := ⟨.hbm, 112, rfl⟩
abbrev main_v40 : Ref sig .tc := ⟨.hbm, 113, rfl⟩
abbrev main_v41 : Ref sig .tc := ⟨.hbm, 114, rfl⟩
abbrev main_v42 : Ref sig .tc := ⟨.hbm, 115, rfl⟩
abbrev main_cst_7 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_cst_8 : Ref sig .tc := ⟨.hbm, 129, rfl⟩
abbrev main_v55 : Ref sig .tc := ⟨.hbm, 130, rfl⟩
abbrev main_v56 : Ref sig .tc := ⟨.hbm, 131, rfl⟩
abbrev main_cst_9 : Ref sig .tc := ⟨.hbm, 132, rfl⟩
abbrev main_v57 : Ref sig .tc := ⟨.hbm, 133, rfl⟩
abbrev main_v58 : Ref sig .tc := ⟨.hbm, 134, rfl⟩
abbrev main_c_10 : Ref sig .tc := ⟨.hbm, 135, rfl⟩
abbrev main_call2_cst : Ref sig .tc := ⟨.hbm, 136, rfl⟩
abbrev main_call2_v0 : Ref sig .tc := ⟨.hbm, 137, rfl⟩
abbrev main_call2_v1 : Ref sig .tc := ⟨.hbm, 138, rfl⟩
abbrev main_call2_cst_0 : Ref sig .tc := ⟨.hbm, 139, rfl⟩
abbrev main_call2_v2 : Ref sig .tc := ⟨.hbm, 140, rfl⟩
abbrev main_call2_v3 : Ref sig .tc := ⟨.hbm, 141, rfl⟩
abbrev main_call2_v4 : Ref sig .tc := ⟨.hbm, 142, rfl⟩
abbrev main_call2_v5 : Ref sig .tc := ⟨.hbm, 143, rfl⟩
abbrev main_call2_v6 : Ref sig .tc := ⟨.hbm, 144, rfl⟩
abbrev main_call2_v7 : Ref sig .tc := ⟨.hbm, 145, rfl⟩
abbrev main_call2_cst_1 : Ref sig .tc := ⟨.hbm, 146, rfl⟩
abbrev main_call2_v8 : Ref sig .tc := ⟨.hbm, 147, rfl⟩
abbrev main_call2_cst_2 : Ref sig .tc := ⟨.hbm, 148, rfl⟩
abbrev main_call2_v9 : Ref sig .tc := ⟨.hbm, 149, rfl⟩
abbrev main_call2_v10 : Ref sig .tc := ⟨.hbm, 150, rfl⟩
abbrev main_call2_v11 : Ref sig .tc := ⟨.hbm, 151, rfl⟩
abbrev main_call2_v12 : Ref sig .tc := ⟨.hbm, 152, rfl⟩
abbrev main_call2_cst_3 : Ref sig .tc := ⟨.hbm, 153, rfl⟩
abbrev main_call2_v13 : Ref sig .tc := ⟨.hbm, 154, rfl⟩
abbrev main_call2_cst_4 : Ref sig .tc := ⟨.hbm, 155, rfl⟩
abbrev main_call2_call0_v0 : Ref sig .tc := ⟨.hbm, 156, rfl⟩
abbrev main_call2_call0_v1 : Ref sig .tc := ⟨.hbm, 157, rfl⟩
abbrev main_v59 : Ref sig .tc := ⟨.hbm, 158, rfl⟩
abbrev main_v60 : Ref sig .tc := ⟨.hbm, 159, rfl⟩
abbrev main_v61 : Ref sig .tc := ⟨.hbm, 160, rfl⟩
abbrev main_cst_11 : Ref sig .tc := ⟨.hbm, 161, rfl⟩
abbrev main_v62 : Ref sig .tc := ⟨.hbm, 162, rfl⟩
abbrev main_v63 : Ref sig .tc := ⟨.hbm, 163, rfl⟩
abbrev main_v64 : Ref sig .tc := ⟨.hbm, 164, rfl⟩
abbrev main_v65 : Ref sig .tc := ⟨.hbm, 165, rfl⟩
abbrev main_v66 : Ref sig .tc := ⟨.hbm, 166, rfl⟩
abbrev main_v67 : Ref sig .tc := ⟨.hbm, 167, rfl⟩
abbrev main_v68 : Ref sig .tc := ⟨.hbm, 168, rfl⟩
abbrev main_v69 : Ref sig .tc := ⟨.hbm, 169, rfl⟩
abbrev main_v70 : Ref sig .tc := ⟨.hbm, 170, rfl⟩
abbrev main_v71 : Ref sig .tc := ⟨.hbm, 171, rfl⟩
abbrev main_v72 : Ref sig .tc := ⟨.hbm, 172, rfl⟩
abbrev main_call3_cst : Ref sig .tc := ⟨.hbm, 173, rfl⟩
abbrev main_call3_v0 : Ref sig .tc := ⟨.hbm, 174, rfl⟩
abbrev main_v73 : Ref sig .tc := ⟨.hbm, 175, rfl⟩
abbrev main_v74 : Ref sig .tc := ⟨.hbm, 176, rfl⟩
abbrev main_cst_12 : Ref sig .tc := ⟨.hbm, 177, rfl⟩
abbrev main_v75 : Ref sig .tc := ⟨.hbm, 178, rfl⟩
abbrev main_v76 : Ref sig .tc := ⟨.hbm, 179, rfl⟩
abbrev main_cst_13 : Ref sig .tc := ⟨.hbm, 180, rfl⟩
abbrev main_v77 : Ref sig .tc := ⟨.hbm, 181, rfl⟩
abbrev main_v78 : Ref sig .tc := ⟨.hbm, 182, rfl⟩
abbrev main_c_14 : Ref sig .tc := ⟨.hbm, 183, rfl⟩
abbrev main_call4_cst : Ref sig .tc := ⟨.hbm, 184, rfl⟩
abbrev main_call4_v0 : Ref sig .tc := ⟨.hbm, 185, rfl⟩
abbrev main_call4_v1 : Ref sig .tc := ⟨.hbm, 186, rfl⟩
abbrev main_call4_cst_0 : Ref sig .tc := ⟨.hbm, 187, rfl⟩
abbrev main_call4_v2 : Ref sig .tc := ⟨.hbm, 188, rfl⟩
abbrev main_call4_v3 : Ref sig .tc := ⟨.hbm, 189, rfl⟩
abbrev main_call4_v4 : Ref sig .tc := ⟨.hbm, 190, rfl⟩
abbrev main_call4_v5 : Ref sig .tc := ⟨.hbm, 191, rfl⟩
abbrev main_call4_v6 : Ref sig .tc := ⟨.hbm, 192, rfl⟩
abbrev main_call4_v7 : Ref sig .tc := ⟨.hbm, 193, rfl⟩
abbrev main_call4_cst_1 : Ref sig .tc := ⟨.hbm, 194, rfl⟩
abbrev main_call4_v8 : Ref sig .tc := ⟨.hbm, 195, rfl⟩
abbrev main_call4_cst_2 : Ref sig .tc := ⟨.hbm, 196, rfl⟩
abbrev main_call4_v9 : Ref sig .tc := ⟨.hbm, 197, rfl⟩
abbrev main_call4_v10 : Ref sig .tc := ⟨.hbm, 198, rfl⟩
abbrev main_call4_v11 : Ref sig .tc := ⟨.hbm, 199, rfl⟩
abbrev main_call4_v12 : Ref sig .tc := ⟨.hbm, 200, rfl⟩
abbrev main_call4_cst_3 : Ref sig .tc := ⟨.hbm, 201, rfl⟩
abbrev main_call4_v13 : Ref sig .tc := ⟨.hbm, 202, rfl⟩
abbrev main_call4_cst_4 : Ref sig .tc := ⟨.hbm, 203, rfl⟩
abbrev main_call4_call0_v0 : Ref sig .tc := ⟨.hbm, 204, rfl⟩
abbrev main_call4_call0_v1 : Ref sig .tc := ⟨.hbm, 205, rfl⟩
abbrev main_v79 : Ref sig .tc := ⟨.hbm, 206, rfl⟩
abbrev main_v80 : Ref sig .tc := ⟨.hbm, 207, rfl⟩
abbrev main_v81 : Ref sig .tc := ⟨.hbm, 208, rfl⟩
abbrev main_cst_15 : Ref sig .tc := ⟨.hbm, 209, rfl⟩
abbrev main_v82 : Ref sig .tc := ⟨.hbm, 210, rfl⟩
abbrev main_v83 : Ref sig .tc := ⟨.hbm, 211, rfl⟩
abbrev main_v84 : Ref sig .tc := ⟨.hbm, 212, rfl⟩
abbrev main_v85 : Ref sig .tc := ⟨.hbm, 213, rfl⟩
abbrev main_v86 : Ref sig .tc := ⟨.hbm, 214, rfl⟩
abbrev main_v87 : Ref sig .tc := ⟨.hbm, 215, rfl⟩
abbrev main_v88 : Ref sig .tc := ⟨.hbm, 216, rfl⟩
abbrev main_v89 : Ref sig .tc := ⟨.hbm, 217, rfl⟩
abbrev main_v90 : Ref sig .tc := ⟨.hbm, 218, rfl⟩
abbrev main_v91 : Ref sig .tc := ⟨.hbm, 219, rfl⟩
abbrev main_v92 : Ref sig .tc := ⟨.hbm, 220, rfl⟩
abbrev main_call5_cst : Ref sig .tc := ⟨.hbm, 221, rfl⟩
abbrev main_call5_v0 : Ref sig .tc := ⟨.hbm, 222, rfl⟩
abbrev main_v93 : Ref sig .tc := ⟨.hbm, 223, rfl⟩
abbrev main_v94 : Ref sig .tc := ⟨.hbm, 224, rfl⟩
abbrev main_v95 : Ref sig .tc := ⟨.hbm, 225, rfl⟩
abbrev main_cst_16 : Ref sig .tc := ⟨.hbm, 226, rfl⟩
abbrev main_v96 : Ref sig .tc := ⟨.hbm, 227, rfl⟩
abbrev main_v97 : Ref sig .tc := ⟨.hbm, 228, rfl⟩
abbrev main_cst_17 : Ref sig .tc := ⟨.hbm, 229, rfl⟩
abbrev main_v98 : Ref sig .tc := ⟨.hbm, 230, rfl⟩
abbrev main_v99 : Ref sig .tc := ⟨.hbm, 231, rfl⟩
abbrev main_c_18 : Ref sig .tc := ⟨.hbm, 232, rfl⟩
abbrev main_call6_cst : Ref sig .tc := ⟨.hbm, 233, rfl⟩
abbrev main_call6_v0 : Ref sig .tc := ⟨.hbm, 234, rfl⟩
abbrev main_call6_v1 : Ref sig .tc := ⟨.hbm, 235, rfl⟩
abbrev main_call6_cst_0 : Ref sig .tc := ⟨.hbm, 236, rfl⟩
abbrev main_call6_v2 : Ref sig .tc := ⟨.hbm, 237, rfl⟩
abbrev main_call6_v3 : Ref sig .tc := ⟨.hbm, 238, rfl⟩
abbrev main_call6_v4 : Ref sig .tc := ⟨.hbm, 239, rfl⟩
abbrev main_call6_v5 : Ref sig .tc := ⟨.hbm, 240, rfl⟩
abbrev main_call6_v6 : Ref sig .tc := ⟨.hbm, 241, rfl⟩
abbrev main_call6_v7 : Ref sig .tc := ⟨.hbm, 242, rfl⟩
abbrev main_call6_cst_1 : Ref sig .tc := ⟨.hbm, 243, rfl⟩
abbrev main_call6_v8 : Ref sig .tc := ⟨.hbm, 244, rfl⟩
abbrev main_call6_cst_2 : Ref sig .tc := ⟨.hbm, 245, rfl⟩
abbrev main_call6_v9 : Ref sig .tc := ⟨.hbm, 246, rfl⟩
abbrev main_call6_v10 : Ref sig .tc := ⟨.hbm, 247, rfl⟩
abbrev main_call6_v11 : Ref sig .tc := ⟨.hbm, 248, rfl⟩
abbrev main_call6_v12 : Ref sig .tc := ⟨.hbm, 249, rfl⟩
abbrev main_call6_cst_3 : Ref sig .tc := ⟨.hbm, 250, rfl⟩
abbrev main_call6_v13 : Ref sig .tc := ⟨.hbm, 251, rfl⟩
abbrev main_call6_cst_4 : Ref sig .tc := ⟨.hbm, 252, rfl⟩
abbrev main_call6_call0_v0 : Ref sig .tc := ⟨.hbm, 253, rfl⟩
abbrev main_call6_call0_v1 : Ref sig .tc := ⟨.hbm, 254, rfl⟩
abbrev main_v100 : Ref sig .tc := ⟨.hbm, 255, rfl⟩
abbrev main_v101 : Ref sig .tc := ⟨.hbm, 256, rfl⟩
abbrev main_v102 : Ref sig .tc := ⟨.hbm, 257, rfl⟩
abbrev main_cst_19 : Ref sig .tc := ⟨.hbm, 258, rfl⟩
abbrev main_v103 : Ref sig .tc := ⟨.hbm, 259, rfl⟩
abbrev main_v104 : Ref sig .tc := ⟨.hbm, 260, rfl⟩
abbrev main_v105 : Ref sig .tc := ⟨.hbm, 261, rfl⟩
abbrev main_v106 : Ref sig .tc := ⟨.hbm, 262, rfl⟩
abbrev main_v107 : Ref sig .tc := ⟨.hbm, 263, rfl⟩
abbrev main_v108 : Ref sig .tc := ⟨.hbm, 264, rfl⟩
abbrev main_v109 : Ref sig .tc := ⟨.hbm, 265, rfl⟩
abbrev main_v110 : Ref sig .tc := ⟨.hbm, 266, rfl⟩
abbrev main_v111 : Ref sig .tc := ⟨.hbm, 267, rfl⟩
abbrev main_v112 : Ref sig .tc := ⟨.hbm, 268, rfl⟩
abbrev main_v113 : Ref sig .tc := ⟨.hbm, 269, rfl⟩
abbrev main_call7_cst : Ref sig .tc := ⟨.hbm, 270, rfl⟩
abbrev main_call7_v0 : Ref sig .tc := ⟨.hbm, 271, rfl⟩
abbrev main_v114 : Ref sig .tc := ⟨.hbm, 272, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6144x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S6144 : S_.BroadcastsInDim S6144 (![] : Fin 0 → Fin S6144.rank)
  bcast_S6144_S6144x1_0 : S6144.BroadcastsInDim S6144x1 (![0] : Fin 1 → Fin S6144x1.rank)
  reducesTo_S6144x128_S128_d0 : S6144x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S6144x128_0_1 : S1x128.BroadcastsInDim S6144x128 (![0, 1] : Fin 2 → Fin S6144x128.rank)
  bitsLt_bf16_f32 : FTy.bits .bf16 < FTy.bits .f32
  transposes_S6144x128_S128x6144_1_0 : S6144x128.Transposes [1, 0] S128x6144
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x6144_S128x6144_0_0 : ∀ a, (![0, 0] : Fin 2 → Nat) a + S128x6144.size a ≤ S128x6144.size a
  h_S128x6144 : 0 < S128x6144.numel
  shapeCasts_S128x6144_S128x6144 : S128x6144.ShapeCasts S128x6144
  inb_S6144x128_S6144x128_0_0 : ∀ a, (![0, 0] : Fin 2 → Nat) a + S6144x128.size a ≤ S6144x128.size a
  h_S6144x128 : 0 < S6144x128.numel
  shapeCasts_S6144x128_S6144x128 : S6144x128.ShapeCasts S6144x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S512x6144_S512 : S512x6144.Reduces [1] S512
  shapeCasts_S512_S512x1 : S512.ShapeCasts S512x1
  broadcasts_S512x1_S512x6144 : S512x1.Broadcasts S512x6144
  broadcasts_S512x1_S512x128 : S512x1.Broadcasts S512x128
  reducesTo_S16384x128_S128_d0 : S16384x128.ReducesTo [0] S128
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  dot_S16384x32_S32x128_S16384x128_1_0_0_1_n_n_wf : DotDims.WF S16384x32 S32x128 S16384x128 [1] [0] [0] [1] [] []
  gather_S16384x128_S6144x1_S6144x128_1_0_n_n_0_1_1128_wf : GatherDims.WF S16384x128 S6144x1 S6144x128 [1] [0] [] [0] [] 1 ![1, 128]
  dot_S6144x128_S128x128_S6144x128_1_0_0_1_n_n_wf : DotDims.WF S6144x128 S128x128 S6144x128 [1] [0] [0] [1] [] []
  dot_S512x128_S128x128_S512x128_1_0_0_1_n_n_wf : DotDims.WF S512x128 S128x128 S512x128 [1] [0] [0] [1] [] []
  dot_S512x128_S128x6144_S512x6144_1_0_0_1_n_n_wf : DotDims.WF S512x128 S128x6144 S512x6144 [1] [0] [0] [1] [] []
  dot_S512x6144_S6144x128_S512x128_1_0_0_1_n_n_wf : DotDims.WF S512x6144 S6144x128 S512x128 [1] [0] [0] [1] [] []
  dot_S16384x128_S128x128_S16384x128_1_0_0_1_n_n_wf : DotDims.WF S16384x128 S128x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S16384x128.size a
  hwx0_0 : ∀ i : grid0.Coords, EltTy.bits .bf16 = 32 ∨ (Rect.block (s := S16384x128) S512x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x6144.size a ≤ S128x6144.size a
  hwx0_1 : ∀ i : grid0.Coords, EltTy.bits .bf16 = 32 ∨ (Rect.block (s := S128x6144) S128x6144.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6144x128.size a ≤ S6144x128.size a
  hwx0_2 : ∀ i : grid0.Coords, EltTy.bits .bf16 = 32 ∨ (Rect.block (s := S6144x128) S6144x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S16384x128.size a
  hwx0_5 : ∀ i : grid0.Coords, EltTy.bits .f32 = 32 ∨ (Rect.block (s := S16384x128) S512x128.size (cc0_transform_5 i) (hinb0_5 i)).WholeWords (EltTy.packing .f32)

variable [Facts₀]

def dot_S16384x32_S32x128_S16384x128_1_0_0_1_n_n : DotDims S16384x32 S32x128 S16384x128 where
  lhsContracting := [1]
  rhsContracting := [0]
  lhsNonContracting := [0]
  rhsNonContracting := [1]
  lhsBatch := []
  rhsBatch := []
  wf := dot_S16384x32_S32x128_S16384x128_1_0_0_1_n_n_wf
def gather_S16384x128_S6144x1_S6144x128_1_0_n_n_0_1_1128 : GatherDims S16384x128 S6144x1 S6144x128 where
  offsetDims := [1]
  collapsedSliceDims := [0]
  operandBatchingDims := []
  startIndicesBatchingDims := []
  startIndexMap := [0]
  indexVectorDim := 1
  sliceSizes := ![1, 128]
  wf := gather_S16384x128_S6144x1_S6144x128_1_0_n_n_0_1_1128_wf
def dot_S6144x128_S128x128_S6144x128_1_0_0_1_n_n : DotDims S6144x128 S128x128 S6144x128 where
  lhsContracting := [1]
  rhsContracting := [0]
  lhsNonContracting := [0]
  rhsNonContracting := [1]
  lhsBatch := []
  rhsBatch := []
  wf := dot_S6144x128_S128x128_S6144x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x6144_S512x6144_1_0_0_1_n_n : DotDims S512x128 S128x6144 S512x6144 where
  lhsContracting := [1]
  rhsContracting := [0]
  lhsNonContracting := [0]
  rhsNonContracting := [1]
  lhsBatch := []
  rhsBatch := []
  wf := dot_S512x128_S128x6144_S512x6144_1_0_0_1_n_n_wf
def dot_S512x6144_S6144x128_S512x128_1_0_0_1_n_n : DotDims S512x6144 S6144x128 S512x128 where
  lhsContracting := [1]
  rhsContracting := [0]
  lhsNonContracting := [0]
  rhsNonContracting := [1]
  lhsBatch := []
  rhsBatch := []
  wf := dot_S512x6144_S6144x128_S512x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

abbrev win0_0 : Pipeline.Window sig grid0 :=
  Pipeline.Window.ofSpec (Memref.whole main_v29) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S128x6144.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S6144x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x32 : Shape := ⟨2, ![16384, 32]⟩
abbrev S6144 : Shape := ⟨1, ![6144]⟩
abbrev S32x128 : Shape := ⟨2, ![32, 128]⟩
abbrev S128x128 : Shape := ⟨2, ![128, 128]⟩
abbrev S128 : Shape := ⟨1, ![128]⟩
abbrev S16384x128 : Shape := ⟨2, ![16384, 128]⟩
abbrev S_ : Shape := ⟨0, ![]⟩
abbrev S6144x1 : Shape := ⟨2, ![6144, 1]⟩
abbrev S6144x128 : Shape := ⟨2, ![6144, 128]⟩
abbrev S1x128 : Shape := ⟨2, ![1, 128]⟩
abbrev S128x6144 : Shape := ⟨2, ![128, 6144]⟩
abbrev S16384x6144 : Shape := ⟨2, ![16384, 6144]⟩
abbrev S16384 : Shape := ⟨1, ![16384]⟩
abbrev S16384x1 : Shape := ⟨2, ![16384, 1]⟩

abbrev nBuf : Space → Nat
  | .hbm => 285
  | .vmem => 0
  | .smem => 0
  | _ => 0

abbrev hbmTy0_0 (i : Nat) : BufTy := match i % 128 with
  | 0 => ⟨S16384x32, .f32⟩
  | 1 => ⟨S6144, .i32⟩
  | 2 => ⟨S32x128, .f32⟩
  | 3 => ⟨S128x128, .f32⟩
  | 4 => ⟨S128, .f32⟩
  | 5 => ⟨S128, .f32⟩
  | 6 => ⟨S128x128, .f32⟩
  | 7 => ⟨S128x128, .f32⟩
  | 8 => ⟨S128x128, .f32⟩
  | 9 => ⟨S128x128, .f32⟩
  | 10 => ⟨S128, .f32⟩
  | 11 => ⟨S128, .f32⟩
  | 12 => ⟨S128, .f32⟩
  | 13 => ⟨S128, .f32⟩
  | 14 => ⟨S128x128, .f32⟩
  | 15 => ⟨S128, .f32⟩
  | 16 => ⟨S128, .f32⟩
  | 17 => ⟨S128x128, .f32⟩
  | 18 => ⟨S128, .f32⟩
  | 19 => ⟨S128, .f32⟩
  | 20 => ⟨S16384x128, .f32⟩
  | 21 => ⟨S16384x128, .f32⟩
  | 22 => ⟨S_, .i32⟩
  | 23 => ⟨S6144, .i32⟩
  | 24 => ⟨S6144, .i1⟩
  | 25 => ⟨S_, .i32⟩
  | 26 => ⟨S6144, .i32⟩
  | 27 => ⟨S6144, .i32⟩
  | 28 => ⟨S6144, .i32⟩
  | 29 => ⟨S6144x1, .i32⟩
  | 30 => ⟨S6144x128, .f32⟩
  | 31 => ⟨S6144x128, .f32⟩
  | 32 => ⟨S_, .f32⟩
  | 33 => ⟨S128, .f32⟩
  | 34 => ⟨S1x128, .f32⟩
  | 35 => ⟨S_, .f32⟩
  | 36 => ⟨S1x128, .f32⟩
  | 37 => ⟨S1x128, .f32⟩
  | 38 => ⟨S_, .i32⟩
  | 39 => ⟨S_, .f32⟩
  | 40 => ⟨S128, .f32⟩
  | 41 => ⟨S1x128, .f32⟩
  | 42 => ⟨S_, .f32⟩
  | 43 => ⟨S1x128, .f32⟩
  | 44 => ⟨S1x128, .f32⟩
  | 45 => ⟨S6144x128, .f32⟩
  | 46 => ⟨S6144x128, .f32⟩
  | 47 => ⟨S6144x128, .f32⟩
  | 48 => ⟨S_, .f32⟩
  | 49 => ⟨S_, .f32⟩
  | 50 => ⟨S_, .f32⟩
  | 51 => ⟨S_, .f32⟩
  | 52 => ⟨S128, .f32⟩
  | 53 => ⟨S1x128, .f32⟩
  | 54 => ⟨S1x128, .f32⟩
  | 55 => ⟨S1x128, .f32⟩
  | 56 => ⟨S_, .f32⟩
  | 57 => ⟨S_, .i1⟩
  | 58 => ⟨S_, .f32⟩
  | 59 => ⟨S_, .f32⟩
  | 60 => ⟨S1x128, .f32⟩
  | 61 => ⟨S1x128, .f32⟩
  | 62 => ⟨S6144x128, .f32⟩
  | 63 => ⟨S6144x128, .f32⟩
  | 64 => ⟨S_, .f32⟩
  | 65 => ⟨S1x128, .f32⟩
  | 66 => ⟨S1x128, .f32⟩
  | 67 => ⟨S1x128, .f32⟩
  | 68 => ⟨S6144x128, .f32⟩
  | 69 => ⟨S6144x128, .f32⟩
  | 70 => ⟨S1x128, .f32⟩
  | 71 => ⟨S6144x128, .f32⟩
  | 72 => ⟨S6144x128, .f32⟩
  | 73 => ⟨S1x128, .f32⟩
  | 74 => ⟨S6144x128, .f32⟩
  | 75 => ⟨S6144x128, .f32⟩
  | 76 => ⟨S6144x128, .f32⟩
  | 77 => ⟨S6144x128, .f32⟩
  | 78 => ⟨S128x6144, .f32⟩
  | 79 => ⟨S16384x6144, .f32⟩
  | 80 => ⟨S_, .f32⟩
  | 81 => ⟨S16384, .f32⟩
  | 82 => ⟨S_, .f32⟩
  | 83 => ⟨S16384, .f32⟩
  | 84 => ⟨S16384, .f32⟩
  | 85 => ⟨S16384x1, .f32⟩
  | 86 => ⟨S16384x6144, .f32⟩
  | 87 => ⟨S16384x6144, .f32⟩
  | 88 => ⟨S16384x6144, .f32⟩
  | 89 => ⟨S_, .f32⟩
  | 90 => ⟨S16384, .f32⟩
  | 91 => ⟨S16384x1, .f32⟩
  | 92 => ⟨S16384x6144, .f32⟩
  | 93 => ⟨S16384x6144, .f32⟩
  | 94 => ⟨S16384x128, .f32⟩
  | 95 => ⟨S16384x128, .f32⟩
  | 96 => ⟨S_, .f32⟩
  | 97 => ⟨S128, .f32⟩
  | 98 => ⟨S1x128, .f32⟩
  | 99 => ⟨S_, .f32⟩
  | 100 => ⟨S1x128, .f32⟩
  | 101 => ⟨S1x128, .f32⟩
  | 102 => ⟨S_, .i32⟩
  | 103 => ⟨S_, .f32⟩
  | 104 => ⟨S128, .f32⟩
  | 105 => ⟨S1x128, .f32⟩
  | 106 => ⟨S_, .f32⟩
  | 107 => ⟨S1x128, .f32⟩
  | 108 => ⟨S1x128, .f32⟩
  | 109 => ⟨S16384x128, .f32⟩
  | 110 => ⟨S16384x128, .f32⟩
  | 111 => ⟨S16384x128, .f32⟩
  | 112 => ⟨S_, .f32⟩
  | 113 => ⟨S_, .f32⟩
  | 114 => ⟨S_, .f32⟩
  | 115 => ⟨S_, .f32⟩
  | 116 => ⟨S128, .f32⟩
  | 117 => ⟨S1x128, .f32⟩
  | 118 => ⟨S1x128, .f32⟩
  | 119 => ⟨S1x128, .f32⟩
  | 120 => ⟨S_, .f32⟩
  | 121 => ⟨S_, .i1⟩
  | 122 => ⟨S_, .f32⟩
  | 123 => ⟨S_, .f32⟩
  | 124 => ⟨S1x128, .f32⟩
  | 125 => ⟨S1x128, .f32⟩
  | 126 => ⟨S16384x128, .f32⟩
  | 127 => ⟨S16384x128, .f32⟩
  | _ => ⟨S16384x32, .f32⟩

abbrev hbmTy0_1 (i : Nat) : BufTy := match i % 128 with
  | 0 => ⟨S_, .f32⟩
  | 1 => ⟨S1x128, .f32⟩
  | 2 => ⟨S1x128, .f32⟩
  | 3 => ⟨S1x128, .f32⟩
  | 4 => ⟨S16384x128, .f32⟩
  | 5 => ⟨S16384x128, .f32⟩
  | 6 => ⟨S1x128, .f32⟩
  | 7 => ⟨S16384x128, .f32⟩
  | 8 => ⟨S16384x128, .f32⟩
  | 9 => ⟨S1x128, .f32⟩
  | 10 => ⟨S16384x128, .f32⟩
  | 11 => ⟨S16384x128, .f32⟩
  | 12 => ⟨S16384x128, .f32⟩
  | 13 => ⟨S_, .f32⟩
  | 14 => ⟨S128, .f32⟩
  | 15 => ⟨S1x128, .f32⟩
  | 16 => ⟨S_, .f32⟩
  | 17 => ⟨S1x128, .f32⟩
  | 18 => ⟨S1x128, .f32⟩
  | 19 => ⟨S_, .i32⟩
  | 20 => ⟨S_, .f32⟩
  | 21 => ⟨S128, .f32⟩
  | 22 => ⟨S1x128, .f32⟩
  | 23 => ⟨S_, .f32⟩
  | 24 => ⟨S1x128, .f32⟩
  | 25 => ⟨S1x128, .f32⟩
  | 26 => ⟨S16384x128, .f32⟩
  | 27 => ⟨S16384x128, .f32⟩
  | 28 => ⟨S16384x128, .f32⟩
  | 29 => ⟨S_, .f32⟩
  | 30 => ⟨S_, .f32⟩
  | 31 => ⟨S_, .f32⟩
  | 32 => ⟨S_, .f32⟩
  | 33 => ⟨S128, .f32⟩
  | 34 => ⟨S1x128, .f32⟩
  | 35 => ⟨S1x128, .f32⟩
  | 36 => ⟨S1x128, .f32⟩
  | 37 => ⟨S_, .f32⟩
  | 38 => ⟨S_, .i1⟩
  | 39 => ⟨S_, .f32⟩
  | 40 => ⟨S_, .f32⟩
  | 41 => ⟨S1x128, .f32⟩
  | 42 => ⟨S1x128, .f32⟩
  | 43 => ⟨S16384x128, .f32⟩
  | 44 => ⟨S16384x128, .f32⟩
  | 45 => ⟨S_, .f32⟩
  | 46 => ⟨S1x128, .f32⟩
  | 47 => ⟨S1x128, .f32⟩
  | 48 => ⟨S1x128, .f32⟩
  | 49 => ⟨S16384x128, .f32⟩
  | 50 => ⟨S16384x128, .f32⟩
  | 51 => ⟨S1x128, .f32⟩
  | 52 => ⟨S16384x128, .f32⟩
  | 53 => ⟨S16384x128, .f32⟩
  | 54 => ⟨S1x128, .f32⟩
  | 55 => ⟨S16384x128, .f32⟩
  | 56 => ⟨S16384x128, .f32⟩
  | 57 => ⟨S_, .f32⟩
  | 58 => ⟨S16384x128, .f32⟩
  | 59 => ⟨S16384x128, .f32⟩
  | 60 => ⟨S16384x128, .f32⟩
  | 61 => ⟨S_, .f32⟩
  | 62 => ⟨S128, .f32⟩
  | 63 => ⟨S1x128, .f32⟩
  | 64 => ⟨S_, .f32⟩
  | 65 => ⟨S1x128, .f32⟩
  | 66 => ⟨S1x128, .f32⟩
  | 67 => ⟨S_, .i32⟩
  | 68 => ⟨S_, .f32⟩
  | 69 => ⟨S128, .f32⟩
  | 70 => ⟨S1x128, .f32⟩
  | 71 => ⟨S_, .f32⟩
  | 72 => ⟨S1x128, .f32⟩
  | 73 => ⟨S1x128, .f32⟩
  | 74 => ⟨S16384x128, .f32⟩
  | 75 => ⟨S16384x128, .f32⟩
  | 76 => ⟨S16384x128, .f32⟩
  | 77 => ⟨S_, .f32⟩
  | 78 => ⟨S_, .f32⟩
  | 79 => ⟨S_, .f32⟩
  | 80 => ⟨S_, .f32⟩
  | 81 => ⟨S128, .f32⟩
  | 82 => ⟨S1x128, .f32⟩
  | 83 => ⟨S1x128, .f32⟩
  | 84 => ⟨S1x128, .f32⟩
  | 85 => ⟨S_, .f32⟩
  | 86 => ⟨S_, .i1⟩
  | 87 => ⟨S_, .f32⟩
  | 88 => ⟨S_, .f32⟩
  | 89 => ⟨S1x128, .f32⟩
  | 90 => ⟨S1x128, .f32⟩
  | 91 => ⟨S16384x128, .f32⟩
  | 92 => ⟨S16384x128, .f32⟩
  | 93 => ⟨S_, .f32⟩
  | 94 => ⟨S1x128, .f32⟩
  | 95 => ⟨S1x128, .f32⟩
  | 96 => ⟨S1x128, .f32⟩
  | 97 => ⟨S16384x128, .f32⟩
  | 98 => ⟨S16384x128, .f32⟩
  | 99 => ⟨S1x128, .f32⟩
  | 100 => ⟨S16384x128, .f32⟩
  | 101 => ⟨S16384x128, .f32⟩
  | 102 => ⟨S1x128, .f32⟩
  | 103 => ⟨S16384x128, .f32⟩
  | 104 => ⟨S16384x128, .f32⟩
  | 105 => ⟨S_, .f32⟩
  | 106 => ⟨S16384x128, .f32⟩
  | 107 => ⟨S16384x128, .f32⟩
  | 108 => ⟨S16384x128, .f32⟩
  | 109 => ⟨S16384x128, .f32⟩
  | 110 => ⟨S_, .f32⟩
  | 111 => ⟨S128, .f32⟩
  | 112 => ⟨S1x128, .f32⟩
  | 113 => ⟨S_, .f32⟩
  | 114 => ⟨S1x128, .f32⟩
  | 115 => ⟨S1x128, .f32⟩
  | 116 => ⟨S_, .i32⟩
  | 117 => ⟨S_, .f32⟩
  | 118 => ⟨S128, .f32⟩
  | 119 => ⟨S1x128, .f32⟩
  | 120 => ⟨S_, .f32⟩
  | 121 => ⟨S1x128, .f32⟩
  | 122 => ⟨S1x128, .f32⟩
  | 123 => ⟨S16384x128, .f32⟩
  | 124 => ⟨S16384x128, .f32⟩
  | 125 => ⟨S16384x128, .f32⟩
  | 126 => ⟨S_, .f32⟩
  | 127 => ⟨S_, .f32⟩
  | _ => ⟨S16384x32, .f32⟩

abbrev hbmTy0_2 (i : Nat) : BufTy := match i % 128 with
  | 0 => ⟨S_, .f32⟩
  | 1 => ⟨S_, .f32⟩
  | 2 => ⟨S128, .f32⟩
  | 3 => ⟨S1x128, .f32⟩
  | 4 => ⟨S1x128, .f32⟩
  | 5 => ⟨S1x128, .f32⟩
  | 6 => ⟨S_, .f32⟩
  | 7 => ⟨S_, .i1⟩
  | 8 => ⟨S_, .f32⟩
  | 9 => ⟨S_, .f32⟩
  | 10 => ⟨S1x128, .f32⟩
  | 11 => ⟨S1x128, .f32⟩
  | 12 => ⟨S16384x128, .f32⟩
  | 13 => ⟨S16384x128, .f32⟩
  | 14 => ⟨S_, .f32⟩
  | 15 => ⟨S1x128, .f32⟩
  | 16 => ⟨S1x128, .f32⟩
  | 17 => ⟨S1x128, .f32⟩
  | 18 => ⟨S16384x128, .f32⟩
  | 19 => ⟨S16384x128, .f32⟩
  | 20 => ⟨S1x128, .f32⟩
  | 21 => ⟨S16384x128, .f32⟩
  | 22 => ⟨S16384x128, .f32⟩
  | 23 => ⟨S1x128, .f32⟩
  | 24 => ⟨S16384x128, .f32⟩
  | 25 => ⟨S16384x128, .f32⟩
  | 26 => ⟨S_, .f32⟩
  | 27 => ⟨S16384x128, .f32⟩
  | 28 => ⟨S16384x128, .f32⟩
  | _ => ⟨S16384x32, .f32⟩

abbrev hbmTy (i : Nat) : BufTy := match i / 128 with
  | 0 => hbmTy0_0 i
  | 1 => hbmTy0_1 i
  | 2 => hbmTy0_2 i
  | _ => ⟨S16384x32, .f32⟩

abbrev bufTy : (tb : Table) → Fin (tcTables nBuf tb) → BufTy
  | .hbm, ⟨i, _⟩ => hbmTy i
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_c : Ref sig .tc := ⟨.hbm, 22, rfl⟩
abbrev main_v2 : Ref sig .tc := ⟨.hbm, 23, rfl⟩
abbrev main_v3 : Ref sig .tc := ⟨.hbm, 24, rfl⟩
abbrev main_c_0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst : Ref sig .tc := ⟨.hbm, 32, rfl⟩
abbrev main_v10 : Ref sig .tc := ⟨.hbm, 33, rfl⟩
abbrev main_v11 : Ref sig .tc := ⟨.hbm, 34, rfl⟩
abbrev main_cst_1 : Ref sig .tc := ⟨.hbm, 35, rfl⟩
abbrev main_v12 : Ref sig .tc := ⟨.hbm, 36, rfl⟩
abbrev main_v13 : Ref sig .tc := ⟨.hbm, 37, rfl⟩
abbrev main_c_2 : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_cst_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_cst_1 : Ref sig .tc := ⟨.hbm, 49, rfl⟩
abbrev main_call0_v8 : Ref sig .tc := ⟨.hbm, 50, rfl⟩
abbrev main_call0_cst_2 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_v12 : Ref sig .tc := ⟨.hbm, 55, rfl⟩
abbrev main_call0_cst_3 : Ref sig .tc := ⟨.hbm, 56, rfl⟩
abbrev main_call0_v13 : Ref sig .tc := ⟨.hbm, 57, rfl⟩
abbrev main_call0_cst_4 : Ref sig .tc := ⟨.hbm, 58, rfl⟩
abbrev main_call0_call0_v0 : Ref sig .tc := ⟨.hbm, 59, rfl⟩
abbrev main_call0_call0_v1 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_cst_3 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_4 : Ref sig .tc := ⟨.hbm, 80, rfl⟩
abbrev main_v32 : Ref sig .tc := ⟨.hbm, 81, rfl⟩
abbrev main_cst_5 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_cst_6 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_cst_7 : Ref sig .tc := ⟨.hbm, 96, rfl⟩
abbrev main_v45 : Ref sig .tc := ⟨.hbm, 97, rfl⟩
abbrev main_v46 : Ref sig .tc := ⟨.hbm, 98, rfl⟩
abbrev main_cst_8 : Ref sig .tc := ⟨.hbm, 99, rfl⟩
abbrev main_v47 : Ref sig .tc := ⟨.hbm, 100, rfl⟩
abbrev main_v48 : Ref sig .tc := ⟨.hbm, 101, rfl⟩
abbrev main_c_9 : Ref sig .tc := ⟨.hbm, 102, rfl⟩
abbrev main_call1_cst : Ref sig .tc := ⟨.hbm, 103, rfl⟩
abbrev main_call1_v0 : Ref sig .tc := ⟨.hbm, 104, rfl⟩
abbrev main_call1_v1 : Ref sig .tc := ⟨.hbm, 105, rfl⟩
abbrev main_call1_cst_0 : Ref sig .tc := ⟨.hbm, 106, rfl⟩
abbrev main_call1_v2 : Ref sig .tc := ⟨.hbm, 107, rfl⟩
abbrev main_call1_v3 : Ref sig .tc := ⟨.hbm, 108, rfl⟩
abbrev main_call1_v4 : Ref sig .tc := ⟨.hbm, 109, rfl⟩
abbrev main_call1_v5 : Ref sig .tc := ⟨.hbm, 110, rfl⟩
abbrev main_call1_v6 : Ref sig .tc := ⟨.hbm, 111, rfl⟩
abbrev main_call1_v7 : Ref sig .tc := ⟨.hbm, 112, rfl⟩
abbrev main_call1_cst_1 : Ref sig .tc := ⟨.hbm, 113, rfl⟩
abbrev main_call1_v8 : Ref sig .tc := ⟨.hbm, 114, rfl⟩
abbrev main_call1_cst_2 : Ref sig .tc := ⟨.hbm, 115, rfl⟩
abbrev main_call1_v9 : Ref sig .tc := ⟨.hbm, 116, rfl⟩
abbrev main_call1_v10 : Ref sig .tc := ⟨.hbm, 117, rfl⟩
abbrev main_call1_v11 : Ref sig .tc := ⟨.hbm, 118, rfl⟩
abbrev main_call1_v12 : Ref sig .tc := ⟨.hbm, 119, rfl⟩
abbrev main_call1_cst_3 : Ref sig .tc := ⟨.hbm, 120, rfl⟩
abbrev main_call1_v13 : Ref sig .tc := ⟨.hbm, 121, rfl⟩
abbrev main_call1_cst_4 : Ref sig .tc := ⟨.hbm, 122, rfl⟩
abbrev main_call1_call0_v0 : Ref sig .tc := ⟨.hbm, 123, rfl⟩
abbrev main_call1_call0_v1 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_cst_10 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_cst_11 : Ref sig .tc := ⟨.hbm, 141, rfl⟩
abbrev main_v64 : Ref sig .tc := ⟨.hbm, 142, rfl⟩
abbrev main_v65 : Ref sig .tc := ⟨.hbm, 143, rfl⟩
abbrev main_cst_12 : Ref sig .tc := ⟨.hbm, 144, rfl⟩
abbrev main_v66 : Ref sig .tc := ⟨.hbm, 145, rfl⟩
abbrev main_v67 : Ref sig .tc := ⟨.hbm, 146, rfl⟩
abbrev main_c_13 : Ref sig .tc := ⟨.hbm, 147, rfl⟩
abbrev main_call2_cst : Ref sig .tc := ⟨.hbm, 148, rfl⟩
abbrev main_call2_v0 : Ref sig .tc := ⟨.hbm, 149, rfl⟩
abbrev main_call2_v1 : Ref sig .tc := ⟨.hbm, 150, rfl⟩
abbrev main_call2_cst_0 : Ref sig .tc := ⟨.hbm, 151, rfl⟩
abbrev main_call2_v2 : Ref sig .tc := ⟨.hbm, 152, rfl⟩
abbrev main_call2_v3 : Ref sig .tc := ⟨.hbm, 153, rfl⟩
abbrev main_call2_v4 : Ref sig .tc := ⟨.hbm, 154, rfl⟩
abbrev main_call2_v5 : Ref sig .tc := ⟨.hbm, 155, rfl⟩
abbrev main_call2_v6 : Ref sig .tc := ⟨.hbm, 156, rfl⟩
abbrev main_call2_v7 : Ref sig .tc := ⟨.hbm, 157, rfl⟩
abbrev main_call2_cst_1 : Ref sig .tc := ⟨.hbm, 158, rfl⟩
abbrev main_call2_v8 : Ref sig .tc := ⟨.hbm, 159, rfl⟩
abbrev main_call2_cst_2 : Ref sig .tc := ⟨.hbm, 160, rfl⟩
abbrev main_call2_v9 : Ref sig .tc := ⟨.hbm, 161, rfl⟩
abbrev main_call2_v10 : Ref sig .tc := ⟨.hbm, 162, rfl⟩
abbrev main_call2_v11 : Ref sig .tc := ⟨.hbm, 163, rfl⟩
abbrev main_call2_v12 : Ref sig .tc := ⟨.hbm, 164, rfl⟩
abbrev main_call2_cst_3 : Ref sig .tc := ⟨.hbm, 165, rfl⟩
abbrev main_call2_v13 : Ref sig .tc := ⟨.hbm, 166, rfl⟩
abbrev main_call2_cst_4 : Ref sig .tc := ⟨.hbm, 167, rfl⟩
abbrev main_call2_call0_v0 : Ref sig .tc := ⟨.hbm, 168, rfl⟩
abbrev main_call2_call0_v1 : Ref sig .tc := ⟨.hbm, 169, rfl⟩
abbrev main_v68 : Ref sig .tc := ⟨.hbm, 170, rfl⟩
abbrev main_v69 : Ref sig .tc := ⟨.hbm, 171, rfl⟩
abbrev main_v70 : Ref sig .tc := ⟨.hbm, 172, rfl⟩
abbrev main_cst_14 : Ref sig .tc := ⟨.hbm, 173, rfl⟩
abbrev main_v71 : Ref sig .tc := ⟨.hbm, 174, rfl⟩
abbrev main_v72 : Ref sig .tc := ⟨.hbm, 175, rfl⟩
abbrev main_v73 : Ref sig .tc := ⟨.hbm, 176, rfl⟩
abbrev main_v74 : Ref sig .tc := ⟨.hbm, 177, rfl⟩
abbrev main_v75 : Ref sig .tc := ⟨.hbm, 178, rfl⟩
abbrev main_v76 : Ref sig .tc := ⟨.hbm, 179, rfl⟩
abbrev main_v77 : Ref sig .tc := ⟨.hbm, 180, rfl⟩
abbrev main_v78 : Ref sig .tc := ⟨.hbm, 181, rfl⟩
abbrev main_v79 : Ref sig .tc := ⟨.hbm, 182, rfl⟩
abbrev main_v80 : Ref sig .tc := ⟨.hbm, 183, rfl⟩
abbrev main_v81 : Ref sig .tc := ⟨.hbm, 184, rfl⟩
abbrev main_call3_cst : Ref sig .tc := ⟨.hbm, 185, rfl⟩
abbrev main_call3_v0 : Ref sig .tc := ⟨.hbm, 186, rfl⟩
abbrev main_v82 : Ref sig .tc := ⟨.hbm, 187, rfl⟩
abbrev main_v83 : Ref sig .tc := ⟨.hbm, 188, rfl⟩
abbrev main_cst_15 : Ref sig .tc := ⟨.hbm, 189, rfl⟩
abbrev main_v84 : Ref sig .tc := ⟨.hbm, 190, rfl⟩
abbrev main_v85 : Ref sig .tc := ⟨.hbm, 191, rfl⟩
abbrev main_cst_16 : Ref sig .tc := ⟨.hbm, 192, rfl⟩
abbrev main_v86 : Ref sig .tc := ⟨.hbm, 193, rfl⟩
abbrev main_v87 : Ref sig .tc := ⟨.hbm, 194, rfl⟩
abbrev main_c_17 : Ref sig .tc := ⟨.hbm, 195, rfl⟩
abbrev main_call4_cst : Ref sig .tc := ⟨.hbm, 196, rfl⟩
abbrev main_call4_v0 : Ref sig .tc := ⟨.hbm, 197, rfl⟩
abbrev main_call4_v1 : Ref sig .tc := ⟨.hbm, 198, rfl⟩
abbrev main_call4_cst_0 : Ref sig .tc := ⟨.hbm, 199, rfl⟩
abbrev main_call4_v2 : Ref sig .tc := ⟨.hbm, 200, rfl⟩
abbrev main_call4_v3 : Ref sig .tc := ⟨.hbm, 201, rfl⟩
abbrev main_call4_v4 : Ref sig .tc := ⟨.hbm, 202, rfl⟩
abbrev main_call4_v5 : Ref sig .tc := ⟨.hbm, 203, rfl⟩
abbrev main_call4_v6 : Ref sig .tc := ⟨.hbm, 204, rfl⟩
abbrev main_call4_v7 : Ref sig .tc := ⟨.hbm, 205, rfl⟩
abbrev main_call4_cst_1 : Ref sig .tc := ⟨.hbm, 206, rfl⟩
abbrev main_call4_v8 : Ref sig .tc := ⟨.hbm, 207, rfl⟩
abbrev main_call4_cst_2 : Ref sig .tc := ⟨.hbm, 208, rfl⟩
abbrev main_call4_v9 : Ref sig .tc := ⟨.hbm, 209, rfl⟩
abbrev main_call4_v10 : Ref sig .tc := ⟨.hbm, 210, rfl⟩
abbrev main_call4_v11 : Ref sig .tc := ⟨.hbm, 211, rfl⟩
abbrev main_call4_v12 : Ref sig .tc := ⟨.hbm, 212, rfl⟩
abbrev main_call4_cst_3 : Ref sig .tc := ⟨.hbm, 213, rfl⟩
abbrev main_call4_v13 : Ref sig .tc := ⟨.hbm, 214, rfl⟩
abbrev main_call4_cst_4 : Ref sig .tc := ⟨.hbm, 215, rfl⟩
abbrev main_call4_call0_v0 : Ref sig .tc := ⟨.hbm, 216, rfl⟩
abbrev main_call4_call0_v1 : Ref sig .tc := ⟨.hbm, 217, rfl⟩
abbrev main_v88 : Ref sig .tc := ⟨.hbm, 218, rfl⟩
abbrev main_v89 : Ref sig .tc := ⟨.hbm, 219, rfl⟩
abbrev main_v90 : Ref sig .tc := ⟨.hbm, 220, rfl⟩
abbrev main_cst_18 : Ref sig .tc := ⟨.hbm, 221, rfl⟩
abbrev main_v91 : Ref sig .tc := ⟨.hbm, 222, rfl⟩
abbrev main_v92 : Ref sig .tc := ⟨.hbm, 223, rfl⟩
abbrev main_v93 : Ref sig .tc := ⟨.hbm, 224, rfl⟩
abbrev main_v94 : Ref sig .tc := ⟨.hbm, 225, rfl⟩
abbrev main_v95 : Ref sig .tc := ⟨.hbm, 226, rfl⟩
abbrev main_v96 : Ref sig .tc := ⟨.hbm, 227, rfl⟩
abbrev main_v97 : Ref sig .tc := ⟨.hbm, 228, rfl⟩
abbrev main_v98 : Ref sig .tc := ⟨.hbm, 229, rfl⟩
abbrev main_v99 : Ref sig .tc := ⟨.hbm, 230, rfl⟩
abbrev main_v100 : Ref sig .tc := ⟨.hbm, 231, rfl⟩
abbrev main_v101 : Ref sig .tc := ⟨.hbm, 232, rfl⟩
abbrev main_call5_cst : Ref sig .tc := ⟨.hbm, 233, rfl⟩
abbrev main_call5_v0 : Ref sig .tc := ⟨.hbm, 234, rfl⟩
abbrev main_v102 : Ref sig .tc := ⟨.hbm, 235, rfl⟩
abbrev main_v103 : Ref sig .tc := ⟨.hbm, 236, rfl⟩
abbrev main_v104 : Ref sig .tc := ⟨.hbm, 237, rfl⟩
abbrev main_cst_19 : Ref sig .tc := ⟨.hbm, 238, rfl⟩
abbrev main_v105 : Ref sig .tc := ⟨.hbm, 239, rfl⟩
abbrev main_v106 : Ref sig .tc := ⟨.hbm, 240, rfl⟩
abbrev main_cst_20 : Ref sig .tc := ⟨.hbm, 241, rfl⟩
abbrev main_v107 : Ref sig .tc := ⟨.hbm, 242, rfl⟩
abbrev main_v108 : Ref sig .tc := ⟨.hbm, 243, rfl⟩
abbrev main_c_21 : Ref sig .tc := ⟨.hbm, 244, rfl⟩
abbrev main_call6_cst : Ref sig .tc := ⟨.hbm, 245, rfl⟩
abbrev main_call6_v0 : Ref sig .tc := ⟨.hbm, 246, rfl⟩
abbrev main_call6_v1 : Ref sig .tc := ⟨.hbm, 247, rfl⟩
abbrev main_call6_cst_0 : Ref sig .tc := ⟨.hbm, 248, rfl⟩
abbrev main_call6_v2 : Ref sig .tc := ⟨.hbm, 249, rfl⟩
abbrev main_call6_v3 : Ref sig .tc := ⟨.hbm, 250, rfl⟩
abbrev main_call6_v4 : Ref sig .tc := ⟨.hbm, 251, rfl⟩
abbrev main_call6_v5 : Ref sig .tc := ⟨.hbm, 252, rfl⟩
abbrev main_call6_v6 : Ref sig .tc := ⟨.hbm, 253, rfl⟩
abbrev main_call6_v7 : Ref sig .tc := ⟨.hbm, 254, rfl⟩
abbrev main_call6_cst_1 : Ref sig .tc := ⟨.hbm, 255, rfl⟩
abbrev main_call6_v8 : Ref sig .tc := ⟨.hbm, 256, rfl⟩
abbrev main_call6_cst_2 : Ref sig .tc := ⟨.hbm, 257, rfl⟩
abbrev main_call6_v9 : Ref sig .tc := ⟨.hbm, 258, rfl⟩
abbrev main_call6_v10 : Ref sig .tc := ⟨.hbm, 259, rfl⟩
abbrev main_call6_v11 : Ref sig .tc := ⟨.hbm, 260, rfl⟩
abbrev main_call6_v12 : Ref sig .tc := ⟨.hbm, 261, rfl⟩
abbrev main_call6_cst_3 : Ref sig .tc := ⟨.hbm, 262, rfl⟩
abbrev main_call6_v13 : Ref sig .tc := ⟨.hbm, 263, rfl⟩
abbrev main_call6_cst_4 : Ref sig .tc := ⟨.hbm, 264, rfl⟩
abbrev main_call6_call0_v0 : Ref sig .tc := ⟨.hbm, 265, rfl⟩
abbrev main_call6_call0_v1 : Ref sig .tc := ⟨.hbm, 266, rfl⟩
abbrev main_v109 : Ref sig .tc := ⟨.hbm, 267, rfl⟩
abbrev main_v110 : Ref sig .tc := ⟨.hbm, 268, rfl⟩
abbrev main_v111 : Ref sig .tc := ⟨.hbm, 269, rfl⟩
abbrev main_cst_22 : Ref sig .tc := ⟨.hbm, 270, rfl⟩
abbrev main_v112 : Ref sig .tc := ⟨.hbm, 271, rfl⟩
abbrev main_v113 : Ref sig .tc := ⟨.hbm, 272, rfl⟩
abbrev main_v114 : Ref sig .tc := ⟨.hbm, 273, rfl⟩
abbrev main_v115 : Ref sig .tc := ⟨.hbm, 274, rfl⟩
abbrev main_v116 : Ref sig .tc := ⟨.hbm, 275, rfl⟩
abbrev main_v117 : Ref sig .tc := ⟨.hbm, 276, rfl⟩
abbrev main_v118 : Ref sig .tc := ⟨.hbm, 277, rfl⟩
abbrev main_v119 : Ref sig .tc := ⟨.hbm, 278, rfl⟩
abbrev main_v120 : Ref sig .tc := ⟨.hbm, 279, rfl⟩
abbrev main_v121 : Ref sig .tc := ⟨.hbm, 280, rfl⟩
abbrev main_v122 : Ref sig .tc := ⟨.hbm, 281, rfl⟩
abbrev main_call7_cst : Ref sig .tc := ⟨.hbm, 282, rfl⟩
abbrev main_call7_v0 : Ref sig .tc := ⟨.hbm, 283, rfl⟩
abbrev main_v123 : Ref sig .tc := ⟨.hbm, 284, rfl⟩

abbrev nD : Nat := 1
abbrev τ : Topo := Topo.v7x

variable {F : FTy → Type} [FloatOps F]

class Facts₀ : Prop where
  bcast_S_S6144 : S_.BroadcastsInDim S6144 (![] : Fin 0 → Fin S6144.rank)
  bcast_S6144_S6144x1_0 : S6144.BroadcastsInDim S6144x1 (![0] : Fin 1 → Fin S6144x1.rank)
  reducesTo_S6144x128_S128_d0 : S6144x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S6144x128_0_1 : S1x128.BroadcastsInDim S6144x128 (![0, 1] : Fin 2 → Fin S6144x128.rank)
  transposes_S6144x128_S128x6144_1_0 : S6144x128.Transposes [1, 0] S128x6144
  reducesTo_S16384x6144_S16384_d1 : S16384x6144.ReducesTo [1] S16384
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x6144_0_1 : S16384x1.BroadcastsInDim S16384x6144 (![0, 1] : Fin 2 → Fin S16384x6144.rank)
  reducesTo_S16384x128_S128_d0 : S16384x128.ReducesTo [0] S128
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  dot_S16384x32_S32x128_S16384x128_1_0_0_1_n_n_wf : DotDims.WF S16384x32 S32x128 S16384x128 [1] [0] [0] [1] [] []
  dot_S16384x128_S128x128_S16384x128_1_0_0_1_n_n_wf : DotDims.WF S16384x128 S128x128 S16384x128 [1] [0] [0] [1] [] []
  gather_S16384x128_S6144x1_S6144x128_1_0_n_n_0_1_1128_wf : GatherDims.WF S16384x128 S6144x1 S6144x128 [1] [0] [] [0] [] 1 ![1, 128]
  dot_S6144x128_S128x128_S6144x128_1_0_0_1_n_n_wf : DotDims.WF S6144x128 S128x128 S6144x128 [1] [0] [0] [1] [] []
  dot_S16384x128_S128x6144_S16384x6144_1_0_0_1_n_n_wf : DotDims.WF S16384x128 S128x6144 S16384x6144 [1] [0] [0] [1] [] []
  dot_S16384x6144_S6144x128_S16384x128_1_0_0_1_n_n_wf : DotDims.WF S16384x6144 S6144x128 S16384x128 [1] [0] [0] [1] [] []

variable [Facts₀]

def dot_S16384x32_S32x128_S16384x128_1_0_0_1_n_n : DotDims S16384x32 S32x128 S16384x128 where
  lhsContracting := [1]
  rhsContracting := [0]
  lhsNonContracting := [0]
  rhsNonContracting := [1]
  lhsBatch := []
  rhsBatch := []
  wf := dot_S16384x32_S32x128_S16384x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def gather_S16384x128_S6144x1_S6144x128_1_0_n_n_0_1_1128 : GatherDims S16384x128 S6144x1 S6144x128 where
  offsetDims := [1]
  collapsedSliceDims := [0]
  operandBatchingDims := []
  startIndicesBatchingDims := []
  startIndexMap := [0]
  indexVectorDim := 1
  sliceSizes := ![1, 128]
  wf := gather_S16384x128_S6144x1_S6144x128_1_0_n_n_0_1_1128_wf
def dot_S6144x128_S128x128_S6144x128_1_0_0_1_n_n : DotDims S6144x128 S128x128 S6144x128 where
  lhsContracting := [1]
  rhsContracting := [0]
  lhsNonContracting := [0]
  rhsNonContracting := [1]
  lhsBatch := []
  rhsBatch := []
  wf := dot_S6144x128_S128x128_S6144x128_1_0_0_1_n_n_wf
def dot_S16384x128_S128x6144_S16384x6144_1_0_0_1_n_n : DotDims S16384x128 S128x6144 S16384x6144 where
  lhsContracting := [1]
  rhsContracting := [0]
  lhsNonContracting := [0]
  rhsNonContracting := [1]
  lhsBatch := []
  rhsBatch := []
  wf := dot_S16384x128_S128x6144_S16384x6144_1_0_0_1_n_n_wf
def dot_S16384x6144_S6144x128_S16384x128_1_0_0_1_n_n : DotDims S16384x6144 S6144x128 S16384x128 where
  lhsContracting := [1]
  rhsContracting := [0]
  lhsNonContracting := [0]
  rhsNonContracting := [1]
  lhsBatch := []
  rhsBatch := []
  wf := dot_S16384x6144_S6144x128_S16384x128_1_0_0_1_n_n_wf

class Facts : Prop extends Facts₀ where

variable [Facts]
-- ==== Proof.KKernel.lean ====
import proofs.«421826_j62139586839041_3_alg».proof.Proof.Gen.Kernel.Skeleton
import Idealize.ShloMosaic.Lib.Pipeline.FrameBody
import Idealize.ShloMosaic.Lib.Tactic
import Idealize.ShloMosaic.Lib.Ring

/-! The kernel body of the one pipelined region, as a triple: on whole staging buffers holding the five input
    blocks, and the output buffer at any contents, the body ends with the inputs unchanged and the output buffer
    at the payload of the five blocks, stored over the whole buffer. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each the whole of its buffer -/

abbrev rA : Rect S512x128 := Rect.unit (s := S512x128) ![0, 0] S512x128.size inb_S512x128_S512x128_0_0
abbrev rKt : Rect S128x6144 := Rect.unit (s := S128x6144) ![0, 0] S128x6144.size inb_S128x6144_S128x6144_0_0
abbrev rV : Rect S6144x128 := Rect.unit (s := S6144x128) ![0, 0] S6144x128.size inb_S6144x128_S6144x128_0_0
abbrev rW : Rect S128x128 := Rect.unit (s := S128x128) ![0, 0] S128x128.size inb_S128x128_S128x128_0_0

/-! ## What the body leaves in the output buffer -/

/-- The output buffer after the body, from the five input blocks: its one store, over the whole buffer, of the
    payload of the five loaded values. -/
def tileOut (x0 : Vec F S512x128 .bf16) (x1 : Vec F S128x6144 .bf16) (x2 : Vec F S6144x128 .bf16)
    (x3 x4 : Vec F S128x128 .bf16) : Vec F S512x128 .f32 :=
  View.canon [⟨rA, k0_pay1 (View.ld x0 rA) (View.ld x1 rKt) (View.ld x2 rV) (View.ld x3 rW) (View.ld x4 rW)⟩]

/-- The one store covers the buffer: its rectangle is the whole of it. -/
theorem cover_out (p0 : Vec F S512x128 .f32) (y : S512x128.Idx) :
    ∃ pc ∈ ([⟨rA, p0⟩] : List (View.Piece (Elt F) S512x128 .f32)), y ∈ pc.1.set :=
  View.cover_of_tiled [⟨rA, p0⟩] S512x128.size (by rfl) y

/-! ## The body's triple -/

set_option maxHeartbeats 1000000 in
theorem sound_kernel (c : Dev nD) (E : Set ℕ) (i : grid0.Coords)
    (arg1 : Memref sig .tc .vmem S512x128 .bf16) (harg1 : arg1.IsWhole)
    (arg2 : Memref sig .tc .vmem S128x6144 .bf16) (harg2 : arg2.IsWhole)
    (arg3 : Memref sig .tc .vmem S6144x128 .bf16) (harg3 : arg3.IsWhole)
    (arg4 : Memref sig .tc .vmem S128x128 .bf16) (harg4 : arg4.IsWhole)
    (arg5 : Memref sig .tc .vmem S128x128 .bf16) (harg5 : arg5.IsWhole)
    (arg6 : Memref sig .tc .vmem S512x128 .f32) (harg6 : arg6.IsWhole)
    (x0 : Vec F S512x128 .bf16) (x1 : Vec F S128x6144 .bf16) (x2 : Vec F S6144x128 .bf16)
    (x3 x4 : Vec F S128x128 .bf16) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (tileOut x0 x1 x2 x3 x4)) -∗ K ⟨⟩))
      ⊢ wp frame (wpE (defs₀ (F := F)) Variants.none c none) E
          (cc0__attn_kernel i arg1 harg1 arg2 harg2 arg3 harg3 arg4 harg4 arg5 harg5 arg6 harg6) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

end Cert.Kernel.Hand

end
-- ==== Proof.KFrame.lean ====
import proofs.«421826_j62139586839041_3_alg».proof.Proof.KKernel
import proofs.«421826_j62139586839041_3_alg».proof.Proof.Gen.Kernel.Launch
import proofs.«421826_j62139586839041_3_alg».proof.Proof.Gen.Kernel.Points
import Idealize.ShloMosaic.Lib.Pipeline.FrameBody
import Idealize.ShloMosaic.Lib.Pipeline.FrameSuffix

/-! The frame of the program around its one pipelined region: the host operations before the region leave the
    twenty argument arrays as launched, the region runs (every point's body by the kernel's triple), and the host
    operations after it write neither an argument array nor an array of the pipeline; hence every argument array
    ends as launched. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region, and the contents the region finds -/

/-- The stretches of host operations before the region, in order. -/
abbrev headOps : List (List (HloOp τ sig (Elt F))) := [hostOps0, hostOps0_1, hostOps0_2]
/-- The stretches of host operations after the region, in order. -/
abbrev tailOps : List (List (HloOp τ sig (Elt F))) :=
  [hostOps1, hostOps1_1, hostOps1_2, hostOps1_3, hostOps1_4, hostOps1_5, hostOps1_6, hostOps1_7, hostOps1_8,
   hostOps1_9, hostOps1_10, hostOps1_11, hostOps1_12, hostOps1_13]

/-- A core's TensorCore buffer contents when the region is entered: the launch contents after the head. -/
abbrev V0 (c : Dev nD) : Valuation τ sig (Elt F) := StableHlo.after (List.flatten headOps) (fun b => m (c, b))
/-- The same, read at a TensorCore reference. -/
abbrev V (c : Dev nD) (b : Ref sig .tc) : Buf (Elt F) ((c : Thread nD τ).loc b) := V0 m c (Proc.devRef .tc b)

/-! ## No host operation around the region writes an argument array or an array of the pipeline -/

/-- The twenty argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

/-- A reference in a list differs from one that is not in it. -/
theorem ne_of_mem_of_not_mem' {α : Type} {l : List α} {a b : α} (ha : a ∈ l) (hb : b ∉ l) : a ≠ b :=
  fun e => hb (e ▸ ha)

/-- No operation before the region writes an argument array: each writes its own result buffer only, and that is
    none of the twenty. -/
theorem head_keeps_args : (List.flatten headOps : List (HloOp τ sig (Elt F))).Forall fun op =>
    ∀ b ∈ argRefs, Proc.devRef (τ := τ) .tc b ∉ op.writes := by
  simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact fun b hb => StableHlo.devRef_ne_of_ne (ne_of_mem_of_not_mem' hb (by decide))

/-- Nor does any operation after the region. -/
theorem tail_keeps_args : (List.flatten tailOps : List (HloOp τ sig (Elt F))).Forall fun op =>
    ∀ b ∈ argRefs, Proc.devRef (τ := τ) .tc b ∉ op.writes := by
  simp only [hostOps1, hostOps1_1, hostOps1_2, hostOps1_3, hostOps1_4, hostOps1_5, hostOps1_6, hostOps1_7, hostOps1_8, hostOps1_9, hostOps1_10, hostOps1_11, hostOps1_12, hostOps1_13, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact fun b hb => StableHlo.devRef_ne_of_ne (ne_of_mem_of_not_mem' hb (by decide))

/-- And none after the region writes an array of the pipeline. -/
theorem tail_keeps_arrs : (List.flatten tailOps : List (HloOp τ sig (Elt F))).Forall fun op =>
    ∀ w, Proc.devRef (τ := τ) .tc (Pipeline.arrRef spec0 w) ∉ op.writes := by
  simp only [hostOps1, hostOps1_1, hostOps1_2, hostOps1_3, hostOps1_4, hostOps1_5, hostOps1_6, hostOps1_7, hostOps1_8, hostOps1_9, hostOps1_10, hostOps1_11, hostOps1_12, hostOps1_13, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact fun w => StableHlo.devRef_ne_of_ne ((by decide : ∀ w, Pipeline.arrRef spec0 w ≠ _) w)

/-- An argument array is as launched when the region is entered. -/
theorem V_of_arg (c : Dev nD) (b : Ref sig .tc) (hb : b ∈ argRefs) : V m c b = m ((c : Thread nD τ).loc b) :=
  StableHlo.after_of_forall_not_mem (b := Proc.devRef .tc b) _ _
    (fun op hop => List.forall_iff_forall_mem.mp head_keeps_args op hop b hb)

/-- And as launched after the operations that follow the region, whatever the pipeline left in its own arrays. -/
theorem W_of_arg (dats' : (p : Fin 1) → (c : Dev nD) → Dat τ (Elt F) Unit ℕ (UR sig nD τ) ℕ (cfgs p) c) (c : Dev nD)
    (b : Ref sig .tc) (hb : b ∈ argRefs) (hne : ∀ w, Pipeline.arrRef spec0 w ≠ b) :
    Pipeline.afterTail₀ cfgs dats' 0 (V0 m) tailOps c b = m ((c : Thread nD τ).loc b) := by
  unfold Pipeline.afterTail₀
  rw [StableHlo.after_of_forall_not_mem (b := Proc.devRef .tc b) _ _
      (fun op hop => List.forall_iff_forall_mem.mp tail_keeps_args op hop b hb),
    Pipeline.withArrays_of_ne _ c (V0 m c) _ b hne]
  exact V_of_arg m c b hb

/-! ## The argument arrays across the head and the tail, one by one -/

theorem V_main_arg0 (c : Dev nD) : V m c main_arg0 = m ((c : Thread nD τ).loc main_arg0) :=
  V_of_arg m c main_arg0 (by decide)
theorem V_main_arg1 (c : Dev nD) : V m c main_arg1 = m ((c : Thread nD τ).loc main_arg1) :=
  V_of_arg m c main_arg1 (by decide)
theorem V_main_arg2 (c : Dev nD) : V m c main_arg2 = m ((c : Thread nD τ).loc main_arg2) :=
  V_of_arg m c main_arg2 (by decide)
theorem V_main_arg3 (c : Dev nD) : V m c main_arg3 = m ((c : Thread nD τ).loc main_arg3) :=
  V_of_arg m c main_arg3 (by decide)
theorem V_main_arg4 (c : Dev nD) : V m c main_arg4 = m ((c : Thread nD τ).loc main_arg4) :=
  V_of_arg m c main_arg4 (by decide)
theorem V_main_arg5 (c : Dev nD) : V m c main_arg5 = m ((c : Thread nD τ).loc main_arg5) :=
  V_of_arg m c main_arg5 (by decide)
theorem V_main_arg6 (c : Dev nD) : V m c main_arg6 = m ((c : Thread nD τ).loc main_arg6) :=
  V_of_arg m c main_arg6 (by decide)
theorem V_main_arg7 (c : Dev nD) : V m c main_arg7 = m ((c : Thread nD τ).loc main_arg7) :=
  V_of_arg m c main_arg7 (by decide)
theorem V_main_arg8 (c : Dev nD) : V m c main_arg8 = m ((c : Thread nD τ).loc main_arg8) :=
  V_of_arg m c main_arg8 (by decide)
theorem V_main_arg9 (c : Dev nD) : V m c main_arg9 = m ((c : Thread nD τ).loc main_arg9) :=
  V_of_arg m c main_arg9 (by decide)
theorem V_main_arg10 (c : Dev nD) : V m c main_arg10 = m ((c : Thread nD τ).loc main_arg10) :=
  V_of_arg m c main_arg10 (by decide)
theorem V_main_arg11 (c : Dev nD) : V m c main_arg11 = m ((c : Thread nD τ).loc main_arg11) :=
  V_of_arg m c main_arg11 (by decide)
theorem V_main_arg12 (c : Dev nD) : V m c main_arg12 = m ((c : Thread nD τ).loc main_arg12) :=
  V_of_arg m c main_arg12 (by decide)
theorem V_main_arg13 (c : Dev nD) : V m c main_arg13 = m ((c : Thread nD τ).loc main_arg13) :=
  V_of_arg m c main_arg13 (by decide)
theorem V_main_arg14 (c : Dev nD) : V m c main_arg14 = m ((c : Thread nD τ).loc main_arg14) :=
  V_of_arg m c main_arg14 (by decide)
theorem V_main_arg15 (c : Dev nD) : V m c main_arg15 = m ((c : Thread nD τ).loc main_arg15) :=
  V_of_arg m c main_arg15 (by decide)
theorem V_main_arg16 (c : Dev nD) : V m c main_arg16 = m ((c : Thread nD τ).loc main_arg16) :=
  V_of_arg m c main_arg16 (by decide)
theorem V_main_arg17 (c : Dev nD) : V m c main_arg17 = m ((c : Thread nD τ).loc main_arg17) :=
  V_of_arg m c main_arg17 (by decide)
theorem V_main_arg18 (c : Dev nD) : V m c main_arg18 = m ((c : Thread nD τ).loc main_arg18) :=
  V_of_arg m c main_arg18 (by decide)
theorem V_main_arg19 (c : Dev nD) : V m c main_arg19 = m ((c : Thread nD τ).loc main_arg19) :=
  V_of_arg m c main_arg19 (by decide)

theorem W_main_arg0 (dats' : (p : Fin 1) → (c : Dev nD) → Dat τ (Elt F) Unit ℕ (UR sig nD τ) ℕ (cfgs p) c) (c : Dev nD) :
    Pipeline.afterTail₀ cfgs dats' 0 (V0 m) tailOps c main_arg0 = m ((c : Thread nD τ).loc main_arg0) :=
  W_of_arg m dats' c main_arg0 (by decide) (by decide)
theorem W_main_arg1 (dats' : (p : Fin 1) → (c : Dev nD) → Dat τ (Elt F) Unit ℕ (UR sig nD τ) ℕ (cfgs p) c) (c : Dev nD) :
    Pipeline.afterTail₀ cfgs dats' 0 (V0 m) tailOps c main_arg1 = m ((c : Thread nD τ).loc main_arg1) :=
  W_of_arg m dats' c main_arg1 (by decide) (by decide)
theorem W_main_arg2 (dats' : (p : Fin 1) → (c : Dev nD) → Dat τ (Elt F) Unit ℕ (UR sig nD τ) ℕ (cfgs p) c) (c : Dev nD) :
    Pipeline.afterTail₀ cfgs dats' 0 (V0 m) tailOps c main_arg2 = m ((c : Thread nD τ).loc main_arg2) :=
  W_of_arg m dats' c main_arg2 (by decide) (by decide)
theorem W_main_arg3 (dats' : (p : Fin 1) → (c : Dev nD) → Dat τ (Elt F) Unit ℕ (UR sig nD τ) ℕ (cfgs p) c) (c : Dev nD) :
    Pipeline.afterTail₀ cfgs dats' 0 (V0 m) tailOps c main_arg3 = m ((c : Thread nD τ).loc main_arg3) :=
  W_of_arg m dats' c main_arg3 (by decide) (by decide)
theorem W_main_arg4 (dats' : (p : Fin 1) → (c : Dev nD) → Dat τ (Elt F) Unit ℕ (UR sig nD τ) ℕ (cfgs p) c) (c : Dev nD) :
    Pipeline.afterTail₀ cfgs dats' 0 (V0 m) tailOps c main_arg4 = m ((c : Thread nD τ).loc main_arg4) :=
  W_of_arg m dats' c main_arg4 (by decide) (by decide)
theorem W_main_arg5 (dats' : (p : Fin 1) → (c : Dev nD) → Dat τ (Elt F) Unit ℕ (UR sig nD τ) ℕ (cfgs p) c) (c : Dev nD) :
    Pipeline.afterTail₀ cfgs dats' 0 (V0 m) tailOps c main_arg5 = m ((c : Thread nD τ).loc main_arg5) :=
  W_of_arg m dats' c main_arg5 (by decide) (by decide)
theorem W_main_arg6 (dats' : (p : Fin 1) → (c : Dev nD) → Dat τ (Elt F) Unit ℕ (UR sig nD τ) ℕ (cfgs p) c) (c : Dev nD) :
    Pipeline.afterTail₀ cfgs dats' 0 (V0 m) tailOps c main_arg6 = m ((c : Thread nD τ).loc main_arg6) :=
  W_of_arg m dats' c main_arg6 (by decide) (by decide)
theorem W_main_arg7 (dats' : (p : Fin 1) → (c : Dev nD) → Dat τ (Elt F) Unit ℕ (UR sig nD τ) ℕ (cfgs p) c) (c : Dev nD) :
    Pipeline.afterTail₀ cfgs dats' 0 (V0 m) tailOps c main_arg7 = m ((c : Thread nD τ).loc main_arg7) :=
  W_of_arg m dats' c main_arg7 (by decide) (by decide)
theorem W_main_arg8 (dats' : (p : Fin 1) → (c : Dev nD) → Dat τ (Elt F) Unit ℕ (UR sig nD τ) ℕ (cfgs p) c) (c : Dev nD) :
    Pipeline.afterTail₀ cfgs dats' 0 (V0 m) tailOps c main_arg8 = m ((c : Thread nD τ).loc main_arg8) :=
  W_of_arg m dats' c main_arg8 (by decide) (by decide)
theorem W_main_arg9 (dats' : (p : Fin 1) → (c : Dev nD) → Dat τ (Elt F) Unit ℕ (UR sig nD τ) ℕ (cfgs p) c) (c : Dev nD) :
    Pipeline.afterTail₀ cfgs dats' 0 (V0 m) tailOps c main_arg9 = m ((c : Thread nD τ).loc main_arg9) :=
  W_of_arg m dats' c main_arg9 (by decide) (by decide)
theorem W_main_arg10 (dats' : (p : Fin 1) → (c : Dev nD) → Dat τ (Elt F) Unit ℕ (UR sig nD τ) ℕ (cfgs p) c) (c : Dev nD) :
    Pipeline.afterTail₀ cfgs dats' 0 (V0 m) tailOps c main_arg10 = m ((c : Thread nD τ).loc main_arg10) :=
  W_of_arg m dats' c main_arg10 (by decide) (by decide)
theorem W_main_arg11 (dats' : (p : Fin 1) → (c : Dev nD) → Dat τ (Elt F) Unit ℕ (UR sig nD τ) ℕ (cfgs p) c) (c : Dev nD) :
    Pipeline.afterTail₀ cfgs dats' 0 (V0 m) tailOps c main_arg11 = m ((c : Thread nD τ).loc main_arg11) :=
  W_of_arg m dats' c main_arg11 (by decide) (by decide)
theorem W_main_arg12 (dats' : (p : Fin 1) → (c : Dev nD) → Dat τ (Elt F) Unit ℕ (UR sig nD τ) ℕ (cfgs p) c) (c : Dev nD) :
    Pipeline.afterTail₀ cfgs dats' 0 (V0 m) tailOps c main_arg12 = m ((c : Thread nD τ).loc main_arg12) :=
  W_of_arg m dats' c main_arg12 (by decide) (by decide)
theorem W_main_arg13 (dats' : (p : Fin 1) → (c : Dev nD) → Dat τ (Elt F) Unit ℕ (UR sig nD τ) ℕ (cfgs p) c) (c : Dev nD) :
    Pipeline.afterTail₀ cfgs dats' 0 (V0 m) tailOps c main_arg13 = m ((c : Thread nD τ).loc main_arg13) :=
  W_of_arg m dats' c main_arg13 (by decide) (by decide)
theorem W_main_arg14 (dats' : (p : Fin 1) → (c : Dev nD) → Dat τ (Elt F) Unit ℕ (UR sig nD τ) ℕ (cfgs p) c) (c : Dev nD) :
    Pipeline.afterTail₀ cfgs dats' 0 (V0 m) tailOps c main_arg14 = m ((c : Thread nD τ).loc main_arg14) :=
  W_of_arg m dats' c main_arg14 (by decide) (by decide)
theorem W_main_arg15 (dats' : (p : Fin 1) → (c : Dev nD) → Dat τ (Elt F) Unit ℕ (UR sig nD τ) ℕ (cfgs p) c) (c : Dev nD) :
    Pipeline.afterTail₀ cfgs dats' 0 (V0 m) tailOps c main_arg15 = m ((c : Thread nD τ).loc main_arg15) :=
  W_of_arg m dats' c main_arg15 (by decide) (by decide)
theorem W_main_arg16 (dats' : (p : Fin 1) → (c : Dev nD) → Dat τ (Elt F) Unit ℕ (UR sig nD τ) ℕ (cfgs p) c) (c : Dev nD) :
    Pipeline.afterTail₀ cfgs dats' 0 (V0 m) tailOps c main_arg16 = m ((c : Thread nD τ).loc main_arg16) :=
  W_of_arg m dats' c main_arg16 (by decide) (by decide)
theorem W_main_arg17 (dats' : (p : Fin 1) → (c : Dev nD) → Dat τ (Elt F) Unit ℕ (UR sig nD τ) ℕ (cfgs p) c) (c : Dev nD) :
    Pipeline.afterTail₀ cfgs dats' 0 (V0 m) tailOps c main_arg17 = m ((c : Thread nD τ).loc main_arg17) :=
  W_of_arg m dats' c main_arg17 (by decide) (by decide)
theorem W_main_arg18 (dats' : (p : Fin 1) → (c : Dev nD) → Dat τ (Elt F) Unit ℕ (UR sig nD τ) ℕ (cfgs p) c) (c : Dev nD) :
    Pipeline.afterTail₀ cfgs dats' 0 (V0 m) tailOps c main_arg18 = m ((c : Thread nD τ).loc main_arg18) :=
  W_of_arg m dats' c main_arg18 (by decide) (by decide)
theorem W_main_arg19 (dats' : (p : Fin 1) → (c : Dev nD) → Dat τ (Elt F) Unit ℕ (UR sig nD τ) ℕ (cfgs p) c) (c : Dev nD) :
    Pipeline.afterTail₀ cfgs dats' 0 (V0 m) tailOps c main_arg19 = m ((c : Thread nD τ).loc main_arg19) :=
  W_of_arg m dats' c main_arg19 (by decide) (by decide)

/-! ## @main around the region -/

/-- No host operation allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor

/-- A property of every operation of every stretch after the region, from the stretches' own lists. -/
theorem forall_tail {p : HloOp τ sig (Elt F) → Prop} (h : (tailOps : List (List (HloOp τ sig (Elt F)))).Forall fun ops => ops.Forall p) :
    ∀ ops ∈ (tailOps : List (List (HloOp τ sig (Elt F)))), ∀ op ∈ ops, p op :=
  fun ops hops op hop => List.forall_iff_forall_mem.mp (List.forall_iff_forall_mem.mp h ops hops) op hop

/-- @main is the head, the region, then the tail: it reduces to the region continued by the tail. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps : List (List (HloOp τ sig (Elt F)))).map StableHlo.seq)) :=
  Pipeline.hmain_around cfgs 0 defs₀ 𝒱₀ m main headOps tailOps
    (by simp only [List.Forall]; exact ⟨hostOps0_sub, hostOps0_1_sub, hostOps0_2_sub⟩)
    (by simp only [List.Forall]; exact ⟨hostOps0_fresh, hostOps0_1_fresh, hostOps0_2_fresh⟩) main_chain

/-- The tail touches unscoped TensorCore references only: with nothing prefetched, each is an array of the pipeline
    or a buffer that bypasses it. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (forall_tail (p := fun op => op.bufs ⊆ StableHlo.tcRefs τ sig)
    (by simp only [List.Forall]; exact ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub⟩) ops hops op hop)

/-- It allocates nothing. -/
theorem sfx_fresh : ∀ ops ∈ (tailOps : List (List (HloOp τ sig (Elt F)))), ∀ op ∈ ops, op.fresh = ∅ :=
  forall_tail (p := fun op => op.fresh = ∅)
    (by simp only [List.Forall]; exact ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh, hostOps1_13_fresh⟩)

/-- And it writes no array of the pipeline. -/
theorem sfx_keeps : ∀ ops ∈ (tailOps : List (List (HloOp τ sig (Elt F)))), ∀ op ∈ ops,
    ∀ w, Proc.devRef .tc (Pipeline.arrRef spec0 w) ∉ op.writes :=
  fun ops hops op hop => List.forall_iff_forall_mem.mp tail_keeps_arrs op (List.mem_flatten_of_mem hops hop)

/-! ## The windows' blocks and the proof data -/

/-- A window's block at a point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data of the pipeline on a core: the arrays as the region finds them; after the body at a point each
    input's buffer at its block and the output's at the payload of the five blocks; the untouched invariant; full
    shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tileOut (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t =
    tileOut (iblk m c 0 t) (iblk m c 1 t) (iblk m c 2 t) (iblk m c 3 t) (iblk m c 4 t) := by dsimp only [dats]

/-! ## The staging buffers before the body -/

/-- Each input's current staging buffer holds its block at every point, fetched there or not: unfetched, its index
    has not moved since the point that fetched it, and the body leaves the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

/-! ## The body obligation -/

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the five inputs' buffers hold their blocks, the output's holds anything, so the kernel's
    triple applies; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main on the TensorCores terminates, every
    array of the pipeline ends at what the proof data compute and every other unscoped buffer as the tail leaves it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: every argument array ends as launched. Each is an unscoped buffer that is no array of the pipeline, so
    the run's post gives it as the tail leaves it, which is as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c =>
    ⟨((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c),
      ((h c).2 main_arg18 (Pipeline.mem_restRefs_of main_arg18 (by decide) (by decide))).trans (W_main_arg18 m (dats m) c),
      ((h c).2 main_arg19 (Pipeline.mem_restRefs_of main_arg19 (by decide) (by decide))).trans (W_main_arg19 m (dats m) c)⟩) (run_main m ρ)

end Cert.Kernel.Hand

end
-- ==== Proof.KIKernel.lean ====
import proofs.«421826_j62139586839041_3_alg».proof.Proof.Gen.KernelIdeal.Skeleton
import Idealize.ShloMosaic.Lib.Pipeline.FrameBody
import Idealize.ShloMosaic.Lib.Tactic
import Idealize.ShloMosaic.Lib.Ring

/-! The kernel body of the one pipelined region, as a triple: on whole staging buffers holding the five input
    blocks, and the output buffer at any contents, the body ends with the inputs unchanged and the output buffer
    at the payload of the five blocks, stored over the whole buffer. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each the whole of its buffer -/

abbrev rA : Rect S512x128 := Rect.unit (s := S512x128) ![0, 0] S512x128.size inb_S512x128_S512x128_0_0
abbrev rKt : Rect S128x6144 := Rect.unit (s := S128x6144) ![0, 0] S128x6144.size inb_S128x6144_S128x6144_0_0
abbrev rV : Rect S6144x128 := Rect.unit (s := S6144x128) ![0, 0] S6144x128.size inb_S6144x128_S6144x128_0_0
abbrev rW : Rect S128x128 := Rect.unit (s := S128x128) ![0, 0] S128x128.size inb_S128x128_S128x128_0_0

/-! ## What the body leaves in the output buffer -/

/-- The output buffer after the body, from the five input blocks: its one store, over the whole buffer, of the
    payload of the five loaded values. -/
def tileOut (x0 : Vec F S512x128 .bf16) (x1 : Vec F S128x6144 .bf16) (x2 : Vec F S6144x128 .bf16)
    (x3 x4 : Vec F S128x128 .bf16) : Vec F S512x128 .f32 :=
  View.canon [⟨rA, k0_pay1 (View.ld x0 rA) (View.ld x1 rKt) (View.ld x2 rV) (View.ld x3 rW) (View.ld x4 rW)⟩]

/-- The one store covers the buffer: its rectangle is the whole of it. -/
theorem cover_out (p0 : Vec F S512x128 .f32) (y : S512x128.Idx) :
    ∃ pc ∈ ([⟨rA, p0⟩] : List (View.Piece (Elt F) S512x128 .f32)), y ∈ pc.1.set :=
  View.cover_of_tiled [⟨rA, p0⟩] S512x128.size (by rfl) y

/-! ## The body's triple -/

set_option maxHeartbeats 1000000 in
theorem sound_kernel (c : Dev nD) (E : Set ℕ) (i : grid0.Coords)
    (arg1 : Memref sig .tc .vmem S512x128 .bf16) (harg1 : arg1.IsWhole)
    (arg2 : Memref sig .tc .vmem S128x6144 .bf16) (harg2 : arg2.IsWhole)
    (arg3 : Memref sig .tc .vmem S6144x128 .bf16) (harg3 : arg3.IsWhole)
    (arg4 : Memref sig .tc .vmem S128x128 .bf16) (harg4 : arg4.IsWhole)
    (arg5 : Memref sig .tc .vmem S128x128 .bf16) (harg5 : arg5.IsWhole)
    (arg6 : Memref sig .tc .vmem S512x128 .f32) (harg6 : arg6.IsWhole)
    (x0 : Vec F S512x128 .bf16) (x1 : Vec F S128x6144 .bf16) (x2 : Vec F S6144x128 .bf16)
    (x3 x4 : Vec F S128x128 .bf16) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (tileOut x0 x1 x2 x3 x4)) -∗ K ⟨⟩))
      ⊢ wp frame (wpE (defs₀ (F := F)) Variants.none c none) E
          (cc0__attn_kernel i arg1 harg1 arg2 harg2 arg3 harg3 arg4 harg4 arg5 harg5 arg6 harg6) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

end Cert.KernelIdeal.Hand

end
-- ==== Proof.KIFrame.lean ====
import proofs.«421826_j62139586839041_3_alg».proof.Proof.KIKernel
import proofs.«421826_j62139586839041_3_alg».proof.Proof.Gen.KernelIdeal.Launch
import proofs.«421826_j62139586839041_3_alg».proof.Proof.Gen.KernelIdeal.Points
import Idealize.ShloMosaic.Lib.Pipeline.FrameBody
import Idealize.ShloMosaic.Lib.Pipeline.FrameSuffix

/-! The frame of the program around its one pipelined region: the host operations before the region leave the
    twenty argument arrays as launched, the region runs (every point's body by the kernel's triple), and the host
    operations after it write neither an argument array nor an array of the pipeline; hence every argument array
    ends as launched. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region, and the contents the region finds -/

/-- The stretches of host operations before the region, in order. -/
abbrev headOps : List (List (HloOp τ sig (Elt F))) := [hostOps0, hostOps0_1, hostOps0_2]
/-- The stretches of host operations after the region, in order. -/
abbrev tailOps : List (List (HloOp τ sig (Elt F))) :=
  [hostOps1, hostOps1_1, hostOps1_2, hostOps1_3, hostOps1_4, hostOps1_5, hostOps1_6, hostOps1_7, hostOps1_8,
   hostOps1_9, hostOps1_10, hostOps1_11, hostOps1_12, hostOps1_13]

/-- A core's TensorCore buffer contents when the region is entered: the launch contents after the head. -/
abbrev V0 (c : Dev nD) : Valuation τ sig (Elt F) := StableHlo.after (List.flatten headOps) (fun b => m (c, b))
/-- The same, read at a TensorCore reference. -/
abbrev V (c : Dev nD) (b : Ref sig .tc) : Buf (Elt F) ((c : Thread nD τ).loc b) := V0 m c (Proc.devRef .tc b)

/-! ## No host operation around the region writes an argument array or an array of the pipeline -/

/-- The twenty argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

/-- A reference in a list differs from one that is not in it. -/
theorem ne_of_mem_of_not_mem' {α : Type} {l : List α} {a b : α} (ha : a ∈ l) (hb : b ∉ l) : a ≠ b :=
  fun e => hb (e ▸ ha)

/-- No operation before the region writes an argument array: each writes its own result buffer only, and that is
    none of the twenty. -/
theorem head_keeps_args : (List.flatten headOps : List (HloOp τ sig (Elt F))).Forall fun op =>
    ∀ b ∈ argRefs, Proc.devRef (τ := τ) .tc b ∉ op.writes := by
  simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact fun b hb => StableHlo.devRef_ne_of_ne (ne_of_mem_of_not_mem' hb (by decide))

/-- Nor does any operation after the region. -/
theorem tail_keeps_args : (List.flatten tailOps : List (HloOp τ sig (Elt F))).Forall fun op =>
    ∀ b ∈ argRefs, Proc.devRef (τ := τ) .tc b ∉ op.writes := by
  simp only [hostOps1, hostOps1_1, hostOps1_2, hostOps1_3, hostOps1_4, hostOps1_5, hostOps1_6, hostOps1_7, hostOps1_8, hostOps1_9, hostOps1_10, hostOps1_11, hostOps1_12, hostOps1_13, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact fun b hb => StableHlo.devRef_ne_of_ne (ne_of_mem_of_not_mem' hb (by decide))

/-- And none after the region writes an array of the pipeline. -/
theorem tail_keeps_arrs : (List.flatten tailOps : List (HloOp τ sig (Elt F))).Forall fun op =>
    ∀ w, Proc.devRef (τ := τ) .tc (Pipeline.arrRef spec0 w) ∉ op.writes := by
  simp only [hostOps1, hostOps1_1, hostOps1_2, hostOps1_3, hostOps1_4, hostOps1_5, hostOps1_6, hostOps1_7, hostOps1_8, hostOps1_9, hostOps1_10, hostOps1_11, hostOps1_12, hostOps1_13, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact fun w => StableHlo.devRef_ne_of_ne ((by decide : ∀ w, Pipeline.arrRef spec0 w ≠ _) w)

/-- An argument array is as launched when the region is entered. -/
theorem V_of_arg (c : Dev nD) (b : Ref sig .tc) (hb : b ∈ argRefs) : V m c b = m ((c : Thread nD τ).loc b) :=
  StableHlo.after_of_forall_not_mem (b := Proc.devRef .tc b) _ _
    (fun op hop => List.forall_iff_forall_mem.mp head_keeps_args op hop b hb)

/-- And as launched after the operations that follow the region, whatever the pipeline left in its own arrays. -/
theorem W_of_arg (dats' : (p : Fin 1) → (c : Dev nD) → Dat τ (Elt F) Unit ℕ (UR sig nD τ) ℕ (cfgs p) c) (c : Dev nD)
    (b : Ref sig .tc) (hb : b ∈ argRefs) (hne : ∀ w, Pipeline.arrRef spec0 w ≠ b) :
    Pipeline.afterTail₀ cfgs dats' 0 (V0 m) tailOps c b = m ((c : Thread nD τ).loc b) := by
  unfold Pipeline.afterTail₀
  rw [StableHlo.after_of_forall_not_mem (b := Proc.devRef .tc b) _ _
      (fun op hop => List.forall_iff_forall_mem.mp tail_keeps_args op hop b hb),
    Pipeline.withArrays_of_ne _ c (V0 m c) _ b hne]
  exact V_of_arg m c b hb

/-! ## The argument arrays across the head and the tail, one by one -/

theorem V_main_arg0 (c : Dev nD) : V m c main_arg0 = m ((c : Thread nD τ).loc main_arg0) :=
  V_of_arg m c main_arg0 (by decide)
theorem V_main_arg1 (c : Dev nD) : V m c main_arg1 = m ((c : Thread nD τ).loc main_arg1) :=
  V_of_arg m c main_arg1 (by decide)
theorem V_main_arg2 (c : Dev nD) : V m c main_arg2 = m ((c : Thread nD τ).loc main_arg2) :=
  V_of_arg m c main_arg2 (by decide)
theorem V_main_arg3 (c : Dev nD) : V m c main_arg3 = m ((c : Thread nD τ).loc main_arg3) :=
  V_of_arg m c main_arg3 (by decide)
theorem V_main_arg4 (c : Dev nD) : V m c main_arg4 = m ((c : Thread nD τ).loc main_arg4) :=
  V_of_arg m c main_arg4 (by decide)
theorem V_main_arg5 (c : Dev nD) : V m c main_arg5 = m ((c : Thread nD τ).loc main_arg5) :=
  V_of_arg m c main_arg5 (by decide)
theorem V_main_arg6 (c : Dev nD) : V m c main_arg6 = m ((c : Thread nD τ).loc main_arg6) :=
  V_of_arg m c main_arg6 (by decide)
theorem V_main_arg7 (c : Dev nD) : V m c main_arg7 = m ((c : Thread nD τ).loc main_arg7) :=
  V_of_arg m c main_arg7 (by decide)
theorem V_main_arg8 (c : Dev nD) : V m c main_arg8 = m ((c : Thread nD τ).loc main_arg8) :=
  V_of_arg m c main_arg8 (by decide)
theorem V_main_arg9 (c : Dev nD) : V m c main_arg9 = m ((c : Thread nD τ).loc main_arg9) :=
  V_of_arg m c main_arg9 (by decide)
theorem V_main_arg10 (c : Dev nD) : V m c main_arg10 = m ((c : Thread nD τ).loc main_arg10) :=
  V_of_arg m c main_arg10 (by decide)
theorem V_main_arg11 (c : Dev nD) : V m c main_arg11 = m ((c : Thread nD τ).loc main_arg11) :=
  V_of_arg m c main_arg11 (by decide)
theorem V_main_arg12 (c : Dev nD) : V m c main_arg12 = m ((c : Thread nD τ).loc main_arg12) :=
  V_of_arg m c main_arg12 (by decide)
theorem V_main_arg13 (c : Dev nD) : V m c main_arg13 = m ((c : Thread nD τ).loc main_arg13) :=
  V_of_arg m c main_arg13 (by decide)
theorem V_main_arg14 (c : Dev nD) : V m c main_arg14 = m ((c : Thread nD τ).loc main_arg14) :=
  V_of_arg m c main_arg14 (by decide)
theorem V_main_arg15 (c : Dev nD) : V m c main_arg15 = m ((c : Thread nD τ).loc main_arg15) :=
  V_of_arg m c main_arg15 (by decide)
theorem V_main_arg16 (c : Dev nD) : V m c main_arg16 = m ((c : Thread nD τ).loc main_arg16) :=
  V_of_arg m c main_arg16 (by decide)
theorem V_main_arg17 (c : Dev nD) : V m c main_arg17 = m ((c : Thread nD τ).loc main_arg17) :=
  V_of_arg m c main_arg17 (by decide)
theorem V_main_arg18 (c : Dev nD) : V m c main_arg18 = m ((c : Thread nD τ).loc main_arg18) :=
  V_of_arg m c main_arg18 (by decide)
theorem V_main_arg19 (c : Dev nD) : V m c main_arg19 = m ((c : Thread nD τ).loc main_arg19) :=
  V_of_arg m c main_arg19 (by decide)

theorem W_main_arg0 (dats' : (p : Fin 1) → (c : Dev nD) → Dat τ (Elt F) Unit ℕ (UR sig nD τ) ℕ (cfgs p) c) (c : Dev nD) :
    Pipeline.afterTail₀ cfgs dats' 0 (V0 m) tailOps c main_arg0 = m ((c : Thread nD τ).loc main_arg0) :=
  W_of_arg m dats' c main_arg0 (by decide) (by decide)
theorem W_main_arg1 (dats' : (p : Fin 1) → (c : Dev nD) → Dat τ (Elt F) Unit ℕ (UR sig nD τ) ℕ (cfgs p) c) (c : Dev nD) :
    Pipeline.afterTail₀ cfgs dats' 0 (V0 m) tailOps c main_arg1 = m ((c : Thread nD τ).loc main_arg1) :=
  W_of_arg m dats' c main_arg1 (by decide) (by decide)
theorem W_main_arg2 (dats' : (p : Fin 1) → (c : Dev nD) → Dat τ (Elt F) Unit ℕ (UR sig nD τ) ℕ (cfgs p) c) (c : Dev nD) :
    Pipeline.afterTail₀ cfgs dats' 0 (V0 m) tailOps c main_arg2 = m ((c : Thread nD τ).loc main_arg2) :=
  W_of_arg m dats' c main_arg2 (by decide) (by decide)
theorem W_main_arg3 (dats' : (p : Fin 1) → (c : Dev nD) → Dat τ (Elt F) Unit ℕ (UR sig nD τ) ℕ (cfgs p) c) (c : Dev nD) :
    Pipeline.afterTail₀ cfgs dats' 0 (V0 m) tailOps c main_arg3 = m ((c : Thread nD τ).loc main_arg3) :=
  W_of_arg m dats' c main_arg3 (by decide) (by decide)
theorem W_main_arg4 (dats' : (p : Fin 1) → (c : Dev nD) → Dat τ (Elt F) Unit ℕ (UR sig nD τ) ℕ (cfgs p) c) (c : Dev nD) :
    Pipeline.afterTail₀ cfgs dats' 0 (V0 m) tailOps c main_arg4 = m ((c : Thread nD τ).loc main_arg4) :=
  W_of_arg m dats' c main_arg4 (by decide) (by decide)
theorem W_main_arg5 (dats' : (p : Fin 1) → (c : Dev nD) → Dat τ (Elt F) Unit ℕ (UR sig nD τ) ℕ (cfgs p) c) (c : Dev nD) :
    Pipeline.afterTail₀ cfgs dats' 0 (V0 m) tailOps c main_arg5 = m ((c : Thread nD τ).loc main_arg5) :=
  W_of_arg m dats' c main_arg5 (by decide) (by decide)
theorem W_main_arg6 (dats' : (p : Fin 1) → (c : Dev nD) → Dat τ (Elt F) Unit ℕ (UR sig nD τ) ℕ (cfgs p) c) (c : Dev nD) :
    Pipeline.afterTail₀ cfgs dats' 0 (V0 m) tailOps c main_arg6 = m ((c : Thread nD τ).loc main_arg6) :=
  W_of_arg m dats' c main_arg6 (by decide) (by decide)
theorem W_main_arg7 (dats' : (p : Fin 1) → (c : Dev nD) → Dat τ (Elt F) Unit ℕ (UR sig nD τ) ℕ (cfgs p) c) (c : Dev nD) :
    Pipeline.afterTail₀ cfgs dats' 0 (V0 m) tailOps c main_arg7 = m ((c : Thread nD τ).loc main_arg7) :=
  W_of_arg m dats' c main_arg7 (by decide) (by decide)
theorem W_main_arg8 (dats' : (p : Fin 1) → (c : Dev nD) → Dat τ (Elt F) Unit ℕ (UR sig nD τ) ℕ (cfgs p) c) (c : Dev nD) :
    Pipeline.afterTail₀ cfgs dats' 0 (V0 m) tailOps c main_arg8 = m ((c : Thread nD τ).loc main_arg8) :=
  W_of_arg m dats' c main_arg8 (by decide) (by decide)
theorem W_main_arg9 (dats' : (p : Fin 1) → (c : Dev nD) → Dat τ (Elt F) Unit ℕ (UR sig nD τ) ℕ (cfgs p) c) (c : Dev nD) :
    Pipeline.afterTail₀ cfgs dats' 0 (V0 m) tailOps c main_arg9 = m ((c : Thread nD τ).loc main_arg9) :=
  W_of_arg m dats' c main_arg9 (by decide) (by decide)
theorem W_main_arg10 (dats' : (p : Fin 1) → (c : Dev nD) → Dat τ (Elt F) Unit ℕ (UR sig nD τ) ℕ (cfgs p) c) (c : Dev nD) :
    Pipeline.afterTail₀ cfgs dats' 0 (V0 m) tailOps c main_arg10 = m ((c : Thread nD τ).loc main_arg10) :=
  W_of_arg m dats' c main_arg10 (by decide) (by decide)
theorem W_main_arg11 (dats' : (p : Fin 1) → (c : Dev nD) → Dat τ (Elt F) Unit ℕ (UR sig nD τ) ℕ (cfgs p) c) (c : Dev nD) :
    Pipeline.afterTail₀ cfgs dats' 0 (V0 m) tailOps c main_arg11 = m ((c : Thread nD τ).loc main_arg11) :=
  W_of_arg m dats' c main_arg11 (by decide) (by decide)
theorem W_main_arg12 (dats' : (p : Fin 1) → (c : Dev nD) → Dat τ (Elt F) Unit ℕ (UR sig nD τ) ℕ (cfgs p) c) (c : Dev nD) :
    Pipeline.afterTail₀ cfgs dats' 0 (V0 m) tailOps c main_arg12 = m ((c : Thread nD τ).loc main_arg12) :=
  W_of_arg m dats' c main_arg12 (by decide) (by decide)
theorem W_main_arg13 (dats' : (p : Fin 1) → (c : Dev nD) → Dat τ (Elt F) Unit ℕ (UR sig nD τ) ℕ (cfgs p) c) (c : Dev nD) :
    Pipeline.afterTail₀ cfgs dats' 0 (V0 m) tailOps c main_arg13 = m ((c : Thread nD τ).loc main_arg13) :=
  W_of_arg m dats' c main_arg13 (by decide) (by decide)
theorem W_main_arg14 (dats' : (p : Fin 1) → (c : Dev nD) → Dat τ (Elt F) Unit ℕ (UR sig nD τ) ℕ (cfgs p) c) (c : Dev nD) :
    Pipeline.afterTail₀ cfgs dats' 0 (V0 m) tailOps c main_arg14 = m ((c : Thread nD τ).loc main_arg14) :=
  W_of_arg m dats' c main_arg14 (by decide) (by decide)
theorem W_main_arg15 (dats' : (p : Fin 1) → (c : Dev nD) → Dat τ (Elt F) Unit ℕ (UR sig nD τ) ℕ (cfgs p) c) (c : Dev nD) :
    Pipeline.afterTail₀ cfgs dats' 0 (V0 m) tailOps c main_arg15 = m ((c : Thread nD τ).loc main_arg15) :=
  W_of_arg m dats' c main_arg15 (by decide) (by decide)
theorem W_main_arg16 (dats' : (p : Fin 1) → (c : Dev nD) → Dat τ (Elt F) Unit ℕ (UR sig nD τ) ℕ (cfgs p) c) (c : Dev nD) :
    Pipeline.afterTail₀ cfgs dats' 0 (V0 m) tailOps c main_arg16 = m ((c : Thread nD τ).loc main_arg16) :=
  W_of_arg m dats' c main_arg16 (by decide) (by decide)
theorem W_main_arg17 (dats' : (p : Fin 1) → (c : Dev nD) → Dat τ (Elt F) Unit ℕ (UR sig nD τ) ℕ (cfgs p) c) (c : Dev nD) :
    Pipeline.afterTail₀ cfgs dats' 0 (V0 m) tailOps c main_arg17 = m ((c : Thread nD τ).loc main_arg17) :=
  W_of_arg m dats' c main_arg17 (by decide) (by decide)
theorem W_main_arg18 (dats' : (p : Fin 1) → (c : Dev nD) → Dat τ (Elt F) Unit ℕ (UR sig nD τ) ℕ (cfgs p) c) (c : Dev nD) :
    Pipeline.afterTail₀ cfgs dats' 0 (V0 m) tailOps c main_arg18 = m ((c : Thread nD τ).loc main_arg18) :=
  W_of_arg m dats' c main_arg18 (by decide) (by decide)
theorem W_main_arg19 (dats' : (p : Fin 1) → (c : Dev nD) → Dat τ (Elt F) Unit ℕ (UR sig nD τ) ℕ (cfgs p) c) (c : Dev nD) :
    Pipeline.afterTail₀ cfgs dats' 0 (V0 m) tailOps c main_arg19 = m ((c : Thread nD τ).loc main_arg19) :=
  W_of_arg m dats' c main_arg19 (by decide) (by decide)

/-! ## @main around the region -/

/-- No host operation allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor

/-- A property of every operation of every stretch after the region, from the stretches' own lists. -/
theorem forall_tail {p : HloOp τ sig (Elt F) → Prop} (h : (tailOps : List (List (HloOp τ sig (Elt F)))).Forall fun ops => ops.Forall p) :
    ∀ ops ∈ (tailOps : List (List (HloOp τ sig (Elt F)))), ∀ op ∈ ops, p op :=
  fun ops hops op hop => List.forall_iff_forall_mem.mp (List.forall_iff_forall_mem.mp h ops hops) op hop

/-- @main is the head, the region, then the tail: it reduces to the region continued by the tail. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps : List (List (HloOp τ sig (Elt F)))).map StableHlo.seq)) :=
  Pipeline.hmain_around cfgs 0 defs₀ 𝒱₀ m main headOps tailOps
    (by simp only [List.Forall]; exact ⟨hostOps0_sub, hostOps0_1_sub, hostOps0_2_sub⟩)
    (by simp only [List.Forall]; exact ⟨hostOps0_fresh, hostOps0_1_fresh, hostOps0_2_fresh⟩) main_chain

/-- The tail touches unscoped TensorCore references only: with nothing prefetched, each is an array of the pipeline
    or a buffer that bypasses it. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (forall_tail (p := fun op => op.bufs ⊆ StableHlo.tcRefs τ sig)
    (by simp only [List.Forall]; exact ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub⟩) ops hops op hop)

/-- It allocates nothing. -/
theorem sfx_fresh : ∀ ops ∈ (tailOps : List (List (HloOp τ sig (Elt F)))), ∀ op ∈ ops, op.fresh = ∅ :=
  forall_tail (p := fun op => op.fresh = ∅)
    (by simp only [List.Forall]; exact ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh, hostOps1_13_fresh⟩)

/-- And it writes no array of the pipeline. -/
theorem sfx_keeps : ∀ ops ∈ (tailOps : List (List (HloOp τ sig (Elt F)))), ∀ op ∈ ops,
    ∀ w, Proc.devRef .tc (Pipeline.arrRef spec0 w) ∉ op.writes :=
  fun ops hops op hop => List.forall_iff_forall_mem.mp tail_keeps_arrs op (List.mem_flatten_of_mem hops hop)

/-! ## The windows' blocks and the proof data -/

/-- A window's block at a point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data of the pipeline on a core: the arrays as the region finds them; after the body at a point each
    input's buffer at its block and the output's at the payload of the five blocks; the untouched invariant; full
    shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tileOut (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t =
    tileOut (iblk m c 0 t) (iblk m c 1 t) (iblk m c 2 t) (iblk m c 3 t) (iblk m c 4 t) := by dsimp only [dats]

/-! ## The staging buffers before the body -/

/-- Each input's current staging buffer holds its block at every point, fetched there or not: unfetched, its index
    has not moved since the point that fetched it, and the body leaves the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

/-! ## The body obligation -/

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the five inputs' buffers hold their blocks, the output's holds anything, so the kernel's
    triple applies; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main on the TensorCores terminates, every
    array of the pipeline ends at what the proof data compute and every other unscoped buffer as the tail leaves it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: every argument array ends as launched. Each is an unscoped buffer that is no array of the pipeline, so
    the run's post gives it as the tail leaves it, which is as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c =>
    ⟨((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c),
      ((h c).2 main_arg18 (Pipeline.mem_restRefs_of main_arg18 (by decide) (by decide))).trans (W_main_arg18 m (dats m) c),
      ((h c).2 main_arg19 (Pipeline.mem_restRefs_of main_arg19 (by decide) (by decide))).trans (W_main_arg19 m (dats m) c)⟩) (run_main m ρ)

end Cert.KernelIdeal.Hand

end
-- ==== Proof.Spec.lean ====
/-
  One transformer layer over a point cloud, as pure functions of its argument arrays.

  Shapes: N = 16384 points with 32 input features, lifted to D = 128 features by a linear map; M = 6144 key/value
  points gathered from the lifted points by an index array, projected and batch-normalised; one attention head of
  every point against all M keys; then a batch-normalised residual, a two-layer residual block and a closing
  batch-normalised relu.  Batch normalisation over the rows of an array is
  (y - mean y) * rsqrt (var y + eps) * gamma + beta with mean and var taken column by column.

  The two programs compared differ only in the attention head: one normalises the softmax weights before the
  weighted sum of the values (attnRef), the other sums with the unnormalised weights and divides the sum
  (the kernel's tile function); everything before (the shared chain down to keys and values) and everything after
  (layerTail) is the same composition on both sides.
-/
import Idealize.ShloMosaic.PureOps
import Idealize.ShloMosaic.PureOps.Ideal

noncomputable section

namespace AttnLayer

open Idealize.ShloMosaic

abbrev SNx32 : Shape := ⟨2, ![16384, 32]⟩
abbrev SM : Shape := ⟨1, ![6144]⟩
abbrev S32xD : Shape := ⟨2, ![32, 128]⟩
abbrev SDxD : Shape := ⟨2, ![128, 128]⟩
abbrev SD : Shape := ⟨1, ![128]⟩
abbrev SNxD : Shape := ⟨2, ![16384, 128]⟩
abbrev S0 : Shape := ⟨0, ![]⟩
abbrev SMx1 : Shape := ⟨2, ![6144, 1]⟩
abbrev SMxD : Shape := ⟨2, ![6144, 128]⟩
abbrev S1xD : Shape := ⟨2, ![1, 128]⟩
abbrev SDxM : Shape := ⟨2, ![128, 6144]⟩
abbrev SNxM : Shape := ⟨2, ![16384, 6144]⟩
abbrev SN : Shape := ⟨1, ![16384]⟩
abbrev SNx1 : Shape := ⟨2, ![16384, 1]⟩

theorem b_0_M : S0.BroadcastsInDim SM (![] : Fin 0 → Fin SM.rank) := by decide
theorem b_M_Mx1 : SM.BroadcastsInDim SMx1 (![0] : Fin 1 → Fin SMx1.rank) := by decide
theorem red_MxD_D : SMxD.ReducesTo [0] SD := by decide
theorem h_S0 : 0 < S0.numel := by decide
theorem b_D_1xD : SD.BroadcastsInDim S1xD (![1] : Fin 1 → Fin S1xD.rank) := by decide
theorem b_0_1xD : S0.BroadcastsInDim S1xD (![] : Fin 0 → Fin S1xD.rank) := by decide
theorem b_1xD_MxD : S1xD.BroadcastsInDim SMxD (![0, 1] : Fin 2 → Fin SMxD.rank) := by decide
theorem bits_bf16_f32 : FTy.bits .bf16 < FTy.bits .f32 := by decide
theorem tr_MxD_DxM : SMxD.Transposes [1, 0] SDxM := by decide
theorem red_NxD_D : SNxD.ReducesTo [0] SD := by decide
theorem b_1xD_NxD : S1xD.BroadcastsInDim SNxD (![0, 1] : Fin 2 → Fin SNxD.rank) := by decide
theorem b_0_NxD : S0.BroadcastsInDim SNxD (![] : Fin 0 → Fin SNxD.rank) := by decide
theorem red_NxM_N : SNxM.ReducesTo [1] SN := by decide
theorem b_0_N : S0.BroadcastsInDim SN (![] : Fin 0 → Fin SN.rank) := by decide
theorem b_N_Nx1 : SN.BroadcastsInDim SNx1 (![0] : Fin 1 → Fin SNx1.rank) := by decide
theorem b_Nx1_NxM : SNx1.BroadcastsInDim SNxM (![0, 1] : Fin 2 → Fin SNxM.rank) := by decide

theorem dotLift_wf : DotDims.WF SNx32 S32xD SNxD [1] [0] [0] [1] [] [] := by decide
theorem gatherRows_wf : GatherDims.WF SNxD SMx1 SMxD [1] [0] [] [0] [] 1 ![1, 128] := by decide
theorem dotM_wf : DotDims.WF SMxD SDxD SMxD [1] [0] [0] [1] [] [] := by decide
theorem dotN_wf : DotDims.WF SNxD SDxD SNxD [1] [0] [0] [1] [] [] := by decide
theorem dotScores_wf : DotDims.WF SNxD SDxM SNxM [1] [0] [0] [1] [] [] := by decide
theorem dotMix_wf : DotDims.WF SNxM SMxD SNxD [1] [0] [0] [1] [] [] := by decide

def dotLift : DotDims SNx32 S32xD SNxD where
  lhsContracting := [1]
  rhsContracting := [0]
  lhsNonContracting := [0]
  rhsNonContracting := [1]
  lhsBatch := []
  rhsBatch := []
  wf := dotLift_wf
def gatherRows : GatherDims SNxD SMx1 SMxD where
  offsetDims := [1]
  collapsedSliceDims := [0]
  operandBatchingDims := []
  startIndicesBatchingDims := []
  startIndexMap := [0]
  indexVectorDim := 1
  sliceSizes := ![1, 128]
  wf := gatherRows_wf
def dotM : DotDims SMxD SDxD SMxD where
  lhsContracting := [1]
  rhsContracting := [0]
  lhsNonContracting := [0]
  rhsNonContracting := [1]
  lhsBatch := []
  rhsBatch := []
  wf := dotM_wf
def dotN : DotDims SNxD SDxD SNxD where
  lhsContracting := [1]
  rhsContracting := [0]
  lhsNonContracting := [0]
  rhsNonContracting := [1]
  lhsBatch := []
  rhsBatch := []
  wf := dotN_wf
def dotScores : DotDims SNxD SDxM SNxM where
  lhsContracting := [1]
  rhsContracting := [0]
  lhsNonContracting := [0]
  rhsNonContracting := [1]
  lhsBatch := []
  rhsBatch := []
  wf := dotScores_wf
def dotMix : DotDims SNxM SMxD SNxD where
  lhsContracting := [1]
  rhsContracting := [0]
  lhsNonContracting := [0]
  rhsNonContracting := [1]
  lhsBatch := []
  rhsBatch := []
  wf := dotMix_wf

variable {F : FTy → Type} [FloatOps F]

/-- An array of floats of shape S, and one of 32-bit integers. -/
abbrev A (S : Shape) : Type := (⟨S, .f32⟩ : BufTy).Contents (Elt F)
abbrev I (S : Shape) : Type := (⟨S, .i32⟩ : BufTy).Contents (Elt F)

/-- The scalar 0 the variance is called with (its ddof). -/
def ddof0 : I (F := F) S0 := constantI S0 32 0#32

/-! ## Batch normalisation over M rows -/

/-- The column means of y, as a row. -/
def meanM (y : A (F := F) SMxD) : A (F := F) S1xD :=
  Host.divf (broadcastInDim S1xD ![1] b_D_1xD (Host.reduceAdd y (constant S0 .f32 0x00000000#32) red_MxD_D h_S0))
    (broadcastInDim S1xD ![] b_0_1xD (constant S0 .f32 0x45C00000#32))

/-- M minus the ddof, as a float. -/
def cntM (c : I (F := F) S0) : A (F := F) S0 := subf (constant S0 .f32 0x45C00000#32) (sitofp .f32 c)

/-- The squared deviations of y from its column means. -/
def sqdevM (y : A (F := F) SMxD) : A (F := F) SMxD :=
  mulf (subf y (broadcastInDim SMxD ![0, 1] b_1xD_MxD (meanM y))) (subf y (broadcastInDim SMxD ![0, 1] b_1xD_MxD (meanM y)))

/-- The column variances of y (the sum of squared deviations over M - ddof when that is positive). -/
def varM (y : A (F := F) SMxD) (c : I (F := F) S0) : A (F := F) S1xD :=
  select (broadcastInDim S1xD ![] b_0_1xD (cmpf .ogt (cntM c) (constant S0 .f32 0x00000000#32)))
    (Host.divf (broadcastInDim S1xD ![1] b_D_1xD (Host.reduceAdd (sqdevM y) (constant S0 .f32 0x00000000#32) red_MxD_D h_S0))
      (broadcastInDim S1xD ![] b_0_1xD (cntM c)))
    (broadcastInDim S1xD ![] b_0_1xD (constant S0 .f32 0x7FC00000#32))

/-- Batch normalisation of the M rows of y with scale g and shift b. -/
def bnM (y : A (F := F) SMxD) (g b : A (F := F) SD) (c : I (F := F) S0) : A (F := F) SMxD :=
  addf
    (mulf
      (mulf (subf y (broadcastInDim SMxD ![0, 1] b_1xD_MxD (meanM y)))
        (broadcastInDim SMxD ![0, 1] b_1xD_MxD
          (Host.rsqrt (addf (varM y c) (broadcastInDim S1xD ![] b_0_1xD (constant S0 .f32 0x3727C5AC#32))))))
      (broadcastInDim SMxD ![0, 1] b_1xD_MxD (broadcastInDim S1xD ![1] b_D_1xD g)))
    (broadcastInDim SMxD ![0, 1] b_1xD_MxD (broadcastInDim S1xD ![1] b_D_1xD b))

/-! ## Batch normalisation over N rows -/

def meanN (y : A (F := F) SNxD) : A (F := F) S1xD :=
  Host.divf (broadcastInDim S1xD ![1] b_D_1xD (Host.reduceAdd y (constant S0 .f32 0x00000000#32) red_NxD_D h_S0))
    (broadcastInDim S1xD ![] b_0_1xD (constant S0 .f32 0x46800000#32))

def cntN (c : I (F := F) S0) : A (F := F) S0 := subf (constant S0 .f32 0x46800000#32) (sitofp .f32 c)

def sqdevN (y : A (F := F) SNxD) : A (F := F) SNxD :=
  mulf (subf y (broadcastInDim SNxD ![0, 1] b_1xD_NxD (meanN y))) (subf y (broadcastInDim SNxD ![0, 1] b_1xD_NxD (meanN y)))

def varN (y : A (F := F) SNxD) (c : I (F := F) S0) : A (F := F) S1xD :=
  select (broadcastInDim S1xD ![] b_0_1xD (cmpf .ogt (cntN c) (constant S0 .f32 0x00000000#32)))
    (Host.divf (broadcastInDim S1xD ![1] b_D_1xD (Host.reduceAdd (sqdevN y) (constant S0 .f32 0x00000000#32) red_NxD_D h_S0))
      (broadcastInDim S1xD ![] b_0_1xD (cntN c)))
    (broadcastInDim S1xD ![] b_0_1xD (constant S0 .f32 0x7FC00000#32))

def bnN (y : A (F := F) SNxD) (g b : A (F := F) SD) (c : I (F := F) S0) : A (F := F) SNxD :=
  addf
    (mulf
      (mulf (subf y (broadcastInDim SNxD ![0, 1] b_1xD_NxD (meanN y)))
        (broadcastInDim SNxD ![0, 1] b_1xD_NxD
          (Host.rsqrt (addf (varN y c) (broadcastInDim S1xD ![] b_0_1xD (constant S0 .f32 0x3727C5AC#32))))))
      (broadcastInDim SNxD ![0, 1] b_1xD_NxD (broadcastInDim S1xD ![1] b_D_1xD g)))
    (broadcastInDim SNxD ![0, 1] b_1xD_NxD (broadcastInDim S1xD ![1] b_D_1xD b))

/-- max(y, 0), entry by entry. -/
def reluN (y : A (F := F) SNxD) : A (F := F) SNxD :=
  maximumf y (broadcastInDim SNxD ![] b_0_NxD (constant S0 .f32 0x00000000#32))

/-! ## The shared chain before the attention head -/

/-- The lifted points x = feats · W. -/
def lift (feats : A (F := F) SNx32) (W : A (F := F) S32xD) : A (F := F) SNxD := Host.dotGeneral dotLift none feats W

/-- The index array with negative entries wrapped by N, as a column. -/
def wrapIdx (idx : I (F := F) SM) : I (F := F) SMx1 :=
  broadcastInDim SMx1 ![0] b_M_Mx1
    (select (cmpi .slt idx (broadcastInDim SM ![] b_0_M (constantI S0 32 0#32)))
      (addi idx (broadcastInDim SM ![] b_0_M (constantI S0 32 16384#32))) idx)

/-- The normalised key/value features: rows of x picked by the indices, projected by Wkv, batch-normalised. -/
def kvFeat (x : A (F := F) SNxD) (idx : I (F := F) SM) (Wkv : A (F := F) SDxD) (g b : A (F := F) SD) : A (F := F) SMxD :=
  bnM (Host.dotGeneral dotM none (Host.gather gatherRows x (wrapIdx idx)) Wkv) g b ddof0

/-- A projection of the key/value features. -/
def projM (kv : A (F := F) SMxD) (W : A (F := F) SDxD) : A (F := F) SMxD := Host.dotGeneral dotM none kv W

/-! ## The attention head, with the softmax weights normalised first -/

def scores (x : A (F := F) SNxD) (Wq : A (F := F) SDxD) (k : A (F := F) SMxD) : A (F := F) SNxM :=
  Host.dotGeneral dotScores none (Host.dotGeneral dotN none x Wq) (transpose SDxM [1, 0] k tr_MxD_DxM)

def rowMax (s : A (F := F) SNxM) : A (F := F) SN :=
  maximumf (broadcastInDim SN ![] b_0_N (constant S0 .f32 0xFF800000#32))
    (Host.reduce FloatOps.maximumf s (constant S0 .f32 0xFF800000#32) red_NxM_N h_S0)

def expShift (s : A (F := F) SNxM) : A (F := F) SNxM :=
  Host.exp (subf s (broadcastInDim SNxM ![0, 1] b_Nx1_NxM (broadcastInDim SNx1 ![0] b_N_Nx1 (rowMax s))))

def softmaxRows (s : A (F := F) SNxM) : A (F := F) SNxM :=
  Host.divf (expShift s)
    (broadcastInDim SNxM ![0, 1] b_Nx1_NxM
      (broadcastInDim SNx1 ![0] b_N_Nx1 (Host.reduceAdd (expShift s) (constant S0 .f32 0x00000000#32) red_NxM_N h_S0)))

/-- softmax(x Wq · kᵀ) · v · Wt. -/
def attnRef (x : A (F := F) SNxD) (Wq : A (F := F) SDxD) (k v : A (F := F) SMxD) (Wt : A (F := F) SDxD) : A (F := F) SNxD :=
  Host.dotGeneral dotN none (Host.dotGeneral dotMix none (softmaxRows (scores x Wq k)) v) Wt

/-! ## Everything after the attention head -/

def layerTail (x t : A (F := F) SNxD) (g_an b_an g_r1 b_r1 : A (F := F) SD) (W_r1 : A (F := F) SDxD)
    (g_r2 b_r2 : A (F := F) SD) (W_r2 : A (F := F) SDxD) (g_out b_out : A (F := F) SD) : A (F := F) SNxD :=
  reluN (bnN
    (addf (addf x (bnN t g_an b_an ddof0))
      (Host.dotGeneral dotN none
        (reluN (bnN (Host.dotGeneral dotN none (reluN (bnN (addf x (bnN t g_an b_an ddof0)) g_r1 b_r1 ddof0)) W_r1) g_r2 b_r2 ddof0))
        W_r2))
    g_out b_out ddof0)

end AttnLayer

end
-- ==== Proof.KIValue.lean ====
/-
  What the host operations of the program compute, as the pure functions of the layer's specification.

  The program runs 63 operations before the attention head and 189 after it.  Over ANY contents Vl of the buffers:
  the first 63 leave the lifted points x = feats · W (in single precision and rounded to bf16), the key projection
  (rounded to bf16 and transposed) and the value projection (rounded to bf16) of the batch-normalised key/value
  features, and the query and output weights rounded to bf16; the last 189 leave in the output buffer the layer's tail
  (a batch-normalised residual, a two-layer residual block, a closing batch-normalised relu) of the lifted points and
  of whatever the buffer of the head's output holds.

  The tail is read in four stretches, each over arbitrary contents W: a stretch's results are stated from W at the
  buffers it reads, with the column means and the ddof taken from the buffers the previous stretch left them in
  (bnFinN), and every buffer a later stretch still reads is shown untouched.  Substituting stretch into stretch, the
  means and variances met are those of the normalised array itself, which is batch normalisation (bnFinN_self).
-/
import proofs.«421826_j62139586839041_3_alg».proof.Proof.Gen.KernelIdeal.Launch
import proofs.«421826_j62139586839041_3_alg».proof.Proof.Spec
import Idealize.ShloMosaic.Lib.StableHlo.Run
import Idealize.ShloMosaic.Lib.Pipeline.Frame

set_option maxRecDepth 4000

noncomputable section

namespace Cert.KernelIdeal.Hand

open Cert.KernelIdeal Cert.KernelIdeal.Gen Idealize.ShloMosaic Idealize.ShloMosaic.TcCoe Idealize.SL.Sem

variable {F : FTy → Type} [FloatOps F]

/-! ## The operations before the attention head

Over any contents Vl of the buffers, the 63 operations leave in the buffers the attention head reads: the lifted
points (in single precision and rounded to bf16), the transposed key projection and the value projection of the
normalised key/value features (rounded to bf16), and the query and output weights rounded to bf16. -/

/-- The lifted points x = feats · W. -/
theorem head_v0 (Vl : Valuation τ sig (Elt F)) :
    StableHlo.after (List.flatten [hostOps0, hostOps0_1, hostOps0_2]) Vl (Proc.devRef .tc main_v0)
      = AttnLayer.lift (Vl (Proc.devRef .tc main_arg0)) (Vl (Proc.devRef .tc main_arg2)) := by
  simp only [hostOps0, hostOps0_1, hostOps0_2, List.flatten_cons, List.flatten_nil, List.append_nil, List.cons_append, List.nil_append]
  after_results_simp
  rfl

/-- The lifted points rounded to bf16. -/
theorem head_v29 (Vl : Valuation τ sig (Elt F)) :
    StableHlo.after (List.flatten [hostOps0, hostOps0_1, hostOps0_2]) Vl (Proc.devRef .tc main_v29)
      = truncf .bf16 (AttnLayer.lift (Vl (Proc.devRef .tc main_arg0)) (Vl (Proc.devRef .tc main_arg2))) bitsLt_bf16_f32 := by
  simp only [hostOps0, hostOps0_1, hostOps0_2, List.flatten_cons, List.flatten_nil, List.append_nil, List.cons_append, List.nil_append]
  after_results_simp
  rfl

/-- The key projection of the normalised key/value features, rounded to bf16 and transposed. -/
theorem head_v31 (Vl : Valuation τ sig (Elt F)) :
    StableHlo.after (List.flatten [hostOps0, hostOps0_1, hostOps0_2]) Vl (Proc.devRef .tc main_v31)
      = transpose S128x6144 [1, 0] (truncf .bf16 (AttnLayer.projM (AttnLayer.kvFeat (AttnLayer.lift (Vl (Proc.devRef .tc main_arg0)) (Vl (Proc.devRef .tc main_arg2)))
          (Vl (Proc.devRef .tc main_arg1)) (Vl (Proc.devRef .tc main_arg3)) (Vl (Proc.devRef .tc main_arg4)) (Vl (Proc.devRef .tc main_arg5)))
          (Vl (Proc.devRef .tc main_arg7))) bitsLt_bf16_f32) transposes_S6144x128_S128x6144_1_0 := by
  simp only [hostOps0, hostOps0_1, hostOps0_2, List.flatten_cons, List.flatten_nil, List.append_nil, List.cons_append, List.nil_append]
  after_results_simp
  rfl

/-- The value projection of the normalised key/value features, rounded to bf16. -/
theorem head_v32 (Vl : Valuation τ sig (Elt F)) :
    StableHlo.after (List.flatten [hostOps0, hostOps0_1, hostOps0_2]) Vl (Proc.devRef .tc main_v32)
      = truncf .bf16 (AttnLayer.projM (AttnLayer.kvFeat (AttnLayer.lift (Vl (Proc.devRef .tc main_arg0)) (Vl (Proc.devRef .tc main_arg2)))
          (Vl (Proc.devRef .tc main_arg1)) (Vl (Proc.devRef .tc main_arg3)) (Vl (Proc.devRef .tc main_arg4)) (Vl (Proc.devRef .tc main_arg5)))
          (Vl (Proc.devRef .tc main_arg8))) bitsLt_bf16_f32 := by
  simp only [hostOps0, hostOps0_1, hostOps0_2, List.flatten_cons, List.flatten_nil, List.append_nil, List.cons_append, List.nil_append]
  after_results_simp
  rfl

/-- The query weights rounded to bf16. -/
theorem head_v33 (Vl : Valuation τ sig (Elt F)) :
    StableHlo.after (List.flatten [hostOps0, hostOps0_1, hostOps0_2]) Vl (Proc.devRef .tc main_v33)
      = truncf .bf16 (Vl (Proc.devRef .tc main_arg6)) bitsLt_bf16_f32 := by
  simp only [hostOps0, hostOps0_1, hostOps0_2, List.flatten_cons, List.flatten_nil, List.append_nil, List.cons_append, List.nil_append]
  after_results_simp

/-- The output weights rounded to bf16. -/
theorem head_v34 (Vl : Valuation τ sig (Elt F)) :
    StableHlo.after (List.flatten [hostOps0, hostOps0_1, hostOps0_2]) Vl (Proc.devRef .tc main_v34)
      = truncf .bf16 (Vl (Proc.devRef .tc main_arg9)) bitsLt_bf16_f32 := by
  simp only [hostOps0, hostOps0_1, hostOps0_2, List.flatten_cons, List.flatten_nil, List.append_nil, List.cons_append, List.nil_append]
  after_results_simp

section Tail

open AttnLayer

/-- Batch normalisation of the N rows of y once its column means m and column variances v are given. -/
def bnFinN (y : A (F := F) SNxD) (m v : A (F := F) S1xD) (g b : A (F := F) SD) : A (F := F) SNxD :=
  addf
    (mulf
      (mulf (subf y (broadcastInDim SNxD ![0, 1] b_1xD_NxD m))
        (broadcastInDim SNxD ![0, 1] b_1xD_NxD
          (Host.rsqrt (addf v (broadcastInDim S1xD ![] b_0_1xD (constant S0 .f32 0x3727C5AC#32))))))
      (broadcastInDim SNxD ![0, 1] b_1xD_NxD (broadcastInDim S1xD ![1] b_D_1xD g)))
    (broadcastInDim SNxD ![0, 1] b_1xD_NxD (broadcastInDim S1xD ![1] b_D_1xD b))

/-- With the means and variances of y itself this is the batch normalisation of y. -/
theorem bnFinN_self (y : A (F := F) SNxD) (g b : A (F := F) SD) (c : I (F := F) S0) :
    bnFinN y (meanN y) (varN y c) g b = bnN y g b c := rfl

/-! ### First stretch: the normalised head output added to the lifted points -/

/-- The residual x + bn(t). -/
theorem tailA_v54 (W : Valuation τ sig (Elt F)) :
    StableHlo.after hostOps1_2 (StableHlo.after hostOps1_1 (StableHlo.after hostOps1 W)) (Proc.devRef .tc main_v54)
      = addf (W (Proc.devRef .tc main_v0)) (bnN (W (Proc.devRef .tc main_v35)) (W (Proc.devRef .tc main_arg10)) (W (Proc.devRef .tc main_arg11)) ddof0) := by
  simp only [hostOps1, hostOps1_1, hostOps1_2]
  after_results_simp
  rfl

/-- The column means of the residual. -/
theorem tailA_v58 (W : Valuation τ sig (Elt F)) :
    StableHlo.after hostOps1_2 (StableHlo.after hostOps1_1 (StableHlo.after hostOps1 W)) (Proc.devRef .tc main_v58)
      = meanN (addf (W (Proc.devRef .tc main_v0)) (bnN (W (Proc.devRef .tc main_v35)) (W (Proc.devRef .tc main_arg10)) (W (Proc.devRef .tc main_arg11)) ddof0)) := by
  simp only [hostOps1, hostOps1_1, hostOps1_2]
  after_results_simp
  rfl

theorem tailA_c_10 (W : Valuation τ sig (Elt F)) :
    StableHlo.after hostOps1_2 (StableHlo.after hostOps1_1 (StableHlo.after hostOps1 W)) (Proc.devRef .tc main_c_10)
      = (ddof0 : I (F := F) S0) := by
  simp only [hostOps1, hostOps1_1, hostOps1_2]
  after_results_simp
  rfl

theorem tailA_arg12 (W : Valuation τ sig (Elt F)) :
    StableHlo.after hostOps1_2 (StableHlo.after hostOps1_1 (StableHlo.after hostOps1 W)) (Proc.devRef .tc main_arg12)
      = (W (Proc.devRef .tc main_arg12)) := by
  simp only [hostOps1, hostOps1_1, hostOps1_2]
  after_results_simp

theorem tailA_arg13 (W : Valuation τ sig (Elt F)) :
    StableHlo.after hostOps1_2 (StableHlo.after hostOps1_1 (StableHlo.after hostOps1 W)) (Proc.devRef .tc main_arg13)
      = (W (Proc.devRef .tc main_arg13)) := by
  simp only [hostOps1, hostOps1_1, hostOps1_2]
  after_results_simp

theorem tailA_arg14 (W : Valuation τ sig (Elt F)) :
    StableHlo.after hostOps1_2 (StableHlo.after hostOps1_1 (StableHlo.after hostOps1 W)) (Proc.devRef .tc main_arg14)
      = (W (Proc.devRef .tc main_arg14)) := by
  simp only [hostOps1, hostOps1_1, hostOps1_2]
  after_results_simp

theorem tailA_arg15 (W : Valuation τ sig (Elt F)) :
    StableHlo.after hostOps1_2 (StableHlo.after hostOps1_1 (StableHlo.after hostOps1 W)) (Proc.devRef .tc main_arg15)
      = (W (Proc.devRef .tc main_arg15)) := by
  simp only [hostOps1, hostOps1_1, hostOps1_2]
  after_results_simp

theorem tailA_arg16 (W : Valuation τ sig (Elt F)) :
    StableHlo.after hostOps1_2 (StableHlo.after hostOps1_1 (StableHlo.after hostOps1 W)) (Proc.devRef .tc main_arg16)
      = (W (Proc.devRef .tc main_arg16)) := by
  simp only [hostOps1, hostOps1_1, hostOps1_2]
  after_results_simp

theorem tailA_arg17 (W : Valuation τ sig (Elt F)) :
    StableHlo.after hostOps1_2 (StableHlo.after hostOps1_1 (StableHlo.after hostOps1 W)) (Proc.devRef .tc main_arg17)
      = (W (Proc.devRef .tc main_arg17)) := by
  simp only [hostOps1, hostOps1_1, hostOps1_2]
  after_results_simp

theorem tailA_arg18 (W : Valuation τ sig (Elt F)) :
    StableHlo.after hostOps1_2 (StableHlo.after hostOps1_1 (StableHlo.after hostOps1 W)) (Proc.devRef .tc main_arg18)
      = (W (Proc.devRef .tc main_arg18)) := by
  simp only [hostOps1, hostOps1_1, hostOps1_2]
  after_results_simp

theorem tailA_arg19 (W : Valuation τ sig (Elt F)) :
    StableHlo.after hostOps1_2 (StableHlo.after hostOps1_1 (StableHlo.after hostOps1 W)) (Proc.devRef .tc main_arg19)
      = (W (Proc.devRef .tc main_arg19)) := by
  simp only [hostOps1, hostOps1_1, hostOps1_2]
  after_results_simp

/-! ### Second stretch: normalise the residual, relu, first matmul -/

theorem tailB_v74 (W : Valuation τ sig (Elt F)) :
    StableHlo.after hostOps1_6 (StableHlo.after hostOps1_5 (StableHlo.after hostOps1_4 (StableHlo.after hostOps1_3 W))) (Proc.devRef .tc main_v74)
      = Host.dotGeneral dotN none (reluN (bnFinN (W (Proc.devRef .tc main_v54)) (W (Proc.devRef .tc main_v58)) (varN (W (Proc.devRef .tc main_v54)) (W (Proc.devRef .tc main_c_10))) (W (Proc.devRef .tc main_arg12)) (W (Proc.devRef .tc main_arg13)))) (W (Proc.devRef .tc main_arg14)) := by
  simp only [hostOps1_3, hostOps1_4, hostOps1_5, hostOps1_6]
  after_results_simp
  rfl

theorem tailB_v78 (W : Valuation τ sig (Elt F)) :
    StableHlo.after hostOps1_6 (StableHlo.after hostOps1_5 (StableHlo.after hostOps1_4 (StableHlo.after hostOps1_3 W))) (Proc.devRef .tc main_v78)
      = meanN (Host.dotGeneral dotN none (reluN (bnFinN (W (Proc.devRef .tc main_v54)) (W (Proc.devRef .tc main_v58)) (varN (W (Proc.devRef .tc main_v54)) (W (Proc.devRef .tc main_c_10))) (W (Proc.devRef .tc main_arg12)) (W (Proc.devRef .tc main_arg13)))) (W (Proc.devRef .tc main_arg14))) := by
  simp only [hostOps1_3, hostOps1_4, hostOps1_5, hostOps1_6]
  after_results_simp
  rfl

theorem tailB_c_14 (W : Valuation τ sig (Elt F)) :
    StableHlo.after hostOps1_6 (StableHlo.after hostOps1_5 (StableHlo.after hostOps1_4 (StableHlo.after hostOps1_3 W))) (Proc.devRef .tc main_c_14)
      = (ddof0 : I (F := F) S0) := by
  simp only [hostOps1_3, hostOps1_4, hostOps1_5, hostOps1_6]
  after_results_simp
  rfl

theorem tailB_v54 (W : Valuation τ sig (Elt F)) :
    StableHlo.after hostOps1_6 (StableHlo.after hostOps1_5 (StableHlo.after hostOps1_4 (StableHlo.after hostOps1_3 W))) (Proc.devRef .tc main_v54)
      = (W (Proc.devRef .tc main_v54)) := by
  simp only [hostOps1_3, hostOps1_4, hostOps1_5, hostOps1_6]
  after_results_simp

theorem tailB_arg15 (W : Valuation τ sig (Elt F)) :
    StableHlo.after hostOps1_6 (StableHlo.after hostOps1_5 (StableHlo.after hostOps1_4 (StableHlo.after hostOps1_3 W))) (Proc.devRef .tc main_arg15)
      = (W (Proc.devRef .tc main_arg15)) := by
  simp only [hostOps1_3, hostOps1_4, hostOps1_5, hostOps1_6]
  after_results_simp

theorem tailB_arg16 (W : Valuation τ sig (Elt F)) :
    StableHlo.after hostOps1_6 (StableHlo.after hostOps1_5 (StableHlo.after hostOps1_4 (StableHlo.after hostOps1_3 W))) (Proc.devRef .tc main_arg16)
      = (W (Proc.devRef .tc main_arg16)) := by
  simp only [hostOps1_3, hostOps1_4, hostOps1_5, hostOps1_6]
  after_results_simp

theorem tailB_arg17 (W : Valuation τ sig (Elt F)) :
    StableHlo.after hostOps1_6 (StableHlo.after hostOps1_5 (StableHlo.after hostOps1_4 (StableHlo.after hostOps1_3 W))) (Proc.devRef .tc main_arg17)
      = (W (Proc.devRef .tc main_arg17)) := by
  simp only [hostOps1_3, hostOps1_4, hostOps1_5, hostOps1_6]
  after_results_simp

theorem tailB_arg18 (W : Valuation τ sig (Elt F)) :
    StableHlo.after hostOps1_6 (StableHlo.after hostOps1_5 (StableHlo.after hostOps1_4 (StableHlo.after hostOps1_3 W))) (Proc.devRef .tc main_arg18)
      = (W (Proc.devRef .tc main_arg18)) := by
  simp only [hostOps1_3, hostOps1_4, hostOps1_5, hostOps1_6]
  after_results_simp

theorem tailB_arg19 (W : Valuation τ sig (Elt F)) :
    StableHlo.after hostOps1_6 (StableHlo.after hostOps1_5 (StableHlo.after hostOps1_4 (StableHlo.after hostOps1_3 W))) (Proc.devRef .tc main_arg19)
      = (W (Proc.devRef .tc main_arg19)) := by
  simp only [hostOps1_3, hostOps1_4, hostOps1_5, hostOps1_6]
  after_results_simp

/-! ### Third stretch: normalise, relu, second matmul, add the residual -/

theorem tailC_v95 (W : Valuation τ sig (Elt F)) :
    StableHlo.after hostOps1_10 (StableHlo.after hostOps1_9 (StableHlo.after hostOps1_8 (StableHlo.after hostOps1_7 W))) (Proc.devRef .tc main_v95)
      = addf (W (Proc.devRef .tc main_v54)) (Host.dotGeneral dotN none (reluN (bnFinN (W (Proc.devRef .tc main_v74)) (W (Proc.devRef .tc main_v78)) (varN (W (Proc.devRef .tc main_v74)) (W (Proc.devRef .tc main_c_14))) (W (Proc.devRef .tc main_arg15)) (W (Proc.devRef .tc main_arg16)))) (W (Proc.devRef .tc main_arg17))) := by
  simp only [hostOps1_7, hostOps1_8, hostOps1_9, hostOps1_10]
  after_results_simp
  rfl

theorem tailC_v99 (W : Valuation τ sig (Elt F)) :
    StableHlo.after hostOps1_10 (StableHlo.after hostOps1_9 (StableHlo.after hostOps1_8 (StableHlo.after hostOps1_7 W))) (Proc.devRef .tc main_v99)
      = meanN (addf (W (Proc.devRef .tc main_v54)) (Host.dotGeneral dotN none (reluN (bnFinN (W (Proc.devRef .tc main_v74)) (W (Proc.devRef .tc main_v78)) (varN (W (Proc.devRef .tc main_v74)) (W (Proc.devRef .tc main_c_14))) (W (Proc.devRef .tc main_arg15)) (W (Proc.devRef .tc main_arg16)))) (W (Proc.devRef .tc main_arg17)))) := by
  simp only [hostOps1_7, hostOps1_8, hostOps1_9, hostOps1_10]
  after_results_simp
  rfl

theorem tailC_c_18 (W : Valuation τ sig (Elt F)) :
    StableHlo.after hostOps1_10 (StableHlo.after hostOps1_9 (StableHlo.after hostOps1_8 (StableHlo.after hostOps1_7 W))) (Proc.devRef .tc main_c_18)
      = (ddof0 : I (F := F) S0) := by
  simp only [hostOps1_7, hostOps1_8, hostOps1_9, hostOps1_10]
  after_results_simp
  rfl

theorem tailC_arg18 (W : Valuation τ sig (Elt F)) :
    StableHlo.after hostOps1_10 (StableHlo.after hostOps1_9 (StableHlo.after hostOps1_8 (StableHlo.after hostOps1_7 W))) (Proc.devRef .tc main_arg18)
      = (W (Proc.devRef .tc main_arg18)) := by
  simp only [hostOps1_7, hostOps1_8, hostOps1_9, hostOps1_10]
  after_results_simp

theorem tailC_arg19 (W : Valuation τ sig (Elt F)) :
    StableHlo.after hostOps1_10 (StableHlo.after hostOps1_9 (StableHlo.after hostOps1_8 (StableHlo.after hostOps1_7 W))) (Proc.devRef .tc main_arg19)
      = (W (Proc.devRef .tc main_arg19)) := by
  simp only [hostOps1_7, hostOps1_8, hostOps1_9, hostOps1_10]
  after_results_simp

/-! ### Last stretch: the closing normalisation and relu -/

theorem tailD_v114 (W : Valuation τ sig (Elt F)) :
    StableHlo.after hostOps1_13 (StableHlo.after hostOps1_12 (StableHlo.after hostOps1_11 W)) (Proc.devRef .tc main_v114)
      = reluN (bnFinN (W (Proc.devRef .tc main_v95)) (W (Proc.devRef .tc main_v99)) (varN (W (Proc.devRef .tc main_v95)) (W (Proc.devRef .tc main_c_18))) (W (Proc.devRef .tc main_arg18)) (W (Proc.devRef .tc main_arg19))) := by
  simp only [hostOps1_11, hostOps1_12, hostOps1_13]
  after_results_simp
  rfl

end Tail

/-- Over any contents Vl of the buffers, the 189 operations after the attention head leave in the output buffer the
    layer's tail applied to the lifted points (buffer v0), the attention head's output (buffer v35) and the ten
    remaining arguments. -/
theorem tail_value (Vl : Valuation τ sig (Elt F)) :
    StableHlo.after (List.flatten [hostOps1, hostOps1_1, hostOps1_2, hostOps1_3, hostOps1_4, hostOps1_5, hostOps1_6, hostOps1_7, hostOps1_8, hostOps1_9, hostOps1_10, hostOps1_11, hostOps1_12, hostOps1_13]) Vl (Proc.devRef .tc main_v114)
      = AttnLayer.layerTail (Vl (Proc.devRef .tc main_v0)) (Vl (Proc.devRef .tc main_v35)) (Vl (Proc.devRef .tc main_arg10)) (Vl (Proc.devRef .tc main_arg11))
          (Vl (Proc.devRef .tc main_arg12)) (Vl (Proc.devRef .tc main_arg13)) (Vl (Proc.devRef .tc main_arg14)) (Vl (Proc.devRef .tc main_arg15))
          (Vl (Proc.devRef .tc main_arg16)) (Vl (Proc.devRef .tc main_arg17)) (Vl (Proc.devRef .tc main_arg18)) (Vl (Proc.devRef .tc main_arg19)) := by
  simp only [List.flatten_cons, List.flatten_nil, List.append_nil, StableHlo.after_append]
  rw [tailD_v114]
  rw [tailC_v95, tailC_v99, tailC_c_18, tailC_arg18, tailC_arg19]
  rw [tailB_v74, tailB_v78, tailB_c_14, tailB_v54, tailB_arg15, tailB_arg16, tailB_arg17, tailB_arg18, tailB_arg19]
  rw [tailA_v54, tailA_v58, tailA_c_10, tailA_arg12, tailA_arg13, tailA_arg14, tailA_arg15, tailA_arg16, tailA_arg17, tailA_arg18, tailA_arg19]
  simp only [bnFinN_self]
  rfl

end Cert.KernelIdeal.Hand

end
-- ==== Proof.Head.lean ====
/-
  The attention head read entry by entry over the extended reals, in the form in which the unnormalised weights are
  summed against the values first and the sum is divided afterwards:
    q i a   = Σ b, x i b · wq b a                       (queries)
    s i j   = Σ a, q i a · kt a j                       (scores against the transposed keys)
    mx i    = sup over j of s i j                       (row maximum)
    w i j   = exp (s i j - mx i),  den i = Σ j, w i j    (weights and their row sum)
    mix i e = (Σ j, w i j · v j e) / den i
    head i d = Σ e, mix i e · wt e d
  Dividing after the sum agrees with normalising each weight first (AttnLayer.attnRef) as soon as every score is a
  real number: then mx i is real, every weight lies in (0, 1], one of them is 1, den i is a real number ≥ 1, and
  multiplication by the nonnegative real (den i)⁻¹ distributes over any sum of extended reals.
-/
import proofs.«421826_j62139586839041_3_alg».proof.Proof.Spec
import Idealize.ShloMosaic.Lib.ValueIdx

noncomputable section

namespace AttnLayer

open Idealize.ShloMosaic Idealize.ShloMosaic.ValueIdx

/-- Every entry of the array is a real number (neither infinity). -/
def AllReal {S : Shape} (x : S.Idx → EReal) : Prop := ∀ i, ∃ r : ℝ, x i = (r : EReal)

section Head

variable (x : SNxD.Idx → EReal) (kt : SDxM.Idx → EReal) (v : SMxD.Idx → EReal) (wq wt : SDxD.Idx → EReal)

def qAt (i : Fin 16384) (a : Fin 128) : EReal := ∑ b : Fin 128, x (ix2 i b) * wq (ix2 b a)
def scoreAt (i : Fin 16384) (j : Fin 6144) : EReal := ∑ a : Fin 128, qAt x wq i a * kt (ix2 a j)
def rowSup (i : Fin 16384) : EReal := Finset.univ.sup fun j : Fin 6144 => scoreAt x kt wq i j
def weightAt (i : Fin 16384) (j : Fin 6144) : EReal := Ideal.exp (scoreAt x kt wq i j - rowSup x kt wq i)
def denAt (i : Fin 16384) : EReal := ∑ j : Fin 6144, weightAt x kt wq i j
def mixAt (i : Fin 16384) (e : Fin 128) : EReal := Ideal.div (∑ j : Fin 6144, weightAt x kt wq i j * v (ix2 j e)) (denAt x kt wq i)
/-- The head's output array. -/
def headK : SNxD.Idx → EReal := fun y => ∑ e : Fin 128, mixAt x kt v wq (y 0) e * wt (ix2 e (y 1))

end Head

end AttnLayer

end
-- ==== Proof.KITile.lean ====
/-
  One tile of the attention head, entry by entry over the extended reals.

  The tile takes 512 rows of x, all 6144 keys (transposed), all values and the two projections, and computes
    q p a   = Σ b, x p b · wq b a
    s p j   = Σ a, q p a · kt a j
    mx p    = the maximum over j of s p j, taken from the least element: the supremum of the row
    w p j   = exp (s p j - mx p),  den p = Σ j, w p j
    mix p e = (Σ j, w p j · v j e) / den p
    out p d = Σ e, mix p e · wt e d.
  Every stage at row p reads row p of x only; so when row p of the tile's block of x is row i of the whole array,
  row p of the tile's result is row i of the head of the whole array (AttnLayer.headK).

  A matrix product into the zero accumulator is read as the sum over the contracted coordinate; a reduction along the
  key axis as a sum, or a supremum, over the 6144 keys; a row statistic cast to a column and spread over a row is that
  statistic at the row.
-/
import proofs.«421826_j62139586839041_3_alg».proof.Proof.Gen.KernelIdeal.Skeleton
import proofs.«421826_j62139586839041_3_alg».proof.Proof.Head
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx

/-! ## A matrix product into the zero accumulator is the sum over the contracted axis

The three products of the tile are plain ones: rows by the contracted axis times the contracted axis by columns.
At an entry (a, b) the left operand is read at (a, c) and the right one at (c, b), c the contracted coordinate. -/

theorem plain_lhs0 {m k n : Nat} (j : (⟨2, ![m, n]⟩ : Shape).Idx) (q : (DotDims.plain m k n).contr.Idx) :
    ((DotDims.plain m k n).lhsIdx j q 0).val = (j 0).val := rfl

theorem plain_lhs1 {m k n : Nat} (j : (⟨2, ![m, n]⟩ : Shape).Idx) (q : (DotDims.plain m k n).contr.Idx) :
    ((DotDims.plain m k n).lhsIdx j q 1).val = (q ⟨0, Nat.one_pos⟩).val := rfl

theorem plain_rhs0 {m k n : Nat} (j : (⟨2, ![m, n]⟩ : Shape).Idx) (q : (DotDims.plain m k n).contr.Idx) :
    ((DotDims.plain m k n).rhsIdx j q 0).val = (q ⟨0, Nat.one_pos⟩).val := rfl

theorem plain_rhs1 {m k n : Nat} (j : (⟨2, ![m, n]⟩ : Shape).Idx) (q : (DotDims.plain m k n).contr.Idx) :
    ((DotDims.plain m k n).rhsIdx j q 1).val = (j 1).val := rfl

theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) := by
  refine (Ideal.matmul_constant_zero_apply (DotDims.plain m k n) prec A B (ix2 a b)).trans ?_
  refine ((contrEquiv1 (DotDims.plain m k n) k rfl rfl).symm.sum_comp _).symm.trans ?_
  refine Finset.sum_congr rfl fun c _ => ?_
  have hc := contrEquiv1_symm_val (DotDims.plain m k n) k rfl rfl c
  have hl : (DotDims.plain m k n).lhsIdx (ix2 a b) ((contrEquiv1 (DotDims.plain m k n) k rfl rfl).symm c) = ix2 a c :=
    Shape.idx_ext₂ (plain_lhs0 _ _) ((plain_lhs1 _ _).trans hc)
  have hr : (DotDims.plain m k n).rhsIdx (ix2 a b) ((contrEquiv1 (DotDims.plain m k n) k rfl rfl).symm c) = ix2 c b :=
    Shape.idx_ext₂ ((plain_rhs0 _ _).trans hc) (plain_rhs1 _ _)
  rw [hl, hr]

/-- Queries, and the closing projection: [512, 128] by [128, 128]. -/
theorem mmQ_apply (A : FVec Ideal S512x128 .bf16) (B : FVec Ideal S128x128 .bf16) (p : Fin 512) (a : Fin 128) :
    matmul (F := Ideal) dot_S512x128_S128x128_S512x128_1_0_0_1_n_n none A B (constant (F := Ideal) S512x128 .f32 0x00000000#32) (ix2 p a)
      = ∑ b : Fin 128, A (ix2 p b) * B (ix2 b a) :=
  matmul_plain_apply (m := 512) (k := 128) (n := 128) none A B p a

/-- Scores: [512, 128] by [128, 6144]. -/
theorem mmS_apply (A : FVec Ideal S512x128 .bf16) (B : FVec Ideal S128x6144 .bf16) (p : Fin 512) (j : Fin 6144) :
    matmul (F := Ideal) dot_S512x128_S128x6144_S512x6144_1_0_0_1_n_n none A B (constant (F := Ideal) S512x6144 .f32 0x00000000#32) (ix2 p j)
      = ∑ a : Fin 128, A (ix2 p a) * B (ix2 a j) :=
  matmul_plain_apply (m := 512) (k := 128) (n := 6144) none A B p j

/-- Weighted values: [512, 6144] by [6144, 128]. -/
theorem mmV_apply (A : FVec Ideal S512x6144 .bf16) (B : FVec Ideal S6144x128 .bf16) (p : Fin 512) (e : Fin 128) :
    matmul (F := Ideal) dot_S512x6144_S6144x128_S512x128_1_0_0_1_n_n none A B (constant (F := Ideal) S512x128 .f32 0x00000000#32) (ix2 p e)
      = ∑ j : Fin 6144, A (ix2 p j) * B (ix2 j e) :=
  matmul_plain_apply (m := 512) (k := 6144) (n := 128) none A B p e

/-! ## Reductions along the key axis -/

/-- The row index with the key coordinate put back. -/
theorem lift_row (p : Fin 512) (j : Fin 6144) : reduces_S512x6144_S512.lift (ix1 p) j = ix2 p j :=
  Shape.idx_ext₂ rfl rfl

/-- The sum of a row. -/
theorem rowSum_apply (s : FVec Ideal S512x6144 .f32) (p : Fin 512) :
    multiReduction (F := Ideal) .add [1] S512 s 0x00000000#32 reduces_S512x6144_S512 (.inl rfl) rfl (ix1 p)
      = ∑ j : Fin 6144, s (ix2 p j) := by
  refine (Ideal.multiReduction_add_single s 0x00000000#32 reduces_S512x6144_S512 (.inl rfl) rfl (ix1 p)).trans ?_
  exact Finset.sum_congr rfl fun j _ => congrArg s (lift_row p j)

/-- The word the maximum starts from denotes the least extended real. -/
theorem ofBits_negInf : FloatOps.ofBits (F := Ideal) .f32 0xFF800000#32 = (⊥ : EReal) := by
  simp [Ideal.ofBits, Ideal.ieee]

/-- The maximum of a row, from the least element, is the supremum of the row. -/
theorem rowMax_apply (s : FVec Ideal S512x6144 .f32) (p : Fin 512) :
    multiReduction (F := Ideal) .maximumf [1] S512 s 0xFF800000#32 reduces_S512x6144_S512 (.inl rfl) rfl (ix1 p)
      = Finset.univ.sup fun j : Fin 6144 => s (ix2 p j) := by
  refine (Ideal.multiReduction_maximumf_single s 0xFF800000#32 reduces_S512x6144_S512 (.inl rfl) rfl (ix1 p)).trans ?_
  have hf : (s ∘ reduces_S512x6144_S512.lift (ix1 p)) = fun j : Fin 6144 => s (ix2 p j) :=
    funext fun j => congrArg s (lift_row p j)
  rw [hf, ofBits_negInf]
  rfl

/-! ## A row statistic as a column, and the column spread over a row -/

theorem colCast_apply (r : FVec Ideal S512 .f32) (p : Fin 512) (u : Fin 1) :
    shapeCast S512x1 r shapeCasts_S512_S512x1 (ix2 p u) = r (ix1 p) :=
  shapeCast_apply r shapeCasts_S512_S512x1 (ix2 p u) (ix1 p) (by
    rw [Shape.rowMajor_val_one, Shape.rowMajor_val_two]
    show p.val = p.val * 1 + u.val
    omega)

theorem colBcastM_apply (c : FVec Ideal S512x1 .f32) (p : Fin 512) (j : Fin 6144) :
    broadcastTo S512x6144 c broadcasts_S512x1_S512x6144 (ix2 p j) = c (ix2 p (0 : Fin 1)) :=
  broadcastTo_apply c broadcasts_S512x1_S512x6144 (ix2 p j) (ix2 p (0 : Fin 1)) fun ax => by
    match ax with
    | ⟨0, _⟩ => rfl
    | ⟨1, _⟩ => rfl

theorem colBcastD_apply (c : FVec Ideal S512x1 .f32) (p : Fin 512) (e : Fin 128) :
    broadcastTo S512x128 c broadcasts_S512x1_S512x128 (ix2 p e) = c (ix2 p (0 : Fin 1)) :=
  broadcastTo_apply c broadcasts_S512x1_S512x128 (ix2 p e) (ix2 p (0 : Fin 1)) fun ax => by
    match ax with
    | ⟨0, _⟩ => rfl
    | ⟨1, _⟩ => rfl

/-! ## The stages of the tile -/

/-- Queries of the tile's rows. -/
def qTile (xb : FVec Ideal S512x128 .bf16) (wq : FVec Ideal S128x128 .bf16) : FVec Ideal S512x128 .f32 :=
  matmul dot_S512x128_S128x128_S512x128_1_0_0_1_n_n none xb wq (constant S512x128 .f32 0x00000000#32)

/-- Scores of the tile's rows against every key. -/
def scoreTile (xb : FVec Ideal S512x128 .bf16) (kt : FVec Ideal S128x6144 .bf16) (wq : FVec Ideal S128x128 .bf16) :
    FVec Ideal S512x6144 .f32 :=
  matmul dot_S512x128_S128x6144_S512x6144_1_0_0_1_n_n none (truncf .bf16 (qTile xb wq) bitsLt_bf16_f32) kt
    (constant S512x6144 .f32 0x00000000#32)

/-- Row maxima of the scores. -/
def maxTile (xb : FVec Ideal S512x128 .bf16) (kt : FVec Ideal S128x6144 .bf16) (wq : FVec Ideal S128x128 .bf16) :
    FVec Ideal S512 .f32 :=
  multiReduction .maximumf [1] S512 (scoreTile xb kt wq) 0xFF800000#32 reduces_S512x6144_S512 (.inl rfl) rfl

/-- Unnormalised weights: the exponential of the score less its row maximum. -/
def weightTile (xb : FVec Ideal S512x128 .bf16) (kt : FVec Ideal S128x6144 .bf16) (wq : FVec Ideal S128x128 .bf16) :
    FVec Ideal S512x6144 .f32 :=
  exp (subf (scoreTile xb kt wq)
    (broadcastTo S512x6144 (shapeCast S512x1 (maxTile xb kt wq) shapeCasts_S512_S512x1) broadcasts_S512x1_S512x6144))

/-- Row sums of the weights. -/
def denTile (xb : FVec Ideal S512x128 .bf16) (kt : FVec Ideal S128x6144 .bf16) (wq : FVec Ideal S128x128 .bf16) :
    FVec Ideal S512 .f32 :=
  multiReduction .add [1] S512 (weightTile xb kt wq) 0x00000000#32 reduces_S512x6144_S512 (.inl rfl) rfl

/-- The weighted sum of the values, divided by the row sum of the weights. -/
def mixTile (xb : FVec Ideal S512x128 .bf16) (kt : FVec Ideal S128x6144 .bf16) (v : FVec Ideal S6144x128 .bf16)
    (wq : FVec Ideal S128x128 .bf16) : FVec Ideal S512x128 .f32 :=
  divf
    (matmul dot_S512x6144_S6144x128_S512x128_1_0_0_1_n_n none (truncf .bf16 (weightTile xb kt wq) bitsLt_bf16_f32) v
      (constant S512x128 .f32 0x00000000#32))
    (broadcastTo S512x128 (shapeCast S512x1 (denTile xb kt wq) shapeCasts_S512_S512x1) broadcasts_S512x1_S512x128)

/-- The closing projection. -/
def outTile (xb : FVec Ideal S512x128 .bf16) (kt : FVec Ideal S128x6144 .bf16) (v : FVec Ideal S6144x128 .bf16)
    (wq wt : FVec Ideal S128x128 .bf16) : FVec Ideal S512x128 .f32 :=
  matmul dot_S512x128_S128x128_S512x128_1_0_0_1_n_n none (truncf .bf16 (mixTile xb kt v wq) bitsLt_bf16_f32) wt
    (constant S512x128 .f32 0x00000000#32)

/-- The body's arithmetic is the composition of the stages: the casts of a block to its own shape vanish. -/
theorem k0_pay1_eq_outTile (xb : Vec Ideal S512x128 .bf16) (kt : Vec Ideal S128x6144 .bf16) (v : Vec Ideal S6144x128 .bf16)
    (wq wt : Vec Ideal S128x128 .bf16) : k0_pay1 (F := Ideal) xb kt v wq wt = outTile xb kt v wq wt := by
  unfold k0_pay1
  simp only [shapeCast_self]
  rfl

/-! ## Each stage at a row of the tile that is row i of the whole array -/

theorem qTile_apply (xb : FVec Ideal S512x128 .bf16) (wq : FVec Ideal S128x128 .bf16)
    (x : AttnLayer.SNxD.Idx → EReal) (p : Fin 512) (i : Fin 16384)
    (hrow : ∀ b : Fin 128, xb (ix2 p b) = x (ix2 i b)) (a : Fin 128) :
    qTile xb wq (ix2 p a) = AttnLayer.qAt x wq i a := by
  refine (mmQ_apply xb wq p a).trans ?_
  exact Finset.sum_congr rfl fun b _ => congrArg (· * wq (ix2 b a)) (hrow b)

theorem scoreTile_apply (xb : FVec Ideal S512x128 .bf16) (kt : FVec Ideal S128x6144 .bf16) (wq : FVec Ideal S128x128 .bf16)
    (x : AttnLayer.SNxD.Idx → EReal) (p : Fin 512) (i : Fin 16384)
    (hrow : ∀ b : Fin 128, xb (ix2 p b) = x (ix2 i b)) (j : Fin 6144) :
    scoreTile xb kt wq (ix2 p j) = AttnLayer.scoreAt x kt wq i j := by
  refine (mmS_apply _ kt p j).trans ?_
  exact Finset.sum_congr rfl fun a _ => congrArg (· * kt (ix2 a j)) (qTile_apply xb wq x p i hrow a)

theorem maxTile_apply (xb : FVec Ideal S512x128 .bf16) (kt : FVec Ideal S128x6144 .bf16) (wq : FVec Ideal S128x128 .bf16)
    (x : AttnLayer.SNxD.Idx → EReal) (p : Fin 512) (i : Fin 16384)
    (hrow : ∀ b : Fin 128, xb (ix2 p b) = x (ix2 i b)) :
    maxTile xb kt wq (ix1 p) = AttnLayer.rowSup x kt wq i := by
  refine (rowMax_apply (scoreTile xb kt wq) p).trans ?_
  exact congrArg (Finset.sup Finset.univ) (funext fun j => scoreTile_apply xb kt wq x p i hrow j)

theorem weightTile_apply (xb : FVec Ideal S512x128 .bf16) (kt : FVec Ideal S128x6144 .bf16) (wq : FVec Ideal S128x128 .bf16)
    (x : AttnLayer.SNxD.Idx → EReal) (p : Fin 512) (i : Fin 16384)
    (hrow : ∀ b : Fin 128, xb (ix2 p b) = x (ix2 i b)) (j : Fin 6144) :
    weightTile xb kt wq (ix2 p j) = AttnLayer.weightAt x kt wq i j := by
  have hB : broadcastTo S512x6144 (shapeCast S512x1 (maxTile xb kt wq) shapeCasts_S512_S512x1) broadcasts_S512x1_S512x6144 (ix2 p j)
      = AttnLayer.rowSup x kt wq i :=
    (colBcastM_apply _ p j).trans ((colCast_apply _ p 0).trans (maxTile_apply xb kt wq x p i hrow))
  exact congrArg Ideal.exp (congrArg₂ (· - ·) (scoreTile_apply xb kt wq x p i hrow j) hB)

theorem denTile_apply (xb : FVec Ideal S512x128 .bf16) (kt : FVec Ideal S128x6144 .bf16) (wq : FVec Ideal S128x128 .bf16)
    (x : AttnLayer.SNxD.Idx → EReal) (p : Fin 512) (i : Fin 16384)
    (hrow : ∀ b : Fin 128, xb (ix2 p b) = x (ix2 i b)) :
    denTile xb kt wq (ix1 p) = AttnLayer.denAt x kt wq i := by
  refine (rowSum_apply (weightTile xb kt wq) p).trans ?_
  exact Finset.sum_congr rfl fun j _ => weightTile_apply xb kt wq x p i hrow j

theorem mixTile_apply (xb : FVec Ideal S512x128 .bf16) (kt : FVec Ideal S128x6144 .bf16) (v : FVec Ideal S6144x128 .bf16)
    (wq : FVec Ideal S128x128 .bf16) (x : AttnLayer.SNxD.Idx → EReal) (p : Fin 512) (i : Fin 16384)
    (hrow : ∀ b : Fin 128, xb (ix2 p b) = x (ix2 i b)) (e : Fin 128) :
    mixTile xb kt v wq (ix2 p e) = AttnLayer.mixAt x kt v wq i e := by
  have hM : matmul (F := Ideal) dot_S512x6144_S6144x128_S512x128_1_0_0_1_n_n none
        (truncf .bf16 (weightTile xb kt wq) bitsLt_bf16_f32) v (constant (F := Ideal) S512x128 .f32 0x00000000#32) (ix2 p e)
      = ∑ j : Fin 6144, AttnLayer.weightAt x kt wq i j * v (ix2 j e) :=
    (mmV_apply _ v p e).trans
      (Finset.sum_congr rfl fun j _ => congrArg (· * v (ix2 j e)) (weightTile_apply xb kt wq x p i hrow j))
  have hD : broadcastTo S512x128 (shapeCast S512x1 (denTile xb kt wq) shapeCasts_S512_S512x1) broadcasts_S512x1_S512x128 (ix2 p e)
      = AttnLayer.denAt x kt wq i :=
    (colBcastD_apply _ p e).trans ((colCast_apply _ p 0).trans (denTile_apply xb kt wq x p i hrow))
  exact congrArg₂ Ideal.div hM hD

/-- One tile of 512 query rows against all keys: row p of the result depends on row p of the tile's block of x only,
    and is row i of the head of the whole array when that row of the block is row i of the whole array. -/
theorem tile_apply (xb : Vec Ideal S512x128 .bf16) (kt : Vec Ideal S128x6144 .bf16) (v : Vec Ideal S6144x128 .bf16)
    (wq wt : Vec Ideal S128x128 .bf16) (x : AttnLayer.SNxD.Idx → EReal) (p : Fin 512) (i : Fin 16384) (d : Fin 128)
    (hrow : ∀ b : Fin 128, xb (ix2 p b) = x (ix2 i b)) :
    k0_pay1 (F := Ideal) xb kt v wq wt (ix2 p d) = AttnLayer.headK x kt v wq wt (ix2 i d) := by
  refine (congrFun (k0_pay1_eq_outTile xb kt v wq wt) (ix2 p d)).trans ?_
  refine (mmQ_apply _ wt p d).trans ?_
  exact Finset.sum_congr rfl fun e _ => congrArg (· * wt (ix2 e d)) (mixTile_apply xb kt v wq x p i hrow e)

end Cert.KernelIdeal.Hand

end
-- ==== Proof.KIRegion.lean ====
/-
  The region's output array as one function of the five arrays it reads, over the extended reals.

  Each of the 32 grid points reads rows 512 t … 512 t + 511 of the first array and the other four arrays whole, and
  writes rows 512 t … 512 t + 511 of the output.  Row by row the tile function is the attention head of the whole
  arrays, so what a point writes back is its block of one array, and the 32 blocks tile the 16384 rows of the output.
-/
import proofs.«421826_j62139586839041_3_alg».proof.Proof.KIFrame
import proofs.«421826_j62139586839041_3_alg».proof.Proof.KITile
import proofs.«421826_j62139586839041_3_alg».proof.Proof.Head
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem
open Idealize.ShloMosaic.Pipeline (Dat)

namespace Region

open Idealize.ShloMosaic.ValueIdx

/-- The offset vector zero on both axes is the constant zero function. -/
theorem zero_offsets : (![0, 0] : Fin 2 → Nat) = fun _ => 0 := funext fun a => by fin_cases a <;> rfl

/-- The block indices over the grid: the row-blocked windows (the first input and the output) sit at block (t, 0), the
    four whole-array inputs at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The tile function on a block of 512 consecutive rows of `X`, beside the whole arrays, is the head of the whole arrays
    at those rows: block row p is array row 512 n + p. -/
theorem tile_rows (X : AttnLayer.SNxD.Idx → EReal) (KT : AttnLayer.SDxM.Idx → EReal) (VV : AttnLayer.SMxD.Idx → EReal)
    (WQ WT : AttnLayer.SDxD.Idx → EReal)
    (xb : Vec Ideal S512x128 .bf16) (kt : Vec Ideal S128x6144 .bf16) (v : Vec Ideal S6144x128 .bf16)
    (wq wt : Vec Ideal S128x128 .bf16)
    (hkt : kt = KT) (hv : v = VV) (hwq : wq = WQ) (hwt : wt = WT) (n : ℕ)
    (hx : ∀ (y : S512x128.Idx) (i : S16384x128.Idx), (i 0).val = n * 512 + (y 0).val → (i 1).val = (y 1).val → xb y = X i)
    (j : S512x128.Idx) (i : S16384x128.Idx) (h0 : (i 0).val = n * 512 + (j 0).val) (h1 : (i 1).val = (j 1).val) :
    k0_pay1 (F := Ideal) xb kt v wq wt j = AttnLayer.headK X KT VV WQ WT i := by
  subst hkt hv hwq hwt
  obtain ⟨p, d, rfl⟩ : ∃ (p : Fin 512) (d : Fin 128), j = ix2 p d := ⟨j 0, j 1, eq_ix2 j⟩
  obtain ⟨r, d', rfl⟩ : ∃ (r : Fin 16384) (d' : Fin 128), i = ix2 r d' := ⟨i 0, i 1, eq_ix2 i⟩
  obtain rfl : d' = d := Fin.ext h1
  exact tile_apply xb kt v wq wt X p r d' fun b => hx (ix2 p b) (ix2 r b) h0 rfl

variable (m : (ℓ : Loc nD τ sig) → Buf (Elt Ideal) ℓ)

/-- The first input's block at point `t` holds rows 512 t … 512 t + 511 of its array. -/
theorem iblk0_apply (c : Dev nD) (t : Fin cfg0.N) (y : S512x128.Idx) (i : S16384x128.Idx)
    (h0 : (i 0).val = t.val * 512 + (y 0).val) (h1 : (i 1).val = (y 1).val) :
    (iblk m c 0 t : Vec Ideal S512x128 .bf16) y = (V m c main_v29 : S16384x128.Idx → Elt Ideal .bf16) i := by
  obtain ⟨e0, e1, -⟩ := block_indices t
  unfold iblk
  rw [View.read_apply]
  show V m c main_v29 _ = V m c main_v29 _
  congr 1
  funext a
  apply Fin.ext
  match a with
  | ⟨0, _⟩ => show win0_0.index t (0 : Fin 2) * 512 + 1 * (y 0).val = (i 0).val; rw [e0, h0]; omega
  | ⟨1, _⟩ => show win0_0.index t (1 : Fin 2) * 128 + 1 * (y 1).val = (i 1).val; rw [e1, h1]; omega

/-- The transposed keys' block at any point is the whole array. -/
theorem iblk1_eq (c : Dev nD) (t : Fin cfg0.N) :
    (iblk m c 1 t : Vec Ideal S128x6144 .bf16) = (V m c main_v31 : S128x6144.Idx → Elt Ideal .bf16) := by
  obtain ⟨-, -, e0, e1, -⟩ := block_indices t
  funext y
  unfold iblk
  rw [View.read_apply]
  show V m c main_v31 _ = V m c main_v31 y
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 6144 + 1 * (y 1).val = (y 1).val; rw [e1]; omega

/-- The values' block at any point is the whole array. -/
theorem iblk2_eq (c : Dev nD) (t : Fin cfg0.N) :
    (iblk m c 2 t : Vec Ideal S6144x128 .bf16) = (V m c main_v32 : S6144x128.Idx → Elt Ideal .bf16) := by
  obtain ⟨-, -, -, -, e0, e1, -⟩ := block_indices t
  funext y
  unfold iblk
  rw [View.read_apply]
  show V m c main_v32 _ = V m c main_v32 y
  congr 1
  funext a
  apply Fin.ext
  match a with
  | ⟨0, _⟩ => show win0_2.index t (0 : Fin 2) * 6144 + 1 * (y 0).val = (y 0).val; rw [e0]; omega
  | ⟨1, _⟩ => show win0_2.index t (1 : Fin 2) * 128 + 1 * (y 1).val = (y 1).val; rw [e1]; omega

/-- The query weights' block at any point is the whole array. -/
theorem iblk3_eq (c : Dev nD) (t : Fin cfg0.N) :
    (iblk m c 3 t : Vec Ideal S128x128 .bf16) = (V m c main_v33 : S128x128.Idx → Elt Ideal .bf16) := by
  obtain ⟨-, -, -, -, -, -, e0, e1, -⟩ := block_indices t
  funext y
  unfold iblk
  rw [View.read_apply]
  show V m c main_v33 _ = V m c main_v33 y
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The closing weights' block at any point is the whole array. -/
theorem iblk4_eq (c : Dev nD) (t : Fin cfg0.N) :
    (iblk m c 4 t : Vec Ideal S128x128 .bf16) = (V m c main_v34 : S128x128.Idx → Elt Ideal .bf16) := by
  obtain ⟨-, -, -, -, -, -, -, -, e0, e1, -⟩ := block_indices t
  funext y
  unfold iblk
  rw [View.read_apply]
  show V m c main_v34 _ = V m c main_v34 y
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- The head of the five arrays as the region finds them. -/
abbrev headArr (c : Dev nD) : S16384x128.Idx → EReal :=
  AttnLayer.headK (V m c main_v29) (V m c main_v31) (V m c main_v32) (V m c main_v33) (V m c main_v34)

/-- What point `t` writes back is block `t` of the head of the five arrays. -/
theorem flushed_eq (c : Dev nD) (t : Fin cfg0.N) :
    (dats (F := Ideal) m 0 c).flushed 5 t = ((cfg0.win 5).blk t).view.read (Elt Ideal) (headArr m c) := by
  show (cfg0.win 5).cut (grid0.coords t) ((dats m 0 c).after 5 t) = _
  rw [after0_5]
  unfold tileOut
  rw [View.canon_unit_zero zero_offsets]
  simp only [View.ld_unit_zero (S := S512x128) zero_offsets, View.ld_unit_zero (S := S128x6144) zero_offsets,
    View.ld_unit_zero (S := S6144x128) zero_offsets, View.ld_unit_zero (S := S128x128) zero_offsets]
  obtain ⟨-, -, -, -, -, -, -, -, -, -, e0, e1⟩ := block_indices t
  funext j
  rw [View.read_apply]
  refine tile_rows (V m c main_v29) (V m c main_v31) (V m c main_v32) (V m c main_v33) (V m c main_v34)
    (iblk m c 0 t) (iblk m c 1 t) (iblk m c 2 t) (iblk m c 3 t) (iblk m c 4 t)
    (iblk1_eq m c t) (iblk2_eq m c t) (iblk3_eq m c t) (iblk4_eq m c t) t.val
    (fun y i h0 h1 => iblk0_apply m c t y i h0 h1) j (((cfg0.win 5).blk t).view.emb j) ?_ ?_
  · show win0_5.index t (0 : Fin 2) * 512 + 1 * (j 0).val = t.val * 512 + (j 0).val
    rw [e0]; omega
  · show win0_5.index t (1 : Fin 2) * 128 + 1 * (j 1).val = (j 1).val
    rw [e1]; omega

/-- An index of the output is in point `t`'s block iff each coordinate is in the block's range on its axis. -/
theorem mem_blk (t : Fin cfg0.N) (i : S16384x128.Idx) :
    i ∈ ((cfg0.win 5).blk t).view.set ↔ ∀ a : Fin 2, win0_5.index t a * S512x128.size a ≤ (i a).val ∧ (i a).val < win0_5.index t a * S512x128.size a + S512x128.size a := by
  show i ∈ ((View.whole main_v35).slice (win0_5.rect t)).set ↔ _
  rw [View.set_slice_whole, Rect.mem_set_unit]
  exact Iff.rfl

/-- Every index of the output is in some point's block: row `r` is in the block of point `r / 512`. -/
theorem covered (i : S16384x128.Idx) :
    ∃ t : Fin cfg0.N, (cfg0.win 5).flush t = true ∧ i ∈ ((cfg0.win 5).blk t).view.set := by
  have hi0 : (i 0).val < 16384 := (i 0).isLt
  have hi1 : (i 1).val < 128 := (i 1).isLt
  have hN : cfg0.N = 32 := N_0
  let t : Fin cfg0.N := ⟨(i 0).val / 512, by rw [hN]; omega⟩
  obtain ⟨-, -, -, -, -, -, -, -, -, -, e0, e1⟩ := block_indices t
  have ht : t.val = (i 0).val / 512 := rfl
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; rw [e0, ht]; omega
  | ⟨1, _⟩ => show win0_5.index t (1 : Fin 2) * 128 ≤ (i 1).val ∧ (i 1).val < win0_5.index t (1 : Fin 2) * 128 + 128; rw [e1]; omega

end Region

variable (m : (ℓ : Loc nD τ sig) → Buf (Elt Ideal) ℓ)

/-- The output array after the region: the head of the five arrays the region reads. -/
theorem region_out (c : Dev nD) :
    (dats (F := Ideal) m 0 c).arrAt 5 cfg0.N = AttnLayer.headK (V m c main_v29) (V m c main_v31) (V m c main_v32) (V m c main_v33) (V m c main_v34) :=
  (dats m 0 c).arrAt_eq_of_cover 5 (Region.headArr m c) (fun t _ => Region.flushed_eq m c t) Region.covered

end Cert.KernelIdeal.Hand

end
-- ==== Proof.HeadLaw.lean ====
/-
  The attention head with the division after the weighted sum (AttnLayer.headK) equals the head that normalises the
  softmax weights first (AttnLayer.attnRef), as soon as the points, the query projection and the keys are arrays of
  real numbers.

  Read entry by entry, attnRef at (i, d) is
    Σ e, (Σ j, (w i j / den i) · v j e) · wt e d,   w i j = exp (s i j - sup over j' of s i j'),  den i = Σ j, w i j,
  with s the scores against the transposed keys, and headK at (i, d) is
    Σ e, ((Σ j, w i j · v j e) / den i) · wt e d.
  When every score of row i is real, the supremum over the 6144 keys is attained, hence real; every weight is the
  exponential of a real number, a positive real; den i is a positive real D. Division by D is multiplication by the
  nonnegative real 1 / D, which distributes over any finite sum of extended reals (the values v need not be real), and
  (w · v) · (1 / D) = (w · (1 / D)) · v.
-/
import proofs.«421826_j62139586839041_3_alg».proof.Proof.Head
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost
import Idealize.ShloMosaic.Lib.StackMember

noncomputable section

namespace AttnLayer

open Idealize.ShloMosaic Idealize.ShloMosaic.ValueIdx Idealize.ShloMosaic.StackMember
open scoped BigOperators

/-! ## Extended-real arithmetic -/

/-- Multiplication by a nonnegative real distributes over any finite sum of extended reals. -/
theorem sum_mul_coe_nonneg {ι : Type} (s : Finset ι) (a : ι → EReal) {r : ℝ} (hr : 0 ≤ r) :
    (∑ j ∈ s, a j) * (r : EReal) = ∑ j ∈ s, a j * (r : EReal) := by
  classical
  refine Finset.induction_on s (by simp) fun j s hj ih => ?_
  rw [Finset.sum_insert hj, Finset.sum_insert hj,
    EReal.right_distrib_of_nonneg_of_ne_top (by exact_mod_cast hr) (EReal.coe_ne_top r), ih]

/-- The inclusion of the reals carries finite sums to finite sums. -/
theorem coe_sum {ι : Type} (s : Finset ι) (a : ι → ℝ) : ((∑ j ∈ s, a j : ℝ) : EReal) = ∑ j ∈ s, (a j : EReal) := by
  classical
  refine Finset.induction_on s (by simp) fun j s hj ih => ?_
  rw [Finset.sum_insert hj, Finset.sum_insert hj, EReal.coe_add, ih]

/-- A product of two reals is real. -/
theorem real_mul {a b : EReal} (ha : ∃ r : ℝ, a = (r : EReal)) (hb : ∃ r : ℝ, b = (r : EReal)) :
    ∃ r : ℝ, a * b = (r : EReal) := by
  obtain ⟨p, rfl⟩ := ha; obtain ⟨q, rfl⟩ := hb; exact ⟨p * q, (EReal.coe_mul p q).symm⟩

/-- A finite sum of reals is real. -/
theorem real_sum {ι : Type} (s : Finset ι) (a : ι → EReal) (h : ∀ j, ∃ r : ℝ, a j = (r : EReal)) :
    ∃ r : ℝ, ∑ j ∈ s, a j = (r : EReal) := by
  choose f hf using h
  exact ⟨∑ j ∈ s, f j, by rw [coe_sum]; exact Finset.sum_congr rfl fun j _ => hf j⟩

/-- Dividing a weighted sum by a positive real is weighting by the divided weights. -/
theorem div_sum_mul {ι : Type} (s : Finset ι) (a v : ι → EReal) {D : ℝ} (hD : 0 < D) :
    Ideal.div (∑ j ∈ s, a j * v j) (D : EReal) = ∑ j ∈ s, Ideal.div (a j) (D : EReal) * v j := by
  rw [Ideal.div_coe hD.ne', sum_mul_coe_nonneg _ _ (one_div_pos.mpr hD).le]
  refine Finset.sum_congr rfl fun j _ => ?_
  rw [Ideal.div_coe hD.ne', mul_assoc, mul_comm (v j), ← mul_assoc]

section Head

variable (x : SNxD.Idx → EReal) (kt : SDxM.Idx → EReal) (v : SMxD.Idx → EReal) (wq wt : SDxD.Idx → EReal)

/-- Every query entry is real. -/
theorem qAt_real (hx : AllReal x) (hwq : AllReal wq) (i : Fin 16384) (a : Fin 128) : ∃ r : ℝ, qAt x wq i a = (r : EReal) :=
  real_sum _ _ fun b => real_mul (hx _) (hwq _)

/-- Every score is real. -/
theorem scoreAt_real (hx : AllReal x) (hwq : AllReal wq) (hkt : AllReal kt) (i : Fin 16384) (j : Fin 6144) :
    ∃ r : ℝ, scoreAt x kt wq i j = (r : EReal) :=
  real_sum _ _ fun a => real_mul (qAt_real x wq hx hwq i a) (hkt _)

/-- With every score of row i real, the row's weights are positive reals. -/
theorem weightAt_real (i : Fin 16384) (hs : ∀ j, ∃ r : ℝ, scoreAt x kt wq i j = (r : EReal)) :
    ∃ w : Fin 6144 → ℝ, (∀ j, 0 < w j) ∧ ∀ j, weightAt x kt wq i j = (w j : EReal) := by
  choose a ha using hs
  obtain ⟨j0, -, h0⟩ := Finset.exists_mem_eq_sup Finset.univ ⟨(⟨0, by norm_num⟩ : Fin 6144), Finset.mem_univ _⟩
    (fun j => scoreAt x kt wq i j)
  refine ⟨fun j => Real.exp (a j - a j0), fun j => Real.exp_pos _, fun j => ?_⟩
  unfold weightAt rowSup
  rw [h0, ha j, ha j0, ← EReal.coe_sub]
  rfl

/-- … and their sum is a positive real. -/
theorem denAt_real (i : Fin 16384) (hs : ∀ j, ∃ r : ℝ, scoreAt x kt wq i j = (r : EReal)) :
    ∃ D : ℝ, 0 < D ∧ denAt x kt wq i = (D : EReal) := by
  obtain ⟨w, hw, hW⟩ := weightAt_real x kt wq i hs
  refine ⟨∑ j, w j, Finset.sum_pos (fun j _ => hw j) ⟨(⟨0, by norm_num⟩ : Fin 6144), Finset.mem_univ _⟩, ?_⟩
  unfold denAt
  rw [coe_sum]
  exact Finset.sum_congr rfl fun j _ => hW j

/-- The mixed row with the division moved inside the sum. -/
theorem mixAt_eq (i : Fin 16384) (e : Fin 128) (hs : ∀ j, ∃ r : ℝ, scoreAt x kt wq i j = (r : EReal)) :
    mixAt x kt v wq i e = ∑ j : Fin 6144, Ideal.div (weightAt x kt wq i j) (denAt x kt wq i) * v (ix2 j e) := by
  obtain ⟨D, hD, hden⟩ := denAt_real x kt wq i hs
  unfold mixAt
  rw [hden]
  exact div_sum_mul _ _ _ hD

end Head

/-! ## The reference read entry by entry -/

/-- Each product of the reference is the plain product of a matrix of rows by a matrix of columns. -/
theorem dotN_eq : dotN = DotDims.plain 16384 128 128 := rfl
theorem dotScores_eq : dotScores = DotDims.plain 16384 128 6144 := rfl
theorem dotMix_eq : dotMix = DotDims.plain 16384 6144 128 := rfl

/-- Reducing the key axis of an N × M array leaves one entry per row. -/
theorem reduces_NxM_N : SNxM.Reduces [1] SN := by decide

/-- Row i with the key coordinate j put back is the entry (i, j). -/
theorem lift_NxM (i : Fin 16384) (j : Fin 6144) : reduces_NxM_N.lift (ix1 i) j = ix2 i j := by
  funext a; apply Fin.ext
  match a with
  | ⟨0, _⟩ => rfl
  | ⟨1, _⟩ => rfl

/-- The scores are the queries against the transposed keys. -/
theorem scores_apply (x : SNxD.Idx → EReal) (wq : SDxD.Idx → EReal) (k : SMxD.Idx → EReal) (i : Fin 16384) (j : Fin 6144) :
    scores (F := Ideal) x wq k (ix2 i j) = scoreAt x (transpose SDxM [1, 0] k tr_MxD_DxM) wq i j := by
  unfold scores scoreAt
  rw [dotScores_eq, dotGeneral_plain_apply]
  refine Finset.sum_congr rfl fun a _ => ?_
  rw [dotN_eq, dotGeneral_plain_apply]
  rfl

/-- A per-row quantity spread along the key axis reads, at (i, j), its value at row i. -/
theorem bcast_row (r : SN.Idx → EReal) (i : Fin 16384) (j : Fin 6144) :
    broadcastInDim SNxM ![0, 1] b_Nx1_NxM (broadcastInDim SNx1 ![0] b_N_Nx1 r) (ix2 i j) = r (ix1 i) := by
  rw [broadcastInDim_apply _ _ _ _ (ix2 i (0 : Fin 1)) (fun a => match a with | ⟨0, _⟩ => rfl | ⟨1, _⟩ => rfl),
    broadcastInDim_apply _ _ _ _ (ix1 i) (fun a => match a with | ⟨0, _⟩ => rfl)]

/-- The row maximum is the supremum of the row's entries (the maximum with -∞ changes nothing). -/
theorem rowMax_apply (s : SNxM.Idx → EReal) (i : Fin 16384) :
    rowMax (F := Ideal) s (ix1 i) = Finset.univ.sup fun j : Fin 6144 => s (ix2 i j) := by
  unfold rowMax
  rw [maximumf_apply, broadcastInDim_scalar_apply, constant_apply,
    Host.reduce_eq_fold_single _ _ _ red_NxM_N reduces_NxM_N]
  have hb : Ideal.ofBits .f32 0xFF800000#32 = ⊥ := by simp [Ideal.ofBits, Ideal.ieee]
  have hf : (s ∘ reduces_NxM_N.lift (ix1 i)) = fun j : Fin 6144 => s (ix2 i j) := funext fun j => congrArg s (lift_NxM i j)
  rw [constant_apply, hb, hf, max_eq_right bot_le]
  rfl

/-- The shifted exponential at (i, j). -/
theorem expShift_apply (s : SNxM.Idx → EReal) (i : Fin 16384) (j : Fin 6144) :
    expShift (F := Ideal) s (ix2 i j) = Ideal.exp (s (ix2 i j) - rowMax (F := Ideal) s (ix1 i)) := by
  unfold expShift
  show Ideal.exp (s (ix2 i j) - broadcastInDim SNxM ![0, 1] b_Nx1_NxM (broadcastInDim SNx1 ![0] b_N_Nx1 (rowMax (F := Ideal) s)) (ix2 i j)) = _
  rw [bcast_row]

/-- A softmax entry is the shifted exponential over the row's sum of them. -/
theorem softmaxRows_apply (s : SNxM.Idx → EReal) (i : Fin 16384) (j : Fin 6144) :
    softmaxRows (F := Ideal) s (ix2 i j)
      = Ideal.div (expShift (F := Ideal) s (ix2 i j)) (∑ j' : Fin 6144, expShift (F := Ideal) s (ix2 i j')) := by
  unfold softmaxRows
  rw [hostDivf_apply, bcast_row, hostReduceAdd_apply, Ideal.hostReduceAdd_single red_NxM_N reduces_NxM_N, constant_apply,
    Ideal.ofBits_zero_f32, zero_add]
  exact congrArg (Ideal.div _) (Finset.sum_congr rfl fun k _ => congrArg (expShift (F := Ideal) s) (lift_NxM i k))

/-- The reference at (i, d): the normalised weights against the values, then against wt. -/
theorem attnRef_apply (x : SNxD.Idx → EReal) (wq wt : SDxD.Idx → EReal) (k v : SMxD.Idx → EReal) (i : Fin 16384) (d : Fin 128) :
    attnRef (F := Ideal) x wq k v wt (ix2 i d)
      = ∑ e : Fin 128, (∑ j : Fin 6144, softmaxRows (F := Ideal) (scores (F := Ideal) x wq k) (ix2 i j) * v (ix2 j e)) * wt (ix2 e d) := by
  unfold attnRef
  rw [dotN_eq, dotGeneral_plain_apply]
  refine Finset.sum_congr rfl fun e _ => ?_
  rw [dotMix_eq, dotGeneral_plain_apply]

/-! ## The two heads agree -/

section Agree

variable (x : SNxD.Idx → EReal) (wq wt : SDxD.Idx → EReal) (k v : SMxD.Idx → EReal)

/-- The reference's row maximum of the scores is the head's row supremum. -/
theorem rowMax_scores (i : Fin 16384) :
    rowMax (F := Ideal) (scores (F := Ideal) x wq k) (ix1 i) = rowSup x (transpose SDxM [1, 0] k tr_MxD_DxM) wq i := by
  rw [rowMax_apply]
  unfold rowSup
  exact congrArg (Finset.sup Finset.univ) (funext fun j => scores_apply x wq k i j)

/-- The reference's shifted exponential of the scores is the head's weight. -/
theorem expShift_scores (i : Fin 16384) (j : Fin 6144) :
    expShift (F := Ideal) (scores (F := Ideal) x wq k) (ix2 i j) = weightAt x (transpose SDxM [1, 0] k tr_MxD_DxM) wq i j := by
  rw [expShift_apply, scores_apply, rowMax_scores]
  rfl

/-- The reference's softmax entry is the head's weight over the head's row sum. -/
theorem softmaxRows_scores (i : Fin 16384) (j : Fin 6144) :
    softmaxRows (F := Ideal) (scores (F := Ideal) x wq k) (ix2 i j)
      = Ideal.div (weightAt x (transpose SDxM [1, 0] k tr_MxD_DxM) wq i j) (denAt x (transpose SDxM [1, 0] k tr_MxD_DxM) wq i) := by
  rw [softmaxRows_apply, expShift_scores]
  unfold denAt
  exact congrArg (Ideal.div _) (Finset.sum_congr rfl fun j' _ => expShift_scores x wq k i j')

/-- The transposed keys are real when the keys are. -/
theorem transpose_real (hk : AllReal k) : AllReal (transpose SDxM [1, 0] k tr_MxD_DxM) := by
  intro y
  obtain ⟨a, j, rfl⟩ : ∃ (a : Fin 128) (j : Fin 6144), y = ix2 a j := ⟨y 0, y 1, eq_ix2 y⟩
  rw [transpose_ix2_apply]
  exact hk _

end Agree

/-- Dividing after the weighted sum agrees with normalising the weights first, on real points, query projection and keys. -/
theorem headK_eq_attnRef (x : SNxD.Idx → EReal) (wq wt : SDxD.Idx → EReal) (k v : SMxD.Idx → EReal)
    (hx : AllReal x) (hwq : AllReal wq) (hk : AllReal k) :
    headK x (transpose SDxM [1, 0] k tr_MxD_DxM) v wq wt = attnRef (F := Ideal) x wq k v wt := by
  funext y
  obtain ⟨i, d, rfl⟩ : ∃ (i : Fin 16384) (d : Fin 128), y = ix2 i d := ⟨y 0, y 1, eq_ix2 y⟩
  rw [attnRef_apply]
  show ∑ e : Fin 128, mixAt x (transpose SDxM [1, 0] k tr_MxD_DxM) v wq i e * wt (ix2 e d) = _
  refine Finset.sum_congr rfl fun e _ => ?_
  rw [mixAt_eq x _ v wq i e fun j => scoreAt_real x _ wq hx hwq (transpose_real k hk) i j]
  exact congrArg (· * wt (ix2 e d)) (Finset.sum_congr rfl fun j _ => by rw [softmaxRows_scores])

end AttnLayer

end
-- ==== Proof.RealChain.lean ====
/-
  Every array of the shared chain before the attention head has only real entries (no infinity) as soon as its
  argument arrays do.

  Operation by operation: a contraction is a finite sum of products of reals; a gather re-reads entries of a real
  array, whatever the indices; a broadcast re-reads entries; sums, differences and products of reals are real; the
  add-reduction is the initial value plus a finite sum; division by the real constant 6144 is multiplication by its
  reciprocal; the variance is a finite sum of squares over 6144, a real number ≥ 0; adding the positive constant eps
  gives a positive real, whose reciprocal square root is a real number.
-/
import proofs.«421826_j62139586839041_3_alg».proof.Proof.Head
import Idealize.ShloMosaic.PureOps.Ideal.Laws
import Mathlib.Data.EReal.Basic
import Mathlib.Data.EReal.Operations
import Mathlib.Algebra.BigOperators.Group.Finset.Basic

noncomputable section

namespace AttnLayer

open Idealize.ShloMosaic

/-! ## Real numbers inside the extended reals -/

/-- The extended real is a real number. -/
def IsReal (a : EReal) : Prop := ∃ r : ℝ, a = (r : EReal)

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem isReal_zero : IsReal (0 : EReal) := ⟨0, rfl⟩

/-- A finite sum of real numbers is a real number. -/
theorem IsReal.sum {ι : Type} (s : Finset ι) (f : ι → EReal) (h : ∀ k ∈ s, IsReal (f k)) : IsReal (∑ k ∈ s, f k) := by
  classical
  induction s using Finset.induction_on with
  | empty => simpa using isReal_zero
  | insert a s ha ih =>
    rw [Finset.sum_insert ha]
    exact (h a (Finset.mem_insert_self a s)).add (ih fun k hk => h k (Finset.mem_insert_of_mem hk))

/-- The extended real is a real number ≥ 0. -/
def IsNonnegReal (a : EReal) : Prop := ∃ r : ℝ, 0 ≤ r ∧ a = (r : EReal)

/-- The extended real is a real number > 0. -/
def IsPosReal (a : EReal) : Prop := ∃ r : ℝ, 0 < r ∧ a = (r : EReal)

theorem IsNonnegReal.isReal {a : EReal} (h : IsNonnegReal a) : IsReal a := by
  obtain ⟨r, _, rfl⟩ := h; exact ⟨r, rfl⟩

theorem IsPosReal.isReal {a : EReal} (h : IsPosReal a) : IsReal a := by
  obtain ⟨r, _, rfl⟩ := h; exact ⟨r, rfl⟩

theorem IsNonnegReal.add {a b : EReal} (ha : IsNonnegReal a) (hb : IsNonnegReal b) : IsNonnegReal (a + b) := by
  obtain ⟨r, hr, rfl⟩ := ha; obtain ⟨s, hs, rfl⟩ := hb
  exact ⟨r + s, add_nonneg hr hs, (EReal.coe_add r s).symm⟩

theorem IsNonnegReal.add_pos {a b : EReal} (ha : IsNonnegReal a) (hb : IsPosReal b) : IsPosReal (a + b) := by
  obtain ⟨r, hr, rfl⟩ := ha; obtain ⟨s, hs, rfl⟩ := hb
  exact ⟨r + s, add_pos_of_nonneg_of_pos hr hs, (EReal.coe_add r s).symm⟩

theorem isNonnegReal_zero : IsNonnegReal (0 : EReal) := ⟨0, le_refl 0, rfl⟩

/-- The square of a real number is a real number ≥ 0. -/
theorem IsReal.mul_self {a : EReal} (ha : IsReal a) : IsNonnegReal (a * a) := by
  obtain ⟨r, rfl⟩ := ha; exact ⟨r * r, mul_self_nonneg r, (EReal.coe_mul r r).symm⟩

/-- A finite sum of real numbers ≥ 0 is a real number ≥ 0. -/
theorem IsNonnegReal.sum {ι : Type} (s : Finset ι) (f : ι → EReal) (h : ∀ k ∈ s, IsNonnegReal (f k)) :
    IsNonnegReal (∑ k ∈ s, f k) := by
  classical
  induction s using Finset.induction_on with
  | empty => simpa using isNonnegReal_zero
  | insert a s ha ih =>
    rw [Finset.sum_insert ha]
    exact (h a (Finset.mem_insert_self a s)).add (ih fun k hk => h k (Finset.mem_insert_of_mem hk))

/-- Dividing a real number by a nonzero real number gives a real number. -/
theorem IsReal.div_coe {a : EReal} (ha : IsReal a) {c : ℝ} (hc : c ≠ 0) : IsReal (Ideal.div a (c : EReal)) := by
  rw [Ideal.div_coe hc]; exact ha.mul ⟨1 / c, rfl⟩

/-- Dividing a real number ≥ 0 by a positive real number gives a real number ≥ 0. -/
theorem IsNonnegReal.div_coe {a : EReal} (ha : IsNonnegReal a) {c : ℝ} (hc : 0 < c) :
    IsNonnegReal (Ideal.div a (c : EReal)) := by
  rw [Ideal.div_coe (ne_of_gt hc)]
  obtain ⟨r, hr, rfl⟩ := ha
  exact ⟨r * (1 / c), mul_nonneg hr (le_of_lt (one_div_pos.mpr hc)), (EReal.coe_mul r (1 / c)).symm⟩

/-- The reciprocal square root of a positive real number is a real number. -/
theorem IsPosReal.rsqrt {a : EReal} (ha : IsPosReal a) : IsReal (Ideal.rsqrt a) := by
  obtain ⟨r, hr, rfl⟩ := ha
  rw [Ideal.rsqrt_coe, if_neg (not_lt.mpr (le_of_lt hr)), if_neg (ne_of_gt hr)]
  exact ⟨(Real.sqrt r)⁻¹, rfl⟩

/-! ## The constants -/

/-- The pattern 0x45C00000 denotes 6144. -/
theorem ofBits_6144 : Ideal.ofBits .f32 0x45C00000#32 = ((6144 : ℝ) : EReal) := by
  simp [Ideal.ofBits, Ideal.ieee, -EReal.coe_mul]; norm_num

/-- The pattern 0x3727C5AC (eps) denotes a positive real number. -/
theorem ofBits_eps_pos : IsPosReal (Ideal.ofBits .f32 0x3727C5AC#32) := by
  unfold IsPosReal
  simp [Ideal.ofBits, Ideal.ieee, -EReal.coe_mul]

/-! ## One lemma per operation -/

section Ops

variable {S : Shape}

theorem allReal_dotGeneral {sl sr so : Shape} (d : DotDims sl sr so) {lhs : sl.Idx → EReal} {rhs : sr.Idx → EReal}
    (hl : AllReal lhs) (hr : AllReal rhs) :
    AllReal (Host.dotGeneral (F := Ideal) (φ₁ := .f32) (φ₂ := .f32) d none lhs rhs) := by
  intro j
  show IsReal _
  rw [Host.dotGeneral, Ideal.dotGeneral_apply]
  exact IsReal.sum _ _ fun k _ => IsReal.mul (hl _) (hr _)

theorem allReal_gather {s si t : Shape} {w : Nat} (d : GatherDims s si t) {x : s.Idx → EReal} (idx : IVec si w)
    (hx : AllReal x) : AllReal (Host.gather d x idx) := fun j => hx _

theorem allReal_broadcastInDim {s : Shape} (t : Shape) (dims : Fin s.rank → Fin t.rank) (h : s.BroadcastsInDim t dims)
    {x : s.Idx → EReal} (hx : AllReal x) : AllReal (broadcastInDim t dims h x) := fun j => hx _

theorem allReal_addf {x y : S.Idx → EReal} (hx : AllReal x) (hy : AllReal y) :
    AllReal (addf (F := Ideal) (φ := .f32) x y) := fun i => IsReal.add (hx i) (hy i)

theorem allReal_subf {x y : S.Idx → EReal} (hx : AllReal x) (hy : AllReal y) :
    AllReal (subf (F := Ideal) (φ := .f32) x y) := fun i => IsReal.sub (hx i) (hy i)

theorem allReal_mulf {x y : S.Idx → EReal} (hx : AllReal x) (hy : AllReal y) :
    AllReal (mulf (F := Ideal) (φ := .f32) x y) := fun i => IsReal.mul (hx i) (hy i)

end Ops

/-! ## Batch normalisation over the M rows -/

theorem allReal_constant_zero (S : Shape) : AllReal (constant (F := Ideal) S .f32 0x00000000#32) := fun _ =>
  ⟨0, Ideal.ofBits_zero_f32⟩

theorem allReal_hostReduceAdd {s t u : Shape} {axes : List (Fin s.rank)} {x : s.Idx → EReal} {init : u.Idx → EReal}
    (h : s.ReducesTo axes t) (hu : 0 < u.numel) (hx : AllReal x) (hi : AllReal init) :
    AllReal (Host.reduceAdd (F := Ideal) (φ := .f32) x init h hu) := by
  intro j
  show IsReal (Ideal.hostReduceAdd h x (init _) j)
  unfold Ideal.hostReduceAdd
  exact IsReal.add (hi _) (IsReal.sum _ _ fun k _ => hx k)

/-- The add-reduction of an array of reals ≥ 0 from 0 has real entries ≥ 0. -/
theorem nonneg_hostReduceAdd_zero {s t : Shape} {axes : List (Fin s.rank)} {x : s.Idx → EReal}
    (h : s.ReducesTo axes t) (hx : ∀ i, IsNonnegReal (x i)) (j : t.Idx) :
    IsNonnegReal (Host.reduceAdd (F := Ideal) (φ := .f32) x (constant S0 .f32 0x00000000#32) h h_S0 j) := by
  show IsNonnegReal (Ideal.hostReduceAdd h x (Ideal.ofBits .f32 0x00000000#32) j)
  unfold Ideal.hostReduceAdd
  rw [Ideal.ofBits_zero_f32]
  exact isNonnegReal_zero.add (IsNonnegReal.sum _ _ fun k _ => hx k)

/-- Entry by entry division by an array whose entries are all one nonzero real constant. -/
theorem allReal_hostDivf_const {x y : S1xD.Idx → EReal} {c : ℝ} (hc : c ≠ 0) (hx : AllReal x)
    (hy : ∀ i, y i = (c : EReal)) : AllReal (Host.divf (F := Ideal) (φ := .f32) x y) := by
  intro i
  show IsReal (Ideal.div (x i) (y i))
  rw [hy i]
  exact IsReal.div_coe (hx i) hc

theorem allReal_meanM {y : SMxD.Idx → EReal} (hy : AllReal y) : AllReal (meanM (F := Ideal) y) := by
  unfold meanM
  refine allReal_hostDivf_const (c := 6144) (by norm_num) ?_ fun i => ofBits_6144
  exact allReal_broadcastInDim _ _ _ (allReal_hostReduceAdd _ _ hy (allReal_constant_zero S0))

/-- The count M - 0 is the real number 6144. -/
theorem cntM_ddof0 (k : S0.Idx) : cntM (F := Ideal) ddof0 k = ((6144 : ℝ) : EReal) := by
  show Ideal.ofBits .f32 0x45C00000#32 - (((0#32 : BitVec 32).toInt : ℝ) : EReal) = _
  rw [ofBits_6144]
  simp

/-- The squared deviations are real numbers ≥ 0. -/
theorem nonneg_sqdevM {y : SMxD.Idx → EReal} (hy : AllReal y) (i : SMxD.Idx) : IsNonnegReal (sqdevM (F := Ideal) y i) := by
  have h := allReal_subf hy (allReal_broadcastInDim SMxD ![0, 1] b_1xD_MxD (allReal_meanM hy))
  exact IsReal.mul_self (h i)

/-- The column variances are real numbers ≥ 0. -/
theorem nonneg_varM {y : SMxD.Idx → EReal} (hy : AllReal y) (i : S1xD.Idx) : IsNonnegReal (varM (F := Ideal) y ddof0 i) := by
  unfold varM select
  have h1 : broadcastInDim S1xD ![] b_0_1xD (cmpf (F := Ideal) .ogt (cntM (F := Ideal) ddof0) (constant S0 .f32 0x00000000#32)) i = 1#1 := by
    show Ideal.cmp .ogt (cntM (F := Ideal) ddof0 _) (Ideal.ofBits .f32 0x00000000#32) = 1#1
    rw [cntM_ddof0, Ideal.ofBits_zero_f32]
    simp [Ideal.cmp]
  rw [h1]
  show IsNonnegReal (Ideal.div _ (cntM (F := Ideal) ddof0 _))
  rw [cntM_ddof0]
  exact IsNonnegReal.div_coe (nonneg_hostReduceAdd_zero _ (nonneg_sqdevM hy) _) (by norm_num)

theorem allReal_bnM {y : SMxD.Idx → EReal} {g b : SD.Idx → EReal} (hy : AllReal y) (hg : AllReal g) (hb : AllReal b) :
    AllReal (bnM (F := Ideal) y g b ddof0) := by
  unfold bnM
  refine allReal_addf (allReal_mulf (allReal_mulf ?_ ?_) ?_) ?_
  · exact allReal_subf hy (allReal_broadcastInDim _ _ _ (allReal_meanM hy))
  · refine allReal_broadcastInDim _ _ _ fun i => ?_
    show IsReal (Ideal.rsqrt (varM (F := Ideal) y ddof0 i + Ideal.ofBits .f32 0x3727C5AC#32))
    exact ((nonneg_varM hy i).add_pos ofBits_eps_pos).rsqrt
  · exact allReal_broadcastInDim _ _ _ (allReal_broadcastInDim _ _ _ hg)
  · exact allReal_broadcastInDim _ _ _ (allReal_broadcastInDim _ _ _ hb)

/-! ## The shared chain -/

theorem allReal_lift {feats : SNx32.Idx → EReal} {W : S32xD.Idx → EReal} (h0 : AllReal feats) (h2 : AllReal W) :
    AllReal (lift (F := Ideal) feats W) :=
  allReal_dotGeneral dotLift h0 h2

theorem allReal_kvFeat {x : SNxD.Idx → EReal} (idx : I (F := Ideal) SM) {Wkv : SDxD.Idx → EReal} {g b : SD.Idx → EReal}
    (hx : AllReal x) (hW : AllReal Wkv) (hg : AllReal g) (hb : AllReal b) :
    AllReal (kvFeat (F := Ideal) x idx Wkv g b) :=
  allReal_bnM (allReal_dotGeneral dotM (allReal_gather gatherRows _ hx) hW) hg hb

theorem allReal_projM {kv : SMxD.Idx → EReal} {W : SDxD.Idx → EReal} (hkv : AllReal kv) (hW : AllReal W) :
    AllReal (projM (F := Ideal) kv W) :=
  allReal_dotGeneral dotM hkv hW

end AttnLayer

end
-- ==== Proof.Layer.lean ====
/-
  The whole layer as one function of its twenty argument arrays: lift the points, form keys and values from the
  gathered and batch-normalised key/value features, apply the attention head with queries x · Wq, and finish with
  the batch-normalised residual, the residual block and the closing batch-normalised relu.
-/
import proofs.«421826_j62139586839041_3_alg».proof.Proof.Spec

noncomputable section

namespace AttnLayer

open Idealize.ShloMosaic

variable {F : FTy → Type} [FloatOps F]

def layerOut (a0 : A (F := F) SNx32) (a1 : I (F := F) SM) (a2 : A (F := F) S32xD) (a3 : A (F := F) SDxD) (a4 a5 : A (F := F) SD)
    (a6 a7 a8 a9 : A (F := F) SDxD) (a10 a11 a12 a13 : A (F := F) SD) (a14 : A (F := F) SDxD) (a15 a16 : A (F := F) SD)
    (a17 : A (F := F) SDxD) (a18 a19 : A (F := F) SD) : A (F := F) SNxD :=
  layerTail (lift a0 a2)
    (attnRef (lift a0 a2) a6 (projM (kvFeat (lift a0 a2) a1 a3 a4 a5) a7) (projM (kvFeat (lift a0 a2) a1 a3 a4 a5) a8) a9)
    a10 a11 a12 a13 a14 a15 a16 a17 a18 a19

end AttnLayer

end
-- ==== Proof.KIRun.lean ====
/-
  The idealized kernel program's run with its result named: under real-valued inputs the result array is the layer
  function of the argument arrays.  The run leaves the region's output array at the head computed tile by tile
  (dividing after the weighted sum); with every score real that is the head with normalised weights; the host
  operations before the region compute the lifted points, keys and values, the ones after it the layer's tail.
-/
import proofs.«421826_j62139586839041_3_alg».proof.Proof.KIFrame
import proofs.«421826_j62139586839041_3_alg».proof.Proof.KIValue
import proofs.«421826_j62139586839041_3_alg».proof.Proof.KIRegion
import proofs.«421826_j62139586839041_3_alg».proof.Proof.HeadLaw
import proofs.«421826_j62139586839041_3_alg».proof.Proof.RealChain
import proofs.«421826_j62139586839041_3_alg».proof.Proof.Layer

set_option maxRecDepth 16384

noncomputable section

namespace Cert.KernelIdeal.Hand

open Cert.KernelIdeal Cert.KernelIdeal.Gen Idealize.ShloMosaic Idealize.ShloMosaic.TcCoe Idealize.SL.Sem AttnLayer

variable (m : (ℓ : Loc nD τ sig) → Buf (Elt Ideal) ℓ) (ρ : Dev nD → PrngReg)

/-- The lifted points, as the region finds them. -/
theorem V_v0 (c : Dev nD) : V m c main_v0 = lift (F := Ideal) (m ((c.tc : Thread nD τ).loc main_arg0)) (m ((c.tc : Thread nD τ).loc main_arg2)) :=
  head_v0 (F := Ideal) (fun b => m (c, b))

/-- The region's five input arrays: the lifted points, the transposed keys, the values and the two projection
    matrices (a change of float format is the identity on extended reals). -/
theorem V_v29 (c : Dev nD) : V m c main_v29 = lift (F := Ideal) (m ((c.tc : Thread nD τ).loc main_arg0)) (m ((c.tc : Thread nD τ).loc main_arg2)) :=
  head_v29 (F := Ideal) (fun b => m (c, b))

theorem V_v31 (c : Dev nD) : V m c main_v31 = transpose SDxM [1, 0]
    (projM (F := Ideal) (kvFeat (lift (m ((c.tc : Thread nD τ).loc main_arg0)) (m ((c.tc : Thread nD τ).loc main_arg2))) (m ((c.tc : Thread nD τ).loc main_arg1)) (m ((c.tc : Thread nD τ).loc main_arg3)) (m ((c.tc : Thread nD τ).loc main_arg4)) (m ((c.tc : Thread nD τ).loc main_arg5))) (m ((c.tc : Thread nD τ).loc main_arg7))) tr_MxD_DxM :=
  head_v31 (F := Ideal) (fun b => m (c, b))

theorem V_v32 (c : Dev nD) : V m c main_v32 =
    projM (F := Ideal) (kvFeat (lift (m ((c.tc : Thread nD τ).loc main_arg0)) (m ((c.tc : Thread nD τ).loc main_arg2))) (m ((c.tc : Thread nD τ).loc main_arg1)) (m ((c.tc : Thread nD τ).loc main_arg3)) (m ((c.tc : Thread nD τ).loc main_arg4)) (m ((c.tc : Thread nD τ).loc main_arg5))) (m ((c.tc : Thread nD τ).loc main_arg8)) :=
  head_v32 (F := Ideal) (fun b => m (c, b))

theorem V_v33 (c : Dev nD) : V m c main_v33 = m ((c.tc : Thread nD τ).loc main_arg6) := head_v33 (F := Ideal) (fun b => m (c, b))
theorem V_v34 (c : Dev nD) : V m c main_v34 = m ((c.tc : Thread nD τ).loc main_arg9) := head_v34 (F := Ideal) (fun b => m (c, b))

/-- The region's output array is the attention head with normalised weights, when the points, the query matrix
    and the keys are real-valued. -/
theorem region_ref (c : Dev nD)
    (h0 : AllReal (m ((c.tc : Thread nD τ).loc main_arg0))) (h2 : AllReal (m ((c.tc : Thread nD τ).loc main_arg2))) (h3 : AllReal (m ((c.tc : Thread nD τ).loc main_arg3)))
    (h4 : AllReal (m ((c.tc : Thread nD τ).loc main_arg4))) (h5 : AllReal (m ((c.tc : Thread nD τ).loc main_arg5))) (h6 : AllReal (m ((c.tc : Thread nD τ).loc main_arg6)))
    (h7 : AllReal (m ((c.tc : Thread nD τ).loc main_arg7))) :
    (dats (F := Ideal) m 0 c).arrAt 5 cfg0.N =
      attnRef (F := Ideal) (lift (m ((c.tc : Thread nD τ).loc main_arg0)) (m ((c.tc : Thread nD τ).loc main_arg2))) (m ((c.tc : Thread nD τ).loc main_arg6))
        (projM (kvFeat (lift (m ((c.tc : Thread nD τ).loc main_arg0)) (m ((c.tc : Thread nD τ).loc main_arg2))) (m ((c.tc : Thread nD τ).loc main_arg1)) (m ((c.tc : Thread nD τ).loc main_arg3)) (m ((c.tc : Thread nD τ).loc main_arg4)) (m ((c.tc : Thread nD τ).loc main_arg5))) (m ((c.tc : Thread nD τ).loc main_arg7)))
        (projM (kvFeat (lift (m ((c.tc : Thread nD τ).loc main_arg0)) (m ((c.tc : Thread nD τ).loc main_arg2))) (m ((c.tc : Thread nD τ).loc main_arg1)) (m ((c.tc : Thread nD τ).loc main_arg3)) (m ((c.tc : Thread nD τ).loc main_arg4)) (m ((c.tc : Thread nD τ).loc main_arg5))) (m ((c.tc : Thread nD τ).loc main_arg8)))
        (m ((c.tc : Thread nD τ).loc main_arg9)) := by
  rw [region_out, V_v29, V_v31, V_v32, V_v33, V_v34]
  exact headK_eq_attnRef _ _ _ _ _ (allReal_lift h0 h2) h6
    (allReal_projM (allReal_kvFeat _ (allReal_lift h0 h2) h3 h4 h5) h7)

/-- The run, with the result named and the arguments kept. -/
theorem value_run
    (hreal : ∀ c : Dev nD, AllReal (m ((c.tc : Thread nD τ).loc main_arg0)) ∧ AllReal (m ((c.tc : Thread nD τ).loc main_arg2)) ∧ AllReal (m ((c.tc : Thread nD τ).loc main_arg3))
      ∧ AllReal (m ((c.tc : Thread nD τ).loc main_arg4)) ∧ AllReal (m ((c.tc : Thread nD τ).loc main_arg5)) ∧ AllReal (m ((c.tc : Thread nD τ).loc main_arg6)) ∧ AllReal (m ((c.tc : Thread nD τ).loc main_arg7))) :
    θ_run defs (onTc (τ := τ) (main (F := Ideal))) ⟨m, fun _ => 0, ρ⟩ (fun r => ∀ c : Dev nD,
      r.2.mem ((c.tc : Thread nD τ).loc main_v114) = layerOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) := by
  refine (θ_run defs _ _).mono (fun r h c => ⟨?_, ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c),
    ((h c).2 main_arg15 (Pipeline.mem_restRefs_of main_arg15 (by decide) (by decide))).trans (W_main_arg15 m (dats m) c),
    ((h c).2 main_arg16 (Pipeline.mem_restRefs_of main_arg16 (by decide) (by decide))).trans (W_main_arg16 m (dats m) c),
    ((h c).2 main_arg17 (Pipeline.mem_restRefs_of main_arg17 (by decide) (by decide))).trans (W_main_arg17 m (dats m) c),
    ((h c).2 main_arg18 (Pipeline.mem_restRefs_of main_arg18 (by decide) (by decide))).trans (W_main_arg18 m (dats m) c),
    ((h c).2 main_arg19 (Pipeline.mem_restRefs_of main_arg19 (by decide) (by decide))).trans (W_main_arg19 m (dats m) c)⟩) (run_main (F := Ideal) m ρ)
  obtain ⟨h0, h2, h3, h4, h5, h6, h7⟩ := hreal c
  rw [(h c).2 main_v114 (Pipeline.mem_restRefs_of main_v114 (by decide) (by decide))]
  unfold Pipeline.afterTail₀
  rw [tail_value]
  rw [Pipeline.withArrays_arr spec0 launch0.win.arr_inj c (V0 m c) _ 5,
    Pipeline.withArrays_of_ne _ c (V0 m c) _ main_v0 (by exact (by decide : ∀ w, Pipeline.arrRef spec0 w ≠ main_v0)),
    Pipeline.withArrays_of_ne _ c (V0 m c) _ main_arg10 (by exact (by decide : ∀ w, Pipeline.arrRef spec0 w ≠ main_arg10)),
    Pipeline.withArrays_of_ne _ c (V0 m c) _ main_arg11 (by exact (by decide : ∀ w, Pipeline.arrRef spec0 w ≠ main_arg11)),
    Pipeline.withArrays_of_ne _ c (V0 m c) _ main_arg12 (by exact (by decide : ∀ w, Pipeline.arrRef spec0 w ≠ main_arg12)),
    Pipeline.withArrays_of_ne _ c (V0 m c) _ main_arg13 (by exact (by decide : ∀ w, Pipeline.arrRef spec0 w ≠ main_arg13)),
    Pipeline.withArrays_of_ne _ c (V0 m c) _ main_arg14 (by exact (by decide : ∀ w, Pipeline.arrRef spec0 w ≠ main_arg14)),
    Pipeline.withArrays_of_ne _ c (V0 m c) _ main_arg15 (by exact (by decide : ∀ w, Pipeline.arrRef spec0 w ≠ main_arg15)),
    Pipeline.withArrays_of_ne _ c (V0 m c) _ main_arg16 (by exact (by decide : ∀ w, Pipeline.arrRef spec0 w ≠ main_arg16)),
    Pipeline.withArrays_of_ne _ c (V0 m c) _ main_arg17 (by exact (by decide : ∀ w, Pipeline.arrRef spec0 w ≠ main_arg17)),
    Pipeline.withArrays_of_ne _ c (V0 m c) _ main_arg18 (by exact (by decide : ∀ w, Pipeline.arrRef spec0 w ≠ main_arg18)),
    Pipeline.withArrays_of_ne _ c (V0 m c) _ main_arg19 (by exact (by decide : ∀ w, Pipeline.arrRef spec0 w ≠ main_arg19))]
  rw [region_ref m c h0 h2 h3 h4 h5 h6 h7]
  show layerTail (V m c main_v0) _ (V m c main_arg10) (V m c main_arg11) (V m c main_arg12) (V m c main_arg13) (V m c main_arg14)
    (V m c main_arg15) (V m c main_arg16) (V m c main_arg17) (V m c main_arg18) (V m c main_arg19) = _
  rw [V_v0, V_main_arg10, V_main_arg11, V_main_arg12, V_main_arg13, V_main_arg14, V_main_arg15, V_main_arg16, V_main_arg17, V_main_arg18, V_main_arg19]
  rfl

end Cert.KernelIdeal.Hand

end
-- ==== Proof.RefOps.lean ====
/- The reference program's @main as a straight line of host operations: every statement's operation in order,
   each call of a module-local function replaced by the callee's operations over that call's buffers (the callee's
   parameters at the call's operands, its values at the record's buffers, a nested call likewise). The line is cut
   where the attention head ends: `opsHead` computes %0 … %44, `opsTail` the rest up to the result %123. Each is an
   append of shorter lists cut at the calls. -/
import proofs.«421826_j62139586839041_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- 19 consecutive operations of @main itself (window 0), in order. -/
abbrev opsSeg0 : List (HloOp τ sig (Elt F)) :=
  [ StableHlo.binary main_arg0 main_arg2 main_v0 ((fun l r => Host.dotGeneral dot_S16384x32_S32x128_S16384x128_1_0_0_1_n_n none l r) : (⟨S16384x32, .f32⟩ : BufTy).Contents (Elt F) → (⟨S32x128, .f32⟩ : BufTy).Contents (Elt F) → (⟨S16384x128, .f32⟩ : BufTy).Contents (Elt F)),
    StableHlo.binary main_v0 main_arg6 main_v1 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    StableHlo.nullary main_c (constantI S_ 32 0#32),
    StableHlo.unary main_c main_v2 (broadcastInDim S6144 ![] bcast_S_S6144 : (⟨S_, .i32⟩ : BufTy).Contents (Elt F) → (⟨S6144, .i32⟩ : BufTy).Contents (Elt F)),
    StableHlo.binary main_arg1 main_v2 main_v3 (cmpi .slt : (⟨S6144, .i32⟩ : BufTy).Contents (Elt F) → (⟨S6144, .i32⟩ : BufTy).Contents (Elt F) → (⟨S6144, .i1⟩ : BufTy).Contents (Elt F)),
    StableHlo.nullary main_c_0 (constantI S_ 32 16384#32),
    StableHlo.unary main_c_0 main_v4 (broadcastInDim S6144 ![] bcast_S_S6144 : (⟨S_, .i32⟩ : BufTy).Contents (Elt F) → (⟨S6144, .i32⟩ : BufTy).Contents (Elt F)),
    StableHlo.binary main_arg1 main_v4 main_v5 (addi : (⟨S6144, .i32⟩ : BufTy).Contents (Elt F) → (⟨S6144, .i32⟩ : BufTy).Contents (Elt F) → (⟨S6144, .i32⟩ : BufTy).Contents (Elt F)),
    StableHlo.ternary main_v3 main_v5 main_arg1 main_v6 (select : (⟨S6144, .i1⟩ : BufTy).Contents (Elt F) → (⟨S6144, .i32⟩ : BufTy).Contents (Elt F) → (⟨S6144, .i32⟩ : BufTy).Contents (Elt F) → (⟨S6144, .i32⟩ : BufTy).Contents (Elt F)),
    StableHlo.unary main_v6 main_v7 (broadcastInDim S6144x1 ![0] bcast_S6144_S6144x1_0 : (⟨S6144, .i32⟩ : BufTy).Contents (Elt F) → (⟨S6144x1, .i32⟩ : BufTy).Contents (Elt F)),
    StableHlo.binary main_v0 main_v7 main_v8 ((fun x i => Host.gather gather_S16384x128_S6144x1_S6144x128_1_0_n_n_0_1_1128 x i) : (⟨S16384x128, .f32⟩ : BufTy).Contents (Elt F) → (⟨S6144x1, .i32⟩ : BufTy).Contents (Elt F) → (⟨S6144x128, .f32⟩ : BufTy).Contents (Elt F)),
    StableHlo.binary main_v8 main_arg3 main_v9 ((fun l r => Host.dotGeneral dot_S6144x128_S128x128_S6144x128_1_0_0_1_n_n none l r) : (⟨S6144x128, .f32⟩ : BufTy).Contents (Elt F) → (⟨S128x128, .f32⟩ : BufTy).Contents (Elt F) → (⟨S6144x128, .f32⟩ : BufTy).Contents (Elt F)),
    StableHlo.nullary main_cst (constant S_ .f32 0x00000000#32),
    StableHlo.binary main_v9 main_cst main_v10 ((fun x v => Host.reduceAdd x v reducesTo_S6144x128_S128_d0 h_S_) : (⟨S6144x128, .f32⟩ : BufTy).Contents (Elt F) → (⟨S_, .f32⟩ : BufTy).Contents (Elt F) → (⟨S128, .f32⟩ : BufTy).Contents (Elt F)),
    StableHlo.unary main_v10 main_v11 (broadcastInDim S1x128 ![1] bcast_S128_S1x128_1 : (⟨S128, .f32⟩ : BufTy).Contents (Elt F) → (⟨S1x128, .f32⟩ : BufTy).Contents (Elt F)),
    StableHlo.nullary main_cst_1 (constant S_ .f32 0x45C00000#32),
    StableHlo.unary main_cst_1 main_v12 (broadcastInDim S1x128 ![] bcast_S_S1x128 : (⟨S_, .f32⟩ : BufTy).Contents (Elt F) → (⟨S1x128, .f32⟩ : BufTy).Contents (Elt F)),
    StableHlo.binary main_v11 main_v12 main_v13 (Host.divf : (⟨S1x128, .f32⟩ : BufTy).Contents (Elt F) → (⟨S1x128, .f32⟩ : BufTy).Contents (Elt F) → (⟨S1x128, .f32⟩ : BufTy).Contents (Elt F)),
    StableHlo.nullary main_c_2 (constantI S_ 32 0#32) ]
/-- Each touches TensorCore references only. -/
theorem opsSeg0_sub : (opsSeg0 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., nullary_bufs_sub .., unary_bufs_sub .., binary_bufs_sub .., nullary_bufs_sub ..⟩

/-- The 23 operations of @main's call 0, the callee's body over that call's buffers, in order. -/
abbrev opsCall0 : List (HloOp τ sig (Elt F)) :=
  [ StableHlo.TRef.nullary (.of main_call0_cst : StableHlo.TRef sig ⟨S_, .f32⟩) (constant S_ .f32 0x00000000#32),
    StableHlo.TRef.binary (.of main_v9 : StableHlo.TRef sig ⟨S6144x128, .f32⟩) (.of main_call0_cst : StableHlo.TRef sig ⟨S_, .f32⟩) (.of main_call0_v0 : StableHlo.TRef sig ⟨S128, .f32⟩) (fun x v => Host.reduceAdd x v reducesTo_S6144x128_S128_d0 h_S_),
    StableHlo.TRef.unary (.of main_call0_v0 : StableHlo.TRef sig ⟨S128, .f32⟩) (.of main_call0_v1 : StableHlo.TRef sig ⟨S1x128, .f32⟩) (broadcastInDim S1x128 ![1] bcast_S128_S1x128_1),
    StableHlo.TRef.nullary (.of main_call0_cst_0 : StableHlo.TRef sig ⟨S_, .f32⟩) (constant S_ .f32 0x45C00000#32),
    StableHlo.TRef.unary (.of main_call0_cst_0 : StableHlo.TRef sig ⟨S_, .f32⟩) (.of main_call0_v2 : StableHlo.TRef sig ⟨S1x128, .f32⟩) (broadcastInDim S1x128 ![] bcast_S_S1x128),
    StableHlo.TRef.binary (.of main_call0_v1 : StableHlo.TRef sig ⟨S1x128, .f32⟩) (.of main_call0_v2 : StableHlo.TRef sig ⟨S1x128, .f32⟩) (.of main_call0_v3 : StableHlo.TRef sig ⟨S1x128, .f32⟩) Host.divf,
    StableHlo.TRef.unary (.of main_call0_v3 : StableHlo.TRef sig ⟨S1x128, .f32⟩) (.of main_call0_v4 : StableHlo.TRef sig ⟨S6144x128, .f32⟩) (broadcastInDim S6144x128 ![0, 1] bcast_S1x128_S6144x128_0_1),
    StableHlo.TRef.binary (.of main_v9 : StableHlo.TRef sig ⟨S6144x128, .f32⟩) (.of main_call0_v4 : StableHlo.TRef sig ⟨S6144x128, .f32⟩) (.of main_call0_v5 : StableHlo.TRef sig ⟨S6144x128, .f32⟩) subf,
    StableHlo.TRef.binary (.of main_call0_v5 : StableHlo.TRef sig ⟨S6144x128, .f32⟩) (.of main_call0_v5 : StableHlo.TRef sig ⟨S6144x128, .f32⟩) (.of main_call0_v6 : StableHlo.TRef sig ⟨S6144x128, .f32⟩) mulf,
    StableHlo.TRef.unary (.of main_c_2 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x45C00000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S6144x128, .f32⟩) (.of main_call0_cst_2 : StableHlo.TRef sig ⟨S_, .f32⟩) (.of main_call0_v9 : StableHlo.TRef sig ⟨S128, .f32⟩) (fun x v => Host.reduceAdd x v reducesTo_S6144x128_S128_d0 h_S_),
    StableHlo.TRef.unary (.of main_call0_v9 : StableHlo.TRef sig ⟨S128, .f32⟩) (.of main_call0_v10 : StableHlo.TRef sig ⟨S1x128, .f32⟩) (broadcastInDim S1x128 ![1] bcast_S128_S1x128_1),
    StableHlo.TRef.unary (.of main_call0_v8 : StableHlo.TRef sig ⟨S_, .f32⟩) (.of main_call0_v11 : StableHlo.TRef sig ⟨S1x128, .f32⟩) (broadcastInDim S1x128 ![] bcast_S_S1x128),
    StableHlo.TRef.binary (.of main_call0_v10 : StableHlo.TRef sig ⟨S1x128, .f32⟩) (.of main_call0_v11 : StableHlo.TRef sig ⟨S1x128, .f32⟩) (.of main_call0_v12 : StableHlo.TRef sig ⟨S1x128, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v13 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S1x128, .f32⟩) (broadcastInDim S1x128 ![] bcast_S_S1x128),
    StableHlo.TRef.ternary (.of main_call0_v13 : StableHlo.TRef sig ⟨S_, .i1⟩) (.of main_call0_v12 : StableHlo.TRef sig ⟨S1x128, .f32⟩) (.of main_call0_call0_v1 : StableHlo.TRef sig ⟨S1x128, .f32⟩) (.of main_v14 : StableHlo.TRef sig ⟨S1x128, .f32⟩) (fun p a b => select (broadcastInDim S1x128 ![] bcast_S_S1x128 p) a b) ]
/-- Each touches TensorCore references only. -/
theorem opsCall0_sub : (opsCall0 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩

/-- 34 consecutive operations of @main itself (window 0), in order. -/
abbrev opsSeg1 : List (HloOp τ sig (Elt F)) :=
  [ StableHlo.unary main_v13 main_v15 (broadcastInDim S6144x128 ![0, 1] bcast_S1x128_S6144x128_0_1 : (⟨S1x128, .f32⟩ : BufTy).Contents (Elt F) → (⟨S6144x128, .f32⟩ : BufTy).Contents (Elt F)),
    StableHlo.binary main_v9 main_v15 main_v16 (subf : (⟨S6144x128, .f32⟩ : BufTy).Contents (Elt F) → (⟨S6144x128, .f32⟩ : BufTy).Contents (Elt F) → (⟨S6144x128, .f32⟩ : BufTy).Contents (Elt F)),
    StableHlo.nullary main_cst_3 (constant S_ .f32 0x3727C5AC#32),
    StableHlo.unary main_cst_3 main_v17 (broadcastInDim S1x128 ![] bcast_S_S1x128 : (⟨S_, .f32⟩ : BufTy).Contents (Elt F) → (⟨S1x128, .f32⟩ : BufTy).Contents (Elt F)),
    StableHlo.binary main_v14 main_v17 main_v18 (addf : (⟨S1x128, .f32⟩ : BufTy).Contents (Elt F) → (⟨S1x128, .f32⟩ : BufTy).Contents (Elt F) → (⟨S1x128, .f32⟩ : BufTy).Contents (Elt F)),
    StableHlo.unary main_v18 main_v19 (Host.rsqrt : (⟨S1x128, .f32⟩ : BufTy).Contents (Elt F) → (⟨S1x128, .f32⟩ : BufTy).Contents (Elt F)),
    StableHlo.unary main_v19 main_v20 (broadcastInDim S6144x128 ![0, 1] bcast_S1x128_S6144x128_0_1 : (⟨S1x128, .f32⟩ : BufTy).Contents (Elt F) → (⟨S6144x128, .f32⟩ : BufTy).Contents (Elt F)),
    StableHlo.binary main_v16 main_v20 main_v21 (mulf : (⟨S6144x128, .f32⟩ : BufTy).Contents (Elt F) → (⟨S6144x128, .f32⟩ : BufTy).Contents (Elt F) → (⟨S6144x128, .f32⟩ : BufTy).Contents (Elt F)),
    StableHlo.unary main_arg4 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S6144x128 ![0, 1] bcast_S1x128_S6144x128_0_1 : (⟨S1x128, .f32⟩ : BufTy).Contents (Elt F) → (⟨S6144x128, .f32⟩ : BufTy).Contents (Elt F)),
    StableHlo.binary main_v21 main_v23 main_v24 (mulf : (⟨S6144x128, .f32⟩ : BufTy).Contents (Elt F) → (⟨S6144x128, .f32⟩ : BufTy).Contents (Elt F) → (⟨S6144x128, .f32⟩ : BufTy).Contents (Elt F)),
    StableHlo.unary main_arg5 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S6144x128 ![0, 1] bcast_S1x128_S6144x128_0_1 : (⟨S1x128, .f32⟩ : BufTy).Contents (Elt F) → (⟨S6144x128, .f32⟩ : BufTy).Contents (Elt F)),
    StableHlo.binary main_v24 main_v26 main_v27 (addf : (⟨S6144x128, .f32⟩ : BufTy).Contents (Elt F) → (⟨S6144x128, .f32⟩ : BufTy).Contents (Elt F) → (⟨S6144x128, .f32⟩ : BufTy).Contents (Elt F)),
    StableHlo.binary main_v27 main_arg7 main_v28 ((fun l r => Host.dotGeneral dot_S6144x128_S128x128_S6144x128_1_0_0_1_n_n none l r) : (⟨S6144x128, .f32⟩ : BufTy).Contents (Elt F) → (⟨S128x128, .f32⟩ : BufTy).Contents (Elt F) → (⟨S6144x128, .f32⟩ : BufTy).Contents (Elt F)),
    StableHlo.binary main_v27 main_arg8 main_v29 ((fun l r => Host.dotGeneral dot_S6144x128_S128x128_S6144x128_1_0_0_1_n_n none l r) : (⟨S6144x128, .f32⟩ : BufTy).Contents (Elt F) → (⟨S128x128, .f32⟩ : BufTy).Contents (Elt F) → (⟨S6144x128, .f32⟩ : BufTy).Contents (Elt F)),
    StableHlo.unary main_v28 main_v30 ((transpose S128x6144 [1, 0] · transposes_S6144x128_S128x6144_1_0) : (⟨S6144x128, .f32⟩ : BufTy).Contents (Elt F) → (⟨S128x6144, .f32⟩ : BufTy).Contents (Elt F)),
    StableHlo.binary main_v1 main_v30 main_v31 ((fun l r => Host.dotGeneral dot_S16384x128_S128x6144_S16384x6144_1_0_0_1_n_n none l r) : (⟨S16384x128, .f32⟩ : BufTy).Contents (Elt F) → (⟨S128x6144, .f32⟩ : BufTy).Contents (Elt F) → (⟨S16384x6144, .f32⟩ : BufTy).Contents (Elt F)),
    StableHlo.nullary main_cst_4 (constant S_ .f32 0xFF800000#32),
    StableHlo.binary main_v31 main_cst_4 main_v32 ((fun x v => Host.reduce FloatOps.maximumf x v reducesTo_S16384x6144_S16384_d1 h_S_) : (⟨S16384x6144, .f32⟩ : BufTy).Contents (Elt F) → (⟨S_, .f32⟩ : BufTy).Contents (Elt F) → (⟨S16384, .f32⟩ : BufTy).Contents (Elt F)),
    StableHlo.nullary main_cst_5 (constant S_ .f32 0xFF800000#32),
    StableHlo.unary main_cst_5 main_v33 (broadcastInDim S16384 ![] bcast_S_S16384 : (⟨S_, .f32⟩ : BufTy).Contents (Elt F) → (⟨S16384, .f32⟩ : BufTy).Contents (Elt F)),
    StableHlo.binary main_v33 main_v32 main_v34 (maximumf : (⟨S16384, .f32⟩ : BufTy).Contents (Elt F) → (⟨S16384, .f32⟩ : BufTy).Contents (Elt F) → (⟨S16384, .f32⟩ : BufTy).Contents (Elt F)),
    StableHlo.unary main_v34 main_v35 (broadcastInDim S16384x1 ![0] bcast_S16384_S16384x1_0 : (⟨S16384, .f32⟩ : BufTy).Contents (Elt F) → (⟨S16384x1, .f32⟩ : BufTy).Contents (Elt F)),
    StableHlo.unary main_v35 main_v36 (broadcastInDim S16384x6144 ![0, 1] bcast_S16384x1_S16384x6144_0_1 : (⟨S16384x1, .f32⟩ : BufTy).Contents (Elt F) → (⟨S16384x6144, .f32⟩ : BufTy).Contents (Elt F)),
    StableHlo.binary main_v31 main_v36 main_v37 (subf : (⟨S16384x6144, .f32⟩ : BufTy).Contents (Elt F) → (⟨S16384x6144, .f32⟩ : BufTy).Contents (Elt F) → (⟨S16384x6144, .f32⟩ : BufTy).Contents (Elt F)),
    StableHlo.unary main_v37 main_v38 (Host.exp : (⟨S16384x6144, .f32⟩ : BufTy).Contents (Elt F) → (⟨S16384x6144, .f32⟩ : BufTy).Contents (Elt F)),
    StableHlo.nullary main_cst_6 (constant S_ .f32 0x00000000#32),
    StableHlo.binary main_v38 main_cst_6 main_v39 ((fun x v => Host.reduceAdd x v reducesTo_S16384x6144_S16384_d1 h_S_) : (⟨S16384x6144, .f32⟩ : BufTy).Contents (Elt F) → (⟨S_, .f32⟩ : BufTy).Contents (Elt F) → (⟨S16384, .f32⟩ : BufTy).Contents (Elt F)),
    StableHlo.unary main_v39 main_v40 (broadcastInDim S16384x1 ![0] bcast_S16384_S16384x1_0 : (⟨S16384, .f32⟩ : BufTy).Contents (Elt F) → (⟨S16384x1, .f32⟩ : BufTy).Contents (Elt F)),
    StableHlo.unary main_v40 main_v41 (broadcastInDim S16384x6144 ![0, 1] bcast_S16384x1_S16384x6144_0_1 : (⟨S16384x1, .f32⟩ : BufTy).Contents (Elt F) → (⟨S16384x6144, .f32⟩ : BufTy).Contents (Elt F)),
    StableHlo.binary main_v38 main_v41 main_v42 (Host.divf : (⟨S16384x6144, .f32⟩ : BufTy).Contents (Elt F) → (⟨S16384x6144, .f32⟩ : BufTy).Contents (Elt F) → (⟨S16384x6144, .f32⟩ : BufTy).Contents (Elt F)),
    StableHlo.binary main_v42 main_v29 main_v43 ((fun l r => Host.dotGeneral dot_S16384x6144_S6144x128_S16384x128_1_0_0_1_n_n none l r) : (⟨S16384x6144, .f32⟩ : BufTy).Contents (Elt F) → (⟨S6144x128, .f32⟩ : BufTy).Contents (Elt F) → (⟨S16384x128, .f32⟩ : BufTy).Contents (Elt F)),
    StableHlo.binary main_v43 main_arg9 main_v44 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)) ]
/-- Each touches TensorCore references only. -/
theorem opsSeg1_sub : (opsSeg1 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub ..⟩

/-- 6 consecutive operations of @main itself (window 0), in order. -/
abbrev opsSeg2 : List (HloOp τ sig (Elt F)) :=
  [ StableHlo.nullary main_cst_7 (constant S_ .f32 0x00000000#32),
    StableHlo.binary main_v44 main_cst_7 main_v45 ((fun x v => Host.reduceAdd x v reducesTo_S16384x128_S128_d0 h_S_) : (⟨S16384x128, .f32⟩ : BufTy).Contents (Elt F) → (⟨S_, .f32⟩ : BufTy).Contents (Elt F) → (⟨S128, .f32⟩ : BufTy).Contents (Elt F)),
    StableHlo.unary main_v45 main_v46 (broadcastInDim S1x128 ![1] bcast_S128_S1x128_1 : (⟨S128, .f32⟩ : BufTy).Contents (Elt F) → (⟨S1x128, .f32⟩ : BufTy).Contents (Elt F)),
    StableHlo.nullary main_cst_8 (constant S_ .f32 0x46800000#32),
    StableHlo.unary main_cst_8 main_v47 (broadcastInDim S1x128 ![] bcast_S_S1x128 : (⟨S_, .f32⟩ : BufTy).Contents (Elt F) → (⟨S1x128, .f32⟩ : BufTy).Contents (Elt F)),
    StableHlo.binary main_v46 main_v47 main_v48 (Host.divf : (⟨S1x128, .f32⟩ : BufTy).Contents (Elt F) → (⟨S1x128, .f32⟩ : BufTy).Contents (Elt F) → (⟨S1x128, .f32⟩ : BufTy).Contents (Elt F)) ]
/-- Each touches TensorCore references only. -/
theorem opsSeg2_sub : (opsSeg2 : List (HloOp τ sig (Elt F))).Forall fun op => op.bufs ⊆ tcRefs τ sig :=
  ⟨nullary_bufs_sub .., binary_bufs_sub .., unary_bufs_sub .., nullary_bufs_sub .., unary_bufs_sub .., binary_bufs_sub ..⟩

/-- 1 consecutive operations of @main itself (window 1), in order. -/
abbrev opsSeg3 : List (HloOp τ sig (Elt F)) :=
  [ StableHlo.nullary main_c_9 (constantI S_ 32 0#32) ]
/-- Each touches TensorCore references only. -/
theorem opsSeg3_sub : (opsSeg3 : List (HloOp τ sig (Elt F))).Forall fun op => op.bufs ⊆ tcRefs τ sig :=
  nullary_bufs_sub ..

/-- The 23 operations of @main's call 1, the callee's body over that call's buffers, in order. -/
abbrev opsCall1 : List (HloOp τ sig (Elt F)) :=
  [ StableHlo.TRef.nullary (.of main_call1_cst : StableHlo.TRef sig ⟨S_, .f32⟩) (constant S_ .f32 0x00000000#32),
    StableHlo.TRef.binary (.of main_v44 : StableHlo.TRef sig ⟨S16384x128, .f32⟩) (.of main_call1_cst : StableHlo.TRef sig ⟨S_, .f32⟩) (.of main_call1_v0 : StableHlo.TRef sig ⟨S128, .f32⟩) (fun x v => Host.reduceAdd x v reducesTo_S16384x128_S128_d0 h_S_),
    StableHlo.TRef.unary (.of main_call1_v0 : StableHlo.TRef sig ⟨S128, .f32⟩) (.of main_call1_v1 : StableHlo.TRef sig ⟨S1x128, .f32⟩) (broadcastInDim S1x128 ![1] bcast_S128_S1x128_1),
    StableHlo.TRef.nullary (.of main_call1_cst_0 : StableHlo.TRef sig ⟨S_, .f32⟩) (constant S_ .f32 0x46800000#32),
    StableHlo.TRef.unary (.of main_call1_cst_0 : StableHlo.TRef sig ⟨S_, .f32⟩) (.of main_call1_v2 : StableHlo.TRef sig ⟨S1x128, .f32⟩) (broadcastInDim S1x128 ![] bcast_S_S1x128),
    StableHlo.TRef.binary (.of main_call1_v1 : StableHlo.TRef sig ⟨S1x128, .f32⟩) (.of main_call1_v2 : StableHlo.TRef sig ⟨S1x128, .f32⟩) (.of main_call1_v3 : StableHlo.TRef sig ⟨S1x128, .f32⟩) Host.divf,
    StableHlo.TRef.unary (.of main_call1_v3 : StableHlo.TRef sig ⟨S1x128, .f32⟩) (.of main_call1_v4 : StableHlo.TRef sig ⟨S16384x128, .f32⟩) (broadcastInDim S16384x128 ![0, 1] bcast_S1x128_S16384x128_0_1),
    StableHlo.TRef.binary (.of main_v44 : StableHlo.TRef sig ⟨S16384x128, .f32⟩) (.of main_call1_v4 : StableHlo.TRef sig ⟨S16384x128, .f32⟩) (.of main_call1_v5 : StableHlo.TRef sig ⟨S16384x128, .f32⟩) subf,
    StableHlo.TRef.binary (.of main_call1_v5 : StableHlo.TRef sig ⟨S16384x128, .f32⟩) (.of main_call1_v5 : StableHlo.TRef sig ⟨S16384x128, .f32⟩) (.of main_call1_v6 : StableHlo.TRef sig ⟨S16384x128, .f32⟩) mulf,
    StableHlo.TRef.unary (.of main_c_9 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x46800000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S16384x128, .f32⟩) (.of main_call1_cst_2 : StableHlo.TRef sig ⟨S_, .f32⟩) (.of main_call1_v9 : StableHlo.TRef sig ⟨S128, .f32⟩) (fun x v => Host.reduceAdd x v reducesTo_S16384x128_S128_d0 h_S_),
    StableHlo.TRef.unary (.of main_call1_v9 : StableHlo.TRef sig ⟨S128, .f32⟩) (.of main_call1_v10 : StableHlo.TRef sig ⟨S1x128, .f32⟩) (broadcastInDim S1x128 ![1] bcast_S128_S1x128_1),
    StableHlo.TRef.unary (.of main_call1_v8 : StableHlo.TRef sig ⟨S_, .f32⟩) (.of main_call1_v11 : StableHlo.TRef sig ⟨S1x128, .f32⟩) (broadcastInDim S1x128 ![] bcast_S_S1x128),
    StableHlo.TRef.binary (.of main_call1_v10 : StableHlo.TRef sig ⟨S1x128, .f32⟩) (.of main_call1_v11 : StableHlo.TRef sig ⟨S1x128, .f32⟩) (.of main_call1_v12 : StableHlo.TRef sig ⟨S1x128, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v13 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S1x128, .f32⟩) (broadcastInDim S1x128 ![] bcast_S_S1x128),
    StableHlo.TRef.ternary (.of main_call1_v13 : StableHlo.TRef sig ⟨S_, .i1⟩) (.of main_call1_v12 : StableHlo.TRef sig ⟨S1x128, .f32⟩) (.of main_call1_call0_v1 : StableHlo.TRef sig ⟨S1x128, .f32⟩) (.of main_v49 : StableHlo.TRef sig ⟨S1x128, .f32⟩) (fun p a b => select (broadcastInDim S1x128 ![] bcast_S_S1x128 p) a b) ]
/-- Each touches TensorCore references only. -/
theorem opsCall1_sub : (opsCall1 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩

/-- 22 consecutive operations of @main itself (window 1), in order. -/
abbrev opsSeg4 : List (HloOp τ sig (Elt F)) :=
  [ StableHlo.unary main_v48 main_v50 (broadcastInDim S16384x128 ![0, 1] bcast_S1x128_S16384x128_0_1 : (⟨S1x128, .f32⟩ : BufTy).Contents (Elt F) → (⟨S16384x128, .f32⟩ : BufTy).Contents (Elt F)),
    StableHlo.binary main_v44 main_v50 main_v51 (subf : (⟨S16384x128, .f32⟩ : BufTy).Contents (Elt F) → (⟨S16384x128, .f32⟩ : BufTy).Contents (Elt F) → (⟨S16384x128, .f32⟩ : BufTy).Contents (Elt F)),
    StableHlo.nullary main_cst_10 (constant S_ .f32 0x3727C5AC#32),
    StableHlo.unary main_cst_10 main_v52 (broadcastInDim S1x128 ![] bcast_S_S1x128 : (⟨S_, .f32⟩ : BufTy).Contents (Elt F) → (⟨S1x128, .f32⟩ : BufTy).Contents (Elt F)),
    StableHlo.binary main_v49 main_v52 main_v53 (addf : (⟨S1x128, .f32⟩ : BufTy).Contents (Elt F) → (⟨S1x128, .f32⟩ : BufTy).Contents (Elt F) → (⟨S1x128, .f32⟩ : BufTy).Contents (Elt F)),
    StableHlo.unary main_v53 main_v54 (Host.rsqrt : (⟨S1x128, .f32⟩ : BufTy).Contents (Elt F) → (⟨S1x128, .f32⟩ : BufTy).Contents (Elt F)),
    StableHlo.unary main_v54 main_v55 (broadcastInDim S16384x128 ![0, 1] bcast_S1x128_S16384x128_0_1 : (⟨S1x128, .f32⟩ : BufTy).Contents (Elt F) → (⟨S16384x128, .f32⟩ : BufTy).Contents (Elt F)),
    StableHlo.binary main_v51 main_v55 main_v56 (mulf : (⟨S16384x128, .f32⟩ : BufTy).Contents (Elt F) → (⟨S16384x128, .f32⟩ : BufTy).Contents (Elt F) → (⟨S16384x128, .f32⟩ : BufTy).Contents (Elt F)),
    StableHlo.unary main_arg10 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S16384x128 ![0, 1] bcast_S1x128_S16384x128_0_1 : (⟨S1x128, .f32⟩ : BufTy).Contents (Elt F) → (⟨S16384x128, .f32⟩ : BufTy).Contents (Elt F)),
    StableHlo.binary main_v56 main_v58 main_v59 (mulf : (⟨S16384x128, .f32⟩ : BufTy).Contents (Elt F) → (⟨S16384x128, .f32⟩ : BufTy).Contents (Elt F) → (⟨S16384x128, .f32⟩ : BufTy).Contents (Elt F)),
    StableHlo.unary main_arg11 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S16384x128 ![0, 1] bcast_S1x128_S16384x128_0_1 : (⟨S1x128, .f32⟩ : BufTy).Contents (Elt F) → (⟨S16384x128, .f32⟩ : BufTy).Contents (Elt F)),
    StableHlo.binary main_v59 main_v61 main_v62 (addf : (⟨S16384x128, .f32⟩ : BufTy).Contents (Elt F) → (⟨S16384x128, .f32⟩ : BufTy).Contents (Elt F) → (⟨S16384x128, .f32⟩ : BufTy).Contents (Elt F)),
    StableHlo.binary main_v0 main_v62 main_v63 (addf : (⟨S16384x128, .f32⟩ : BufTy).Contents (Elt F) → (⟨S16384x128, .f32⟩ : BufTy).Contents (Elt F) → (⟨S16384x128, .f32⟩ : BufTy).Contents (Elt F)),
    StableHlo.nullary main_cst_11 (constant S_ .f32 0x00000000#32),
    StableHlo.binary main_v63 main_cst_11 main_v64 ((fun x v => Host.reduceAdd x v reducesTo_S16384x128_S128_d0 h_S_) : (⟨S16384x128, .f32⟩ : BufTy).Contents (Elt F) → (⟨S_, .f32⟩ : BufTy).Contents (Elt F) → (⟨S128, .f32⟩ : BufTy).Contents (Elt F)),
    StableHlo.unary main_v64 main_v65 (broadcastInDim S1x128 ![1] bcast_S128_S1x128_1 : (⟨S128, .f32⟩ : BufTy).Contents (Elt F) → (⟨S1x128, .f32⟩ : BufTy).Contents (Elt F)),
    StableHlo.nullary main_cst_12 (constant S_ .f32 0x46800000#32),
    StableHlo.unary main_cst_12 main_v66 (broadcastInDim S1x128 ![] bcast_S_S1x128 : (⟨S_, .f32⟩ : BufTy).Contents (Elt F) → (⟨S1x128, .f32⟩ : BufTy).Contents (Elt F)),
    StableHlo.binary main_v65 main_v66 main_v67 (Host.divf : (⟨S1x128, .f32⟩ : BufTy).Contents (Elt F) → (⟨S1x128, .f32⟩ : BufTy).Contents (Elt F) → (⟨S1x128, .f32⟩ : BufTy).Contents (Elt F)),
    StableHlo.nullary main_c_13 (constantI S_ 32 0#32) ]
/-- Each touches TensorCore references only. -/
theorem opsSeg4_sub : (opsSeg4 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., nullary_bufs_sub ..⟩

/-- The 23 operations of @main's call 2, the callee's body over that call's buffers, in order. -/
abbrev opsCall2 : List (HloOp τ sig (Elt F)) :=
  [ StableHlo.TRef.nullary (.of main_call2_cst : StableHlo.TRef sig ⟨S_, .f32⟩) (constant S_ .f32 0x00000000#32),
    StableHlo.TRef.binary (.of main_v63 : StableHlo.TRef sig ⟨S16384x128, .f32⟩) (.of main_call2_cst : StableHlo.TRef sig ⟨S_, .f32⟩) (.of main_call2_v0 : StableHlo.TRef sig ⟨S128, .f32⟩) (fun x v => Host.reduceAdd x v reducesTo_S16384x128_S128_d0 h_S_),
    StableHlo.TRef.unary (.of main_call2_v0 : StableHlo.TRef sig ⟨S128, .f32⟩) (.of main_call2_v1 : StableHlo.TRef sig ⟨S1x128, .f32⟩) (broadcastInDim S1x128 ![1] bcast_S128_S1x128_1),
    StableHlo.TRef.nullary (.of main_call2_cst_0 : StableHlo.TRef sig ⟨S_, .f32⟩) (constant S_ .f32 0x46800000#32),
    StableHlo.TRef.unary (.of main_call2_cst_0 : StableHlo.TRef sig ⟨S_, .f32⟩) (.of main_call2_v2 : StableHlo.TRef sig ⟨S1x128, .f32⟩) (broadcastInDim S1x128 ![] bcast_S_S1x128),
    StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf,
    StableHlo.TRef.unary (.of main_call2_v3 : StableHlo.TRef sig ⟨S1x128, .f32⟩) (.of main_call2_v4 : StableHlo.TRef sig ⟨S16384x128, .f32⟩) (broadcastInDim S16384x128 ![0, 1] bcast_S1x128_S16384x128_0_1),
    StableHlo.TRef.binary (.of main_v63 : StableHlo.TRef sig ⟨S16384x128, .f32⟩) (.of main_call2_v4 : StableHlo.TRef sig ⟨S16384x128, .f32⟩) (.of main_call2_v5 : StableHlo.TRef sig ⟨S16384x128, .f32⟩) subf,
    StableHlo.TRef.binary (.of main_call2_v5 : StableHlo.TRef sig ⟨S16384x128, .f32⟩) (.of main_call2_v5 : StableHlo.TRef sig ⟨S16384x128, .f32⟩) (.of main_call2_v6 : StableHlo.TRef sig ⟨S16384x128, .f32⟩) mulf,
    StableHlo.TRef.unary (.of main_c_13 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x46800000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S16384x128, .f32⟩) (.of main_call2_cst_2 : StableHlo.TRef sig ⟨S_, .f32⟩) (.of main_call2_v9 : StableHlo.TRef sig ⟨S128, .f32⟩) (fun x v => Host.reduceAdd x v reducesTo_S16384x128_S128_d0 h_S_),
    StableHlo.TRef.unary (.of main_call2_v9 : StableHlo.TRef sig ⟨S128, .f32⟩) (.of main_call2_v10 : StableHlo.TRef sig ⟨S1x128, .f32⟩) (broadcastInDim S1x128 ![1] bcast_S128_S1x128_1),
    StableHlo.TRef.unary (.of main_call2_v8 : StableHlo.TRef sig ⟨S_, .f32⟩) (.of main_call2_v11 : StableHlo.TRef sig ⟨S1x128, .f32⟩) (broadcastInDim S1x128 ![] bcast_S_S1x128),
    StableHlo.TRef.binary (.of main_call2_v10 : StableHlo.TRef sig ⟨S1x128, .f32⟩) (.of main_call2_v11 : StableHlo.TRef sig ⟨S1x128, .f32⟩) (.of main_call2_v12 : StableHlo.TRef sig ⟨S1x128, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v13 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S1x128, .f32⟩) (broadcastInDim S1x128 ![] bcast_S_S1x128),
    StableHlo.TRef.ternary (.of main_call2_v13 : StableHlo.TRef sig ⟨S_, .i1⟩) (.of main_call2_v12 : StableHlo.TRef sig ⟨S1x128, .f32⟩) (.of main_call2_call0_v1 : StableHlo.TRef sig ⟨S1x128, .f32⟩) (.of main_v68 : StableHlo.TRef sig ⟨S1x128, .f32⟩) (fun p a b => select (broadcastInDim S1x128 ![] bcast_S_S1x128 p) a b) ]
/-- Each touches TensorCore references only. -/
theorem opsCall2_sub : (opsCall2 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩

/-- 14 consecutive operations of @main itself (window 1), in order. -/
abbrev opsSeg5 : List (HloOp τ sig (Elt F)) :=
  [ StableHlo.unary main_v67 main_v69 (broadcastInDim S16384x128 ![0, 1] bcast_S1x128_S16384x128_0_1 : (⟨S1x128, .f32⟩ : BufTy).Contents (Elt F) → (⟨S16384x128, .f32⟩ : BufTy).Contents (Elt F)),
    StableHlo.binary main_v63 main_v69 main_v70 (subf : (⟨S16384x128, .f32⟩ : BufTy).Contents (Elt F) → (⟨S16384x128, .f32⟩ : BufTy).Contents (Elt F) → (⟨S16384x128, .f32⟩ : BufTy).Contents (Elt F)),
    StableHlo.nullary main_cst_14 (constant S_ .f32 0x3727C5AC#32),
    StableHlo.unary main_cst_14 main_v71 (broadcastInDim S1x128 ![] bcast_S_S1x128 : (⟨S_, .f32⟩ : BufTy).Contents (Elt F) → (⟨S1x128, .f32⟩ : BufTy).Contents (Elt F)),
    StableHlo.binary main_v68 main_v71 main_v72 (addf : (⟨S1x128, .f32⟩ : BufTy).Contents (Elt F) → (⟨S1x128, .f32⟩ : BufTy).Contents (Elt F) → (⟨S1x128, .f32⟩ : BufTy).Contents (Elt F)),
    StableHlo.unary main_v72 main_v73 (Host.rsqrt : (⟨S1x128, .f32⟩ : BufTy).Contents (Elt F) → (⟨S1x128, .f32⟩ : BufTy).Contents (Elt F)),
    StableHlo.unary main_v73 main_v74 (broadcastInDim S16384x128 ![0, 1] bcast_S1x128_S16384x128_0_1 : (⟨S1x128, .f32⟩ : BufTy).Contents (Elt F) → (⟨S16384x128, .f32⟩ : BufTy).Contents (Elt F)),
    StableHlo.binary main_v70 main_v74 main_v75 (mulf : (⟨S16384x128, .f32⟩ : BufTy).Contents (Elt F) → (⟨S16384x128, .f32⟩ : BufTy).Contents (Elt F) → (⟨S16384x128, .f32⟩ : BufTy).Contents (Elt F)),
    StableHlo.unary main_arg12 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S16384x128 ![0, 1] bcast_S1x128_S16384x128_0_1 : (⟨S1x128, .f32⟩ : BufTy).Contents (Elt F) → (⟨S16384x128, .f32⟩ : BufTy).Contents (Elt F)),
    StableHlo.binary main_v75 main_v77 main_v78 (mulf : (⟨S16384x128, .f32⟩ : BufTy).Contents (Elt F) → (⟨S16384x128, .f32⟩ : BufTy).Contents (Elt F) → (⟨S16384x128, .f32⟩ : BufTy).Contents (Elt F)),
    StableHlo.unary main_arg13 main_v79 (broadcastInDim S1x128 ![1] bcast_S128_S1x128_1 : (⟨S128, .f32⟩ : BufTy).Contents (Elt F) → (⟨S1x128, .f32⟩ : BufTy).Contents (Elt F)),
    StableHlo.unary main_v79 main_v80 (broadcastInDim S16384x128 ![0, 1] bcast_S1x128_S16384x128_0_1 : (⟨S1x128, .f32⟩ : BufTy).Contents (Elt F) → (⟨S16384x128, .f32⟩ : BufTy).Contents (Elt F)),
    StableHlo.binary main_v78 main_v80 main_v81 (addf : (⟨S16384x128, .f32⟩ : BufTy).Contents (Elt F) → (⟨S16384x128, .f32⟩ : BufTy).Contents (Elt F) → (⟨S16384x128, .f32⟩ : BufTy).Contents (Elt F)) ]
/-- Each touches TensorCore references only. -/
theorem opsSeg5_sub : (opsSeg5 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- The 3 operations of @main's call 3, the callee's body over that call's buffers, in order. -/
abbrev opsCall3 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S16384x128, .f32⟩) (broadcastInDim S16384x128 ![] bcast_S_S16384x128),
    StableHlo.TRef.binary (.of main_v81 : StableHlo.TRef sig ⟨S16384x128, .f32⟩) (.of main_call3_v0 : StableHlo.TRef sig ⟨S16384x128, .f32⟩) (.of main_v82 : StableHlo.TRef sig ⟨S16384x128, .f32⟩) maximumf ]
/-- Each touches TensorCore references only. -/
theorem opsCall3_sub : (opsCall3 : List (HloOp τ sig (Elt F))).Forall fun op => op.bufs ⊆ tcRefs τ sig :=
  ⟨nullary_bufs_sub .., unary_bufs_sub .., binary_bufs_sub ..⟩

/-- 8 consecutive operations of @main itself (window 1), in order. -/
abbrev opsSeg6 : List (HloOp τ sig (Elt F)) :=
  [ StableHlo.binary main_v82 main_arg14 main_v83 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    StableHlo.nullary main_cst_15 (constant S_ .f32 0x00000000#32),
    StableHlo.binary main_v83 main_cst_15 main_v84 ((fun x v => Host.reduceAdd x v reducesTo_S16384x128_S128_d0 h_S_) : (⟨S16384x128, .f32⟩ : BufTy).Contents (Elt F) → (⟨S_, .f32⟩ : BufTy).Contents (Elt F) → (⟨S128, .f32⟩ : BufTy).Contents (Elt F)),
    StableHlo.unary main_v84 main_v85 (broadcastInDim S1x128 ![1] bcast_S128_S1x128_1 : (⟨S128, .f32⟩ : BufTy).Contents (Elt F) → (⟨S1x128, .f32⟩ : BufTy).Contents (Elt F)),
    StableHlo.nullary main_cst_16 (constant S_ .f32 0x46800000#32),
    StableHlo.unary main_cst_16 main_v86 (broadcastInDim S1x128 ![] bcast_S_S1x128 : (⟨S_, .f32⟩ : BufTy).Contents (Elt F) → (⟨S1x128, .f32⟩ : BufTy).Contents (Elt F)),
    StableHlo.binary main_v85 main_v86 main_v87 (Host.divf : (⟨S1x128, .f32⟩ : BufTy).Contents (Elt F) → (⟨S1x128, .f32⟩ : BufTy).Contents (Elt F) → (⟨S1x128, .f32⟩ : BufTy).Contents (Elt F)),
    StableHlo.nullary main_c_17 (constantI S_ 32 0#32) ]
/-- Each touches TensorCore references only. -/
theorem opsSeg6_sub : (opsSeg6 : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub ..⟩

/-- The 23 operations of @main's call 4, the callee's body over that call's buffers, in order. -/
abbrev opsCall4 : List (HloOp τ sig (Elt F)) :=
  [ StableHlo.TRef.nullary (.of main_call4_cst : StableHlo.TRef sig ⟨S_, .f32⟩) (constant S_ .f32 0x00000000#32),
    StableHlo.TRef.binary (.of main_v83 : StableHlo.TRef sig ⟨S16384x128, .f32⟩) (.of main_call4_cst : StableHlo.TRef sig ⟨S_, .f32⟩) (.of main_call4_v0 : StableHlo.TRef sig ⟨S128, .f32⟩) (fun x v => Host.reduceAdd x v reducesTo_S16384x128_S128_d0 h_S_),
    StableHlo.TRef.unary (.of main_call4_v0 : StableHlo.TRef sig ⟨S128, .f32⟩) (.of main_call4_v1 : StableHlo.TRef sig ⟨S1x128, .f32⟩) (broadcastInDim S1x128 ![1] bcast_S128_S1x128_1),
    StableHlo.TRef.nullary (.of main_call4_cst_0 : StableHlo.TRef sig ⟨S_, .f32⟩) (constant S_ .f32 0x46800000#32),
    StableHlo.TRef.unary (.of main_call4_cst_0 : StableHlo.TRef sig ⟨S_, .f32⟩) (.of main_call4_v2 : StableHlo.TRef sig ⟨S1x128, .f32⟩) (broadcastInDim S1x128 ![] bcast_S_S1x128),
    StableHlo.TRef.binary (.of main_call4_v1 : StableHlo.TRef sig ⟨S1x128, .f32⟩) (.of main_call4_v2 : StableHlo.TRef sig ⟨S1x128, .f32⟩) (.of main_call4_v3 : StableHlo.TRef sig ⟨S1x128, .f32⟩) Host.divf,
    StableHlo.TRef.unary (.of main_call4_v3 : StableHlo.TRef sig ⟨S1x128, .f32⟩) (.of main_call4_v4 : StableHlo.TRef sig ⟨S16384x128, .f32⟩) (broadcastInDim S16384x128 ![0, 1] bcast_S1x128_S16384x128_0_1),
    StableHlo.TRef.binary (.of main_v83 : StableHlo.TRef sig ⟨S16384x128, .f32⟩) (.of main_call4_v4 : StableHlo.TRef sig ⟨S16384x128, .f32⟩) (.of main_call4_v5 : StableHlo.TRef sig ⟨S16384x128, .f32⟩) subf,
    StableHlo.TRef.binary (.of main_call4_v5 : StableHlo.TRef sig ⟨S16384x128, .f32⟩) (.of main_call4_v5 : StableHlo.TRef sig ⟨S16384x128, .f32⟩) (.of main_call4_v6 : StableHlo.TRef sig ⟨S16384x128, .f32⟩) mulf,
    StableHlo.TRef.unary (.of main_c_17 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x46800000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S16384x128, .f32⟩) (.of main_call4_cst_2 : StableHlo.TRef sig ⟨S_, .f32⟩) (.of main_call4_v9 : StableHlo.TRef sig ⟨S128, .f32⟩) (fun x v => Host.reduceAdd x v reducesTo_S16384x128_S128_d0 h_S_),
    StableHlo.TRef.unary (.of main_call4_v9 : StableHlo.TRef sig ⟨S128, .f32⟩) (.of main_call4_v10 : StableHlo.TRef sig ⟨S1x128, .f32⟩) (broadcastInDim S1x128 ![1] bcast_S128_S1x128_1),
    StableHlo.TRef.unary (.of main_call4_v8 : StableHlo.TRef sig ⟨S_, .f32⟩) (.of main_call4_v11 : StableHlo.TRef sig ⟨S1x128, .f32⟩) (broadcastInDim S1x128 ![] bcast_S_S1x128),
    StableHlo.TRef.binary (.of main_call4_v10 : StableHlo.TRef sig ⟨S1x128, .f32⟩) (.of main_call4_v11 : StableHlo.TRef sig ⟨S1x128, .f32⟩) (.of main_call4_v12 : StableHlo.TRef sig ⟨S1x128, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v13 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S1x128, .f32⟩) (broadcastInDim S1x128 ![] bcast_S_S1x128),
    StableHlo.TRef.ternary (.of main_call4_v13 : StableHlo.TRef sig ⟨S_, .i1⟩) (.of main_call4_v12 : StableHlo.TRef sig ⟨S1x128, .f32⟩) (.of main_call4_call0_v1 : StableHlo.TRef sig ⟨S1x128, .f32⟩) (.of main_v88 : StableHlo.TRef sig ⟨S1x128, .f32⟩) (fun p a b => select (broadcastInDim S1x128 ![] bcast_S_S1x128 p) a b) ]
/-- Each touches TensorCore references only. -/
theorem opsCall4_sub : (opsCall4 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩

/-- 11 consecutive operations of @main itself (window 1), in order. -/
abbrev opsSeg7 : List (HloOp τ sig (Elt F)) :=
  [ StableHlo.unary main_v87 main_v89 (broadcastInDim S16384x128 ![0, 1] bcast_S1x128_S16384x128_0_1 : (⟨S1x128, .f32⟩ : BufTy).Contents (Elt F) → (⟨S16384x128, .f32⟩ : BufTy).Contents (Elt F)),
    StableHlo.binary main_v83 main_v89 main_v90 (subf : (⟨S16384x128, .f32⟩ : BufTy).Contents (Elt F) → (⟨S16384x128, .f32⟩ : BufTy).Contents (Elt F) → (⟨S16384x128, .f32⟩ : BufTy).Contents (Elt F)),
    StableHlo.nullary main_cst_18 (constant S_ .f32 0x3727C5AC#32),
    StableHlo.unary main_cst_18 main_v91 (broadcastInDim S1x128 ![] bcast_S_S1x128 : (⟨S_, .f32⟩ : BufTy).Contents (Elt F) → (⟨S1x128, .f32⟩ : BufTy).Contents (Elt F)),
    StableHlo.binary main_v88 main_v91 main_v92 (addf : (⟨S1x128, .f32⟩ : BufTy).Contents (Elt F) → (⟨S1x128, .f32⟩ : BufTy).Contents (Elt F) → (⟨S1x128, .f32⟩ : BufTy).Contents (Elt F)),
    StableHlo.unary main_v92 main_v93 (Host.rsqrt : (⟨S1x128, .f32⟩ : BufTy).Contents (Elt F) → (⟨S1x128, .f32⟩ : BufTy).Contents (Elt F)),
    StableHlo.unary main_v93 main_v94 (broadcastInDim S16384x128 ![0, 1] bcast_S1x128_S16384x128_0_1 : (⟨S1x128, .f32⟩ : BufTy).Contents (Elt F) → (⟨S16384x128, .f32⟩ : BufTy).Contents (Elt F)),
    StableHlo.binary main_v90 main_v94 main_v95 (mulf : (⟨S16384x128, .f32⟩ : BufTy).Contents (Elt F) → (⟨S16384x128, .f32⟩ : BufTy).Contents (Elt F) → (⟨S16384x128, .f32⟩ : BufTy).Contents (Elt F)),
    StableHlo.unary main_arg15 main_v96 (broadcastInDim S1x128 ![1] bcast_S128_S1x128_1 : (⟨S128, .f32⟩ : BufTy).Contents (Elt F) → (⟨S1x128, .f32⟩ : BufTy).Contents (Elt F)),
    StableHlo.unary main_v96 main_v97 (broadcastInDim S16384x128 ![0, 1] bcast_S1x128_S16384x128_0_1 : (⟨S1x128, .f32⟩ : BufTy).Contents (Elt F) → (⟨S16384x128, .f32⟩ : BufTy).Contents (Elt F)),
    StableHlo.binary main_v95 main_v97 main_v98 (mulf : (⟨S16384x128, .f32⟩ : BufTy).Contents (Elt F) → (⟨S16384x128, .f32⟩ : BufTy).Contents (Elt F) → (⟨S16384x128, .f32⟩ : BufTy).Contents (Elt F)) ]
/-- Each touches TensorCore references only. -/
theorem opsSeg7_sub : (opsSeg7 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩

/-- 3 consecutive operations of @main itself (window 2), in order. -/
abbrev opsSeg8 : List (HloOp τ sig (Elt F)) :=
  [ StableHlo.unary main_arg16 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S16384x128 ![0, 1] bcast_S1x128_S16384x128_0_1 : (⟨S1x128, .f32⟩ : BufTy).Contents (Elt F) → (⟨S16384x128, .f32⟩ : BufTy).Contents (Elt F)),
    StableHlo.binary main_v98 main_v100 main_v101 (addf : (⟨S16384x128, .f32⟩ : BufTy).Contents (Elt F) → (⟨S16384x128, .f32⟩ : BufTy).Contents (Elt F) → (⟨S16384x128, .f32⟩ : BufTy).Contents (Elt F)) ]
/-- Each touches TensorCore references only. -/
theorem opsSeg8_sub : (opsSeg8 : List (HloOp τ sig (Elt F))).Forall fun op => op.bufs ⊆ tcRefs τ sig :=
  ⟨unary_bufs_sub .., unary_bufs_sub .., binary_bufs_sub ..⟩

/-- The 3 operations of @main's call 5, the callee's body over that call's buffers, in order. -/
abbrev opsCall5 : List (HloOp τ sig (Elt F)) :=
  [ StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S16384x128, .f32⟩) (broadcastInDim S16384x128 ![] bcast_S_S16384x128),
    StableHlo.TRef.binary (.of main_v101 : StableHlo.TRef sig ⟨S16384x128, .f32⟩) (.of main_call5_v0 : StableHlo.TRef sig ⟨S16384x128, .f32⟩) (.of main_v102 : StableHlo.TRef sig ⟨S16384x128, .f32⟩) maximumf ]
/-- Each touches TensorCore references only. -/
theorem opsCall5_sub : (opsCall5 : List (HloOp τ sig (Elt F))).Forall fun op => op.bufs ⊆ tcRefs τ sig :=
  ⟨nullary_bufs_sub .., unary_bufs_sub .., binary_bufs_sub ..⟩

/-- 9 consecutive operations of @main itself (window 2), in order. -/
abbrev opsSeg9 : List (HloOp τ sig (Elt F)) :=
  [ StableHlo.binary main_v102 main_arg17 main_v103 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    StableHlo.binary main_v63 main_v103 main_v104 (addf : (⟨S16384x128, .f32⟩ : BufTy).Contents (Elt F) → (⟨S16384x128, .f32⟩ : BufTy).Contents (Elt F) → (⟨S16384x128, .f32⟩ : BufTy).Contents (Elt F)),
    StableHlo.nullary main_cst_19 (constant S_ .f32 0x00000000#32),
    StableHlo.binary main_v104 main_cst_19 main_v105 ((fun x v => Host.reduceAdd x v reducesTo_S16384x128_S128_d0 h_S_) : (⟨S16384x128, .f32⟩ : BufTy).Contents (Elt F) → (⟨S_, .f32⟩ : BufTy).Contents (Elt F) → (⟨S128, .f32⟩ : BufTy).Contents (Elt F)),
    StableHlo.unary main_v105 main_v106 (broadcastInDim S1x128 ![1] bcast_S128_S1x128_1 : (⟨S128, .f32⟩ : BufTy).Contents (Elt F) → (⟨S1x128, .f32⟩ : BufTy).Contents (Elt F)),
    StableHlo.nullary main_cst_20 (constant S_ .f32 0x46800000#32),
    StableHlo.unary main_cst_20 main_v107 (broadcastInDim S1x128 ![] bcast_S_S1x128 : (⟨S_, .f32⟩ : BufTy).Contents (Elt F) → (⟨S1x128, .f32⟩ : BufTy).Contents (Elt F)),
    StableHlo.binary main_v106 main_v107 main_v108 (Host.divf : (⟨S1x128, .f32⟩ : BufTy).Contents (Elt F) → (⟨S1x128, .f32⟩ : BufTy).Contents (Elt F) → (⟨S1x128, .f32⟩ : BufTy).Contents (Elt F)),
    StableHlo.nullary main_c_21 (constantI S_ 32 0#32) ]
/-- Each touches TensorCore references only. -/
theorem opsSeg9_sub : (opsSeg9 : List (HloOp τ sig (Elt F))).Forall fun op => op.bufs ⊆ tcRefs τ sig :=
  ⟨binary_bufs_sub .., binary_bufs_sub .., nullary_bufs_sub .., binary_bufs_sub .., unary_bufs_sub .., nullary_bufs_sub .., unary_bufs_sub .., binary_bufs_sub .., nullary_bufs_sub ..⟩

/-- The 23 operations of @main's call 6, the callee's body over that call's buffers, in order. -/
abbrev opsCall6 : List (HloOp τ sig (Elt F)) :=
  [ StableHlo.TRef.nullary (.of main_call6_cst : StableHlo.TRef sig ⟨S_, .f32⟩) (constant S_ .f32 0x00000000#32),
    StableHlo.TRef.binary (.of main_v104 : StableHlo.TRef sig ⟨S16384x128, .f32⟩) (.of main_call6_cst : StableHlo.TRef sig ⟨S_, .f32⟩) (.of main_call6_v0 : StableHlo.TRef sig ⟨S128, .f32⟩) (fun x v => Host.reduceAdd x v reducesTo_S16384x128_S128_d0 h_S_),
    StableHlo.TRef.unary (.of main_call6_v0 : StableHlo.TRef sig ⟨S128, .f32⟩) (.of main_call6_v1 : StableHlo.TRef sig ⟨S1x128, .f32⟩) (broadcastInDim S1x128 ![1] bcast_S128_S1x128_1),
    StableHlo.TRef.nullary (.of main_call6_cst_0 : StableHlo.TRef sig ⟨S_, .f32⟩) (constant S_ .f32 0x46800000#32),
    StableHlo.TRef.unary (.of main_call6_cst_0 : StableHlo.TRef sig ⟨S_, .f32⟩) (.of main_call6_v2 : StableHlo.TRef sig ⟨S1x128, .f32⟩) (broadcastInDim S1x128 ![] bcast_S_S1x128),
    StableHlo.TRef.binary (.of main_call6_v1 : StableHlo.TRef sig ⟨S1x128, .f32⟩) (.of main_call6_v2 : StableHlo.TRef sig ⟨S1x128, .f32⟩) (.of main_call6_v3 : StableHlo.TRef sig ⟨S1x128, .f32⟩) Host.divf,
    StableHlo.TRef.unary (.of main_call6_v3 : StableHlo.TRef sig ⟨S1x128, .f32⟩) (.of main_call6_v4 : StableHlo.TRef sig ⟨S16384x128, .f32⟩) (broadcastInDim S16384x128 ![0, 1] bcast_S1x128_S16384x128_0_1),
    StableHlo.TRef.binary (.of main_v104 : StableHlo.TRef sig ⟨S16384x128, .f32⟩) (.of main_call6_v4 : StableHlo.TRef sig ⟨S16384x128, .f32⟩) (.of main_call6_v5 : StableHlo.TRef sig ⟨S16384x128, .f32⟩) subf,
    StableHlo.TRef.binary (.of main_call6_v5 : StableHlo.TRef sig ⟨S16384x128, .f32⟩) (.of main_call6_v5 : StableHlo.TRef sig ⟨S16384x128, .f32⟩) (.of main_call6_v6 : StableHlo.TRef sig ⟨S16384x128, .f32⟩) mulf,
    StableHlo.TRef.unary (.of main_c_21 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x46800000#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S16384x128, .f32⟩) (.of main_call6_cst_2 : StableHlo.TRef sig ⟨S_, .f32⟩) (.of main_call6_v9 : StableHlo.TRef sig ⟨S128, .f32⟩) (fun x v => Host.reduceAdd x v reducesTo_S16384x128_S128_d0 h_S_),
    StableHlo.TRef.unary (.of main_call6_v9 : StableHlo.TRef sig ⟨S128, .f32⟩) (.of main_call6_v10 : StableHlo.TRef sig ⟨S1x128, .f32⟩) (broadcastInDim S1x128 ![1] bcast_S128_S1x128_1),
    StableHlo.TRef.unary (.of main_call6_v8 : StableHlo.TRef sig ⟨S_, .f32⟩) (.of main_call6_v11 : StableHlo.TRef sig ⟨S1x128, .f32⟩) (broadcastInDim S1x128 ![] bcast_S_S1x128),
    StableHlo.TRef.binary (.of main_call6_v10 : StableHlo.TRef sig ⟨S1x128, .f32⟩) (.of main_call6_v11 : StableHlo.TRef sig ⟨S1x128, .f32⟩) (.of main_call6_v12 : StableHlo.TRef sig ⟨S1x128, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v13 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S1x128, .f32⟩) (broadcastInDim S1x128 ![] bcast_S_S1x128),
    StableHlo.TRef.ternary (.of main_call6_v13 : StableHlo.TRef sig ⟨S_, .i1⟩) (.of main_call6_v12 : StableHlo.TRef sig ⟨S1x128, .f32⟩) (.of main_call6_call0_v1 : StableHlo.TRef sig ⟨S1x128, .f32⟩) (.of main_v109 : StableHlo.TRef sig ⟨S1x128, .f32⟩) (fun p a b => select (broadcastInDim S1x128 ![] bcast_S_S1x128 p) a b) ]
/-- Each touches TensorCore references only. -/
theorem opsCall6_sub : (opsCall6 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩

/-- 14 consecutive operations of @main itself (window 2), in order. -/
abbrev opsSeg10 : List (HloOp τ sig (Elt F)) :=
  [ StableHlo.unary main_v108 main_v110 (broadcastInDim S16384x128 ![0, 1] bcast_S1x128_S16384x128_0_1 : (⟨S1x128, .f32⟩ : BufTy).Contents (Elt F) → (⟨S16384x128, .f32⟩ : BufTy).Contents (Elt F)),
    StableHlo.binary main_v104 main_v110 main_v111 (subf : (⟨S16384x128, .f32⟩ : BufTy).Contents (Elt F) → (⟨S16384x128, .f32⟩ : BufTy).Contents (Elt F) → (⟨S16384x128, .f32⟩ : BufTy).Contents (Elt F)),
    StableHlo.nullary main_cst_22 (constant S_ .f32 0x3727C5AC#32),
    StableHlo.unary main_cst_22 main_v112 (broadcastInDim S1x128 ![] bcast_S_S1x128 : (⟨S_, .f32⟩ : BufTy).Contents (Elt F) → (⟨S1x128, .f32⟩ : BufTy).Contents (Elt F)),
    StableHlo.binary main_v109 main_v112 main_v113 (addf : (⟨S1x128, .f32⟩ : BufTy).Contents (Elt F) → (⟨S1x128, .f32⟩ : BufTy).Contents (Elt F) → (⟨S1x128, .f32⟩ : BufTy).Contents (Elt F)),
    StableHlo.unary main_v113 main_v114 (Host.rsqrt : (⟨S1x128, .f32⟩ : BufTy).Contents (Elt F) → (⟨S1x128, .f32⟩ : BufTy).Contents (Elt F)),
    StableHlo.unary main_v114 main_v115 (broadcastInDim S16384x128 ![0, 1] bcast_S1x128_S16384x128_0_1 : (⟨S1x128, .f32⟩ : BufTy).Contents (Elt F) → (⟨S16384x128, .f32⟩ : BufTy).Contents (Elt F)),
    StableHlo.binary main_v111 main_v115 main_v116 (mulf : (⟨S16384x128, .f32⟩ : BufTy).Contents (Elt F) → (⟨S16384x128, .f32⟩ : BufTy).Contents (Elt F) → (⟨S16384x128, .f32⟩ : BufTy).Contents (Elt F)),
    StableHlo.unary main_arg18 main_v117 (broadcastInDim S1x128 ![1] bcast_S128_S1x128_1 : (⟨S128, .f32⟩ : BufTy).Contents (Elt F) → (⟨S1x128, .f32⟩ : BufTy).Contents (Elt F)),
    StableHlo.unary main_v117 main_v118 (broadcastInDim S16384x128 ![0, 1] bcast_S1x128_S16384x128_0_1 : (⟨S1x128, .f32⟩ : BufTy).Contents (Elt F) → (⟨S16384x128, .f32⟩ : BufTy).Contents (Elt F)),
    StableHlo.binary main_v116 main_v118 main_v119 (mulf : (⟨S16384x128, .f32⟩ : BufTy).Contents (Elt F) → (⟨S16384x128, .f32⟩ : BufTy).Contents (Elt F) → (⟨S16384x128, .f32⟩ : BufTy).Contents (Elt F)),
    StableHlo.unary main_arg19 main_v120 (broadcastInDim S1x128 ![1] bcast_S128_S1x128_1 : (⟨S128, .f32⟩ : BufTy).Contents (Elt F) → (⟨S1x128, .f32⟩ : BufTy).Contents (Elt F)),
    StableHlo.unary main_v120 main_v121 (broadcastInDim S16384x128 ![0, 1] bcast_S1x128_S16384x128_0_1 : (⟨S1x128, .f32⟩ : BufTy).Contents (Elt F) → (⟨S16384x128, .f32⟩ : BufTy).Contents (Elt F)),
    StableHlo.binary main_v119 main_v121 main_v122 (addf : (⟨S16384x128, .f32⟩ : BufTy).Contents (Elt F) → (⟨S16384x128, .f32⟩ : BufTy).Contents (Elt F) → (⟨S16384x128, .f32⟩ : BufTy).Contents (Elt F)) ]
/-- Each touches TensorCore references only. -/
theorem opsSeg10_sub : (opsSeg10 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- The 3 operations of @main's call 7, the callee's body over that call's buffers, in order. -/
abbrev opsCall7 : List (HloOp τ sig (Elt F)) :=
  [ StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S16384x128, .f32⟩) (broadcastInDim S16384x128 ![] bcast_S_S16384x128),
    StableHlo.TRef.binary (.of main_v122 : StableHlo.TRef sig ⟨S16384x128, .f32⟩) (.of main_call7_v0 : StableHlo.TRef sig ⟨S16384x128, .f32⟩) (.of main_v123 : StableHlo.TRef sig ⟨S16384x128, .f32⟩) maximumf ]
/-- Each touches TensorCore references only. -/
theorem opsCall7_sub : (opsCall7 : List (HloOp τ sig (Elt F))).Forall fun op => op.bufs ⊆ tcRefs τ sig :=
  ⟨nullary_bufs_sub .., unary_bufs_sub .., binary_bufs_sub ..⟩

/-- The attention head: %0 … %44, the call of @_var among them. -/
abbrev opsHead : List (HloOp τ sig (Elt F)) :=
  opsSeg0 ++ (opsCall0 ++ (opsSeg1))

/-- The rest: the three normalized feed-forward stages, up to the result %123. -/
abbrev opsTail : List (HloOp τ sig (Elt F)) :=
  opsSeg2 ++ (opsSeg3 ++ (opsCall1 ++ (opsSeg4 ++ (opsCall2 ++ (opsSeg5 ++ (opsCall3 ++ (opsSeg6 ++ (opsCall4 ++ (opsSeg7 ++ (opsSeg8 ++ (opsCall5 ++ (opsSeg9 ++ (opsCall6 ++ (opsSeg10 ++ (opsCall7)))))))))))))))

theorem opsHead_sub : (opsHead : List (HloOp τ sig (Elt F))).Forall fun op => op.bufs ⊆ tcRefs τ sig :=
  List.forall_append.2 ⟨opsSeg0_sub, List.forall_append.2 ⟨opsCall0_sub, opsSeg1_sub⟩⟩

theorem opsTail_sub : (opsTail : List (HloOp τ sig (Elt F))).Forall fun op => op.bufs ⊆ tcRefs τ sig :=
  List.forall_append.2 ⟨opsSeg2_sub, List.forall_append.2 ⟨opsSeg3_sub, List.forall_append.2 ⟨opsCall1_sub, List.forall_append.2 ⟨opsSeg4_sub, List.forall_append.2 ⟨opsCall2_sub, List.forall_append.2 ⟨opsSeg5_sub, List.forall_append.2 ⟨opsCall3_sub, List.forall_append.2 ⟨opsSeg6_sub, List.forall_append.2 ⟨opsCall4_sub, List.forall_append.2 ⟨opsSeg7_sub, List.forall_append.2 ⟨opsSeg8_sub, List.forall_append.2 ⟨opsCall5_sub, List.forall_append.2 ⟨opsSeg9_sub, List.forall_append.2 ⟨opsCall6_sub, List.forall_append.2 ⟨opsSeg10_sub, opsCall7_sub⟩⟩⟩⟩⟩⟩⟩⟩⟩⟩⟩⟩⟩⟩⟩

end Cert.ReferenceIdeal.Hand

end
-- ==== Proof.RefRun.lean ====
/- The reference program's run read back. @main — three windows of statements, eight of them calls of module-local
   functions — is the straight line `opsHead ++ opsTail` of its host operations (RefOps.lean): window by window the
   callees' bodies unfold at their calls into one chain of steps, and the windows in order are the appended lists run
   as one. Every weakly fair execution then terminates with each TensorCore buffer at the fold of the operations'
   results over the launch contents. -/
import proofs.«421826_j62139586839041_3_alg».proof.Proof.RefOps
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## @main is that line -/

-- each window's binds re-associated: the rewrite under the chain recurses once per statement
set_option maxRecDepth 4096 in
set_option maxHeartbeats 4000000 in
/-- Window 0 of @main (statements 1 … 60) is its operations run in order: the callees' definitions unfolded at the
    calls and the records at their fields, both sides are one chain of `hlo` steps once sequencing is reassociated. -/
theorem part0_eq (c : Dev nD) : main_part0 (F := F) c = seq (opsSeg0 ++ (opsCall0 ++ (opsSeg1 ++ (opsSeg2)))) := by
  simp only [main_part0, fn_var.body, fn_where.body, seq_append, seq, bind_assoc, pure_bind]
  rfl

set_option maxRecDepth 4096 in
set_option maxHeartbeats 4000000 in
/-- Window 1 of @main (statements 61 … 120) likewise. -/
theorem part1_eq (c : Dev nD) : main_part1 (F := F) c = seq (opsSeg3 ++ (opsCall1 ++ (opsSeg4 ++ (opsCall2 ++ (opsSeg5 ++ (opsCall3 ++ (opsSeg6 ++ (opsCall4 ++ (opsSeg7))))))))) := by
  simp only [main_part1, fn_var_0.body, fn_relu.body, fn_where.body, seq_append, seq, bind_assoc, pure_bind]
  rfl

set_option maxRecDepth 4096 in
set_option maxHeartbeats 4000000 in
/-- Window 2 of @main (statements 121 … 150) likewise. -/
theorem part2_eq (c : Dev nD) : main_part2 (F := F) c = seq (opsSeg8 ++ (opsCall5 ++ (opsSeg9 ++ (opsCall6 ++ (opsSeg10 ++ (opsCall7)))))) := by
  simp only [main_part2, fn_var_0.body, fn_relu.body, fn_where.body, seq_append, seq, bind_assoc, pure_bind]

/-- @main is the whole line: its three windows in order are the appended lists run as one. -/
theorem main_eq (c : Dev nD) : main (F := F) c = seq (opsHead ++ opsTail) := by
  have h0 := part0_eq (F := F) c
  have h1 := part1_eq (F := F) c
  have h2 := part2_eq (F := F) c
  simp only [seq_append] at h0 h1 h2
  simp only [main, h0, h1, h2, opsHead, opsTail, seq_append, bind_assoc]

/-! ## The run -/

theorem scopedRefs_eq : (Finset.univ.filter fun b : Ref sig .tc => b.isScoped) = ∅ := by decide
theorem scopedSems_eq : (Finset.univ.filter fun sm : SemLoc sig => sm.isScoped .tc) = ∅ := by decide

/-- No operation of two lists leaves a result undetermined when none of either does. -/
theorem fresh_append {l₁ l₂ : List (HloOp τ sig (Elt F))} (h₁ : ∀ op ∈ l₁, op.fresh = ∅) (h₂ : ∀ op ∈ l₂, op.fresh = ∅) :
    ∀ op ∈ l₁ ++ l₂, op.fresh = ∅ := fun op h => (List.mem_append.1 h).elim (h₁ op) (h₂ op)

theorem opsSeg0_fresh : ∀ op ∈ (opsSeg0 : List (HloOp τ sig (Elt F))), op.fresh = ∅ := by
  intro _ h; (repeat (cases h with | head => rfl | tail _ h => ?_)); exact nomatch h
theorem opsCall0_fresh : ∀ op ∈ (opsCall0 : List (HloOp τ sig (Elt F))), op.fresh = ∅ := by
  intro _ h; (repeat (cases h with | head => rfl | tail _ h => ?_)); exact nomatch h
theorem opsSeg1_fresh : ∀ op ∈ (opsSeg1 : List (HloOp τ sig (Elt F))), op.fresh = ∅ := by
  intro _ h; (repeat (cases h with | head => rfl | tail _ h => ?_)); exact nomatch h
theorem opsSeg2_fresh : ∀ op ∈ (opsSeg2 : List (HloOp τ sig (Elt F))), op.fresh = ∅ := by
  intro _ h; (repeat (cases h with | head => rfl | tail _ h => ?_)); exact nomatch h
theorem opsSeg3_fresh : ∀ op ∈ (opsSeg3 : List (HloOp τ sig (Elt F))), op.fresh = ∅ := by
  intro _ h; (repeat (cases h with | head => rfl | tail _ h => ?_)); exact nomatch h
theorem opsCall1_fresh : ∀ op ∈ (opsCall1 : List (HloOp τ sig (Elt F))), op.fresh = ∅ := by
  intro _ h; (repeat (cases h with | head => rfl | tail _ h => ?_)); exact nomatch h
theorem opsSeg4_fresh : ∀ op ∈ (opsSeg4 : List (HloOp τ sig (Elt F))), op.fresh = ∅ := by
  intro _ h; (repeat (cases h with | head => rfl | tail _ h => ?_)); exact nomatch h
theorem opsCall2_fresh : ∀ op ∈ (opsCall2 : List (HloOp τ sig (Elt F))), op.fresh = ∅ := by
  intro _ h; (repeat (cases h with | head => rfl | tail _ h => ?_)); exact nomatch h
theorem opsSeg5_fresh : ∀ op ∈ (opsSeg5 : List (HloOp τ sig (Elt F))), op.fresh = ∅ := by
  intro _ h; (repeat (cases h with | head => rfl | tail _ h => ?_)); exact nomatch h
theorem opsCall3_fresh : ∀ op ∈ (opsCall3 : List (HloOp τ sig (Elt F))), op.fresh = ∅ := by
  intro _ h; (repeat (cases h with | head => rfl | tail _ h => ?_)); exact nomatch h
theorem opsSeg6_fresh : ∀ op ∈ (opsSeg6 : List (HloOp τ sig (Elt F))), op.fresh = ∅ := by
  intro _ h; (repeat (cases h with | head => rfl | tail _ h => ?_)); exact nomatch h
theorem opsCall4_fresh : ∀ op ∈ (opsCall4 : List (HloOp τ sig (Elt F))), op.fresh = ∅ := by
  intro _ h; (repeat (cases h with | head => rfl | tail _ h => ?_)); exact nomatch h
theorem opsSeg7_fresh : ∀ op ∈ (opsSeg7 : List (HloOp τ sig (Elt F))), op.fresh = ∅ := by
  intro _ h; (repeat (cases h with | head => rfl | tail _ h => ?_)); exact nomatch h
theorem opsSeg8_fresh : ∀ op ∈ (opsSeg8 : List (HloOp τ sig (Elt F))), op.fresh = ∅ := by
  intro _ h; (repeat (cases h with | head => rfl | tail _ h => ?_)); exact nomatch h
theorem opsCall5_fresh : ∀ op ∈ (opsCall5 : List (HloOp τ sig (Elt F))), op.fresh = ∅ := by
  intro _ h; (repeat (cases h with | head => rfl | tail _ h => ?_)); exact nomatch h
theorem opsSeg9_fresh : ∀ op ∈ (opsSeg9 : List (HloOp τ sig (Elt F))), op.fresh = ∅ := by
  intro _ h; (repeat (cases h with | head => rfl | tail _ h => ?_)); exact nomatch h
theorem opsCall6_fresh : ∀ op ∈ (opsCall6 : List (HloOp τ sig (Elt F))), op.fresh = ∅ := by
  intro _ h; (repeat (cases h with | head => rfl | tail _ h => ?_)); exact nomatch h
theorem opsSeg10_fresh : ∀ op ∈ (opsSeg10 : List (HloOp τ sig (Elt F))), op.fresh = ∅ := by
  intro _ h; (repeat (cases h with | head => rfl | tail _ h => ?_)); exact nomatch h
theorem opsCall7_fresh : ∀ op ∈ (opsCall7 : List (HloOp τ sig (Elt F))), op.fresh = ∅ := by
  intro _ h; (repeat (cases h with | head => rfl | tail _ h => ?_)); exact nomatch h

/-- Every operation of the line determines its results. -/
theorem ops_fresh : ∀ op ∈ (opsHead ++ opsTail : List (HloOp τ sig (Elt F))), op.fresh = ∅ :=
  fresh_append (fresh_append opsSeg0_fresh (fresh_append opsCall0_fresh (opsSeg1_fresh))) (fresh_append opsSeg2_fresh (fresh_append opsSeg3_fresh (fresh_append opsCall1_fresh (fresh_append opsSeg4_fresh (fresh_append opsCall2_fresh (fresh_append opsSeg5_fresh (fresh_append opsCall3_fresh (fresh_append opsSeg6_fresh (fresh_append opsCall4_fresh (fresh_append opsSeg7_fresh (fresh_append opsSeg8_fresh (fresh_append opsCall5_fresh (fresh_append opsSeg9_fresh (fresh_append opsCall6_fresh (fresh_append opsSeg10_fresh (opsCall7_fresh))))))))))))))))

/-- On every device, for any float values, from any memory with zero counters: every weakly fair execution of
    @main on the TensorCores terminates, and every final state has each TensorCore buffer at the fold of the
    operations' results over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = StableHlo.after (opsHead ++ opsTail) (StableHlo.launchContents m d) (Proc.devRef .tc b) :=
  run_seq scopedRefs_eq scopedSems_eq defs main (fun _ => opsHead ++ opsTail) main_eq
    (fun _ => List.forall_append.2 ⟨opsHead_sub, opsTail_sub⟩) m ρ (fun _ => ops_fresh)

end Cert.ReferenceIdeal.Hand

end
-- ==== Proof.RefValue.lean ====
/-
  What the reference program's host operations compute, as the pure functions of the layer: after the head's
  operations the buffer of %0 holds the lifted points and the buffer of %44 the attention head's output; after the
  rest the buffer of %123 holds the layer's tail applied to those two; no operation writes an argument. Each is
  read off the fold of the operations over an arbitrary valuation of the buffers.
-/
import proofs.«421826_j62139586839041_3_alg».proof.Proof.RefOps
import proofs.«421826_j62139586839041_3_alg».proof.Proof.Spec
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]
/-! ## The references each stretch of operations writes -/

/-- The references `opsSeg0` writes, in order. -/
abbrev wSeg0 : List (Ref sig .tc) :=
  [main_v0, main_v1, main_c, main_v2, main_v3, main_c_0, main_v4, main_v5, main_v6, main_v7, main_v8, main_v9, main_cst, main_v10, main_v11, main_cst_1, main_v12, main_v13, main_c_2]

theorem opsSeg0_writes : (opsSeg0 : List (HloOp τ sig (Elt F))).Forall fun op => op.writes ⊆ ((wSeg0).map (Proc.devRef (τ := τ) .tc)).toFinset := by
  simp only [opsSeg0, List.Forall, StableHlo.nullary_writes, StableHlo.unary_writes, StableHlo.binary_writes, StableHlo.ternary_writes, Finset.singleton_subset_iff]
  repeat' apply And.intro
  all_goals exact List.mem_toFinset.mpr (List.mem_map_of_mem (by decide))

/-- A reference `opsSeg0` does not write keeps its contents. -/
theorem keep_opsSeg0 {r : Ref sig .tc} (V : Valuation τ sig (Elt F)) (hr : r ∉ wSeg0) :
    StableHlo.after opsSeg0 V (Proc.devRef .tc r) = V (Proc.devRef .tc r) :=
  StableHlo.after_of_writes_sub opsSeg0 V opsSeg0_writes hr

/-- The references `opsCall0` writes, in order. -/
abbrev wCall0 : List (Ref sig .tc) :=
  [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v14]

theorem opsCall0_writes : (opsCall0 : List (HloOp τ sig (Elt F))).Forall fun op => op.writes ⊆ ((wCall0).map (Proc.devRef (τ := τ) .tc)).toFinset := by
  simp only [opsCall0, List.Forall, StableHlo.nullary_writes, StableHlo.unary_writes, StableHlo.binary_writes, StableHlo.ternary_writes, Finset.singleton_subset_iff]
  repeat' apply And.intro
  all_goals exact List.mem_toFinset.mpr (List.mem_map_of_mem (by decide))

/-- A reference `opsCall0` does not write keeps its contents. -/
theorem keep_opsCall0 {r : Ref sig .tc} (V : Valuation τ sig (Elt F)) (hr : r ∉ wCall0) :
    StableHlo.after opsCall0 V (Proc.devRef .tc r) = V (Proc.devRef .tc r) :=
  StableHlo.after_of_writes_sub opsCall0 V opsCall0_writes hr

/-- The references `opsSeg1` writes, in order. -/
abbrev wSeg1 : List (Ref sig .tc) :=
  [main_v15, main_v16, main_cst_3, main_v17, main_v18, main_v19, main_v20, main_v21, main_v22, main_v23, main_v24, main_v25, main_v26, main_v27, main_v28, main_v29, main_v30, main_v31, main_cst_4, main_v32, main_cst_5, main_v33, main_v34, main_v35, main_v36, main_v37, main_v38, main_cst_6, main_v39, main_v40, main_v41, main_v42, main_v43, main_v44]

theorem opsSeg1_writes : (opsSeg1 : List (HloOp τ sig (Elt F))).Forall fun op => op.writes ⊆ ((wSeg1).map (Proc.devRef (τ := τ) .tc)).toFinset := by
  simp only [opsSeg1, List.Forall, StableHlo.nullary_writes, StableHlo.unary_writes, StableHlo.binary_writes, StableHlo.ternary_writes, Finset.singleton_subset_iff]
  repeat' apply And.intro
  all_goals exact List.mem_toFinset.mpr (List.mem_map_of_mem (by decide))

/-- A reference `opsSeg1` does not write keeps its contents. -/
theorem keep_opsSeg1 {r : Ref sig .tc} (V : Valuation τ sig (Elt F)) (hr : r ∉ wSeg1) :
    StableHlo.after opsSeg1 V (Proc.devRef .tc r) = V (Proc.devRef .tc r) :=
  StableHlo.after_of_writes_sub opsSeg1 V opsSeg1_writes hr

/-- The references `opsSeg2` writes, in order. -/
abbrev wSeg2 : List (Ref sig .tc) :=
  [main_cst_7, main_v45, main_v46, main_cst_8, main_v47, main_v48]

theorem opsSeg2_writes : (opsSeg2 : List (HloOp τ sig (Elt F))).Forall fun op => op.writes ⊆ ((wSeg2).map (Proc.devRef (τ := τ) .tc)).toFinset := by
  simp only [opsSeg2, List.Forall, StableHlo.nullary_writes, StableHlo.unary_writes, StableHlo.binary_writes, StableHlo.ternary_writes, Finset.singleton_subset_iff]
  repeat' apply And.intro
  all_goals exact List.mem_toFinset.mpr (List.mem_map_of_mem (by decide))

/-- A reference `opsSeg2` does not write keeps its contents. -/
theorem keep_opsSeg2 {r : Ref sig .tc} (V : Valuation τ sig (Elt F)) (hr : r ∉ wSeg2) :
    StableHlo.after opsSeg2 V (Proc.devRef .tc r) = V (Proc.devRef .tc r) :=
  StableHlo.after_of_writes_sub opsSeg2 V opsSeg2_writes hr

/-- The references `opsSeg3` writes, in order. -/
abbrev wSeg3 : List (Ref sig .tc) :=
  [main_c_9]

theorem opsSeg3_writes : (opsSeg3 : List (HloOp τ sig (Elt F))).Forall fun op => op.writes ⊆ ((wSeg3).map (Proc.devRef (τ := τ) .tc)).toFinset := by
  simp only [opsSeg3, List.Forall, StableHlo.nullary_writes, StableHlo.unary_writes, StableHlo.binary_writes, StableHlo.ternary_writes, Finset.singleton_subset_iff]
  repeat' apply And.intro
  all_goals exact List.mem_toFinset.mpr (List.mem_map_of_mem (by decide))

/-- A reference `opsSeg3` does not write keeps its contents. -/
theorem keep_opsSeg3 {r : Ref sig .tc} (V : Valuation τ sig (Elt F)) (hr : r ∉ wSeg3) :
    StableHlo.after opsSeg3 V (Proc.devRef .tc r) = V (Proc.devRef .tc r) :=
  StableHlo.after_of_writes_sub opsSeg3 V opsSeg3_writes hr

/-- The references `opsCall1` writes, in order. -/
abbrev wCall1 : List (Ref sig .tc) :=
  [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v49]

theorem opsCall1_writes : (opsCall1 : List (HloOp τ sig (Elt F))).Forall fun op => op.writes ⊆ ((wCall1).map (Proc.devRef (τ := τ) .tc)).toFinset := by
  simp only [opsCall1, List.Forall, StableHlo.nullary_writes, StableHlo.unary_writes, StableHlo.binary_writes, StableHlo.ternary_writes, Finset.singleton_subset_iff]
  repeat' apply And.intro
  all_goals exact List.mem_toFinset.mpr (List.mem_map_of_mem (by decide))

/-- A reference `opsCall1` does not write keeps its contents. -/
theorem keep_opsCall1 {r : Ref sig .tc} (V : Valuation τ sig (Elt F)) (hr : r ∉ wCall1) :
    StableHlo.after opsCall1 V (Proc.devRef .tc r) = V (Proc.devRef .tc r) :=
  StableHlo.after_of_writes_sub opsCall1 V opsCall1_writes hr

/-- The references `opsSeg4` writes, in order. -/
abbrev wSeg4 : List (Ref sig .tc) :=
  [main_v50, main_v51, main_cst_10, main_v52, main_v53, main_v54, main_v55, main_v56, main_v57, main_v58, main_v59, main_v60, main_v61, main_v62, main_v63, main_cst_11, main_v64, main_v65, main_cst_12, main_v66, main_v67, main_c_13]

theorem opsSeg4_writes : (opsSeg4 : List (HloOp τ sig (Elt F))).Forall fun op => op.writes ⊆ ((wSeg4).map (Proc.devRef (τ := τ) .tc)).toFinset := by
  simp only [opsSeg4, List.Forall, StableHlo.nullary_writes, StableHlo.unary_writes, StableHlo.binary_writes, StableHlo.ternary_writes, Finset.singleton_subset_iff]
  repeat' apply And.intro
  all_goals exact List.mem_toFinset.mpr (List.mem_map_of_mem (by decide))

/-- A reference `opsSeg4` does not write keeps its contents. -/
theorem keep_opsSeg4 {r : Ref sig .tc} (V : Valuation τ sig (Elt F)) (hr : r ∉ wSeg4) :
    StableHlo.after opsSeg4 V (Proc.devRef .tc r) = V (Proc.devRef .tc r) :=
  StableHlo.after_of_writes_sub opsSeg4 V opsSeg4_writes hr

/-- The references `opsCall2` writes, in order. -/
abbrev wCall2 : List (Ref sig .tc) :=
  [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v68]

theorem opsCall2_writes : (opsCall2 : List (HloOp τ sig (Elt F))).Forall fun op => op.writes ⊆ ((wCall2).map (Proc.devRef (τ := τ) .tc)).toFinset := by
  simp only [opsCall2, List.Forall, StableHlo.nullary_writes, StableHlo.unary_writes, StableHlo.binary_writes, StableHlo.ternary_writes, Finset.singleton_subset_iff]
  repeat' apply And.intro
  all_goals exact List.mem_toFinset.mpr (List.mem_map_of_mem (by decide))

/-- A reference `opsCall2` does not write keeps its contents. -/
theorem keep_opsCall2 {r : Ref sig .tc} (V : Valuation τ sig (Elt F)) (hr : r ∉ wCall2) :
    StableHlo.after opsCall2 V (Proc.devRef .tc r) = V (Proc.devRef .tc r) :=
  StableHlo.after_of_writes_sub opsCall2 V opsCall2_writes hr

/-- The references `opsSeg5` writes, in order. -/
abbrev wSeg5 : List (Ref sig .tc) :=
  [main_v69, main_v70, main_cst_14, main_v71, main_v72, main_v73, main_v74, main_v75, main_v76, main_v77, main_v78, main_v79, main_v80, main_v81]

theorem opsSeg5_writes : (opsSeg5 : List (HloOp τ sig (Elt F))).Forall fun op => op.writes ⊆ ((wSeg5).map (Proc.devRef (τ := τ) .tc)).toFinset := by
  simp only [opsSeg5, List.Forall, StableHlo.nullary_writes, StableHlo.unary_writes, StableHlo.binary_writes, StableHlo.ternary_writes, Finset.singleton_subset_iff]
  repeat' apply And.intro
  all_goals exact List.mem_toFinset.mpr (List.mem_map_of_mem (by decide))

/-- A reference `opsSeg5` does not write keeps its contents. -/
theorem keep_opsSeg5 {r : Ref sig .tc} (V : Valuation τ sig (Elt F)) (hr : r ∉ wSeg5) :
    StableHlo.after opsSeg5 V (Proc.devRef .tc r) = V (Proc.devRef .tc r) :=
  StableHlo.after_of_writes_sub opsSeg5 V opsSeg5_writes hr

/-- The references `opsCall3` writes, in order. -/
abbrev wCall3 : List (Ref sig .tc) :=
  [main_call3_cst, main_call3_v0, main_v82]

theorem opsCall3_writes : (opsCall3 : List (HloOp τ sig (Elt F))).Forall fun op => op.writes ⊆ ((wCall3).map (Proc.devRef (τ := τ) .tc)).toFinset := by
  simp only [opsCall3, List.Forall, StableHlo.nullary_writes, StableHlo.unary_writes, StableHlo.binary_writes, StableHlo.ternary_writes, Finset.singleton_subset_iff]
  repeat' apply And.intro
  all_goals exact List.mem_toFinset.mpr (List.mem_map_of_mem (by decide))

/-- A reference `opsCall3` does not write keeps its contents. -/
theorem keep_opsCall3 {r : Ref sig .tc} (V : Valuation τ sig (Elt F)) (hr : r ∉ wCall3) :
    StableHlo.after opsCall3 V (Proc.devRef .tc r) = V (Proc.devRef .tc r) :=
  StableHlo.after_of_writes_sub opsCall3 V opsCall3_writes hr

/-- The references `opsSeg6` writes, in order. -/
abbrev wSeg6 : List (Ref sig .tc) :=
  [main_v83, main_cst_15, main_v84, main_v85, main_cst_16, main_v86, main_v87, main_c_17]

theorem opsSeg6_writes : (opsSeg6 : List (HloOp τ sig (Elt F))).Forall fun op => op.writes ⊆ ((wSeg6).map (Proc.devRef (τ := τ) .tc)).toFinset := by
  simp only [opsSeg6, List.Forall, StableHlo.nullary_writes, StableHlo.unary_writes, StableHlo.binary_writes, StableHlo.ternary_writes, Finset.singleton_subset_iff]
  repeat' apply And.intro
  all_goals exact List.mem_toFinset.mpr (List.mem_map_of_mem (by decide))

/-- A reference `opsSeg6` does not write keeps its contents. -/
theorem keep_opsSeg6 {r : Ref sig .tc} (V : Valuation τ sig (Elt F)) (hr : r ∉ wSeg6) :
    StableHlo.after opsSeg6 V (Proc.devRef .tc r) = V (Proc.devRef .tc r) :=
  StableHlo.after_of_writes_sub opsSeg6 V opsSeg6_writes hr

/-- The references `opsCall4` writes, in order. -/
abbrev wCall4 : List (Ref sig .tc) :=
  [main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v88]

theorem opsCall4_writes : (opsCall4 : List (HloOp τ sig (Elt F))).Forall fun op => op.writes ⊆ ((wCall4).map (Proc.devRef (τ := τ) .tc)).toFinset := by
  simp only [opsCall4, List.Forall, StableHlo.nullary_writes, StableHlo.unary_writes, StableHlo.binary_writes, StableHlo.ternary_writes, Finset.singleton_subset_iff]
  repeat' apply And.intro
  all_goals exact List.mem_toFinset.mpr (List.mem_map_of_mem (by decide))

/-- A reference `opsCall4` does not write keeps its contents. -/
theorem keep_opsCall4 {r : Ref sig .tc} (V : Valuation τ sig (Elt F)) (hr : r ∉ wCall4) :
    StableHlo.after opsCall4 V (Proc.devRef .tc r) = V (Proc.devRef .tc r) :=
  StableHlo.after_of_writes_sub opsCall4 V opsCall4_writes hr

/-- The references `opsSeg7` writes, in order. -/
abbrev wSeg7 : List (Ref sig .tc) :=
  [main_v89, main_v90, main_cst_18, main_v91, main_v92, main_v93, main_v94, main_v95, main_v96, main_v97, main_v98]

theorem opsSeg7_writes : (opsSeg7 : List (HloOp τ sig (Elt F))).Forall fun op => op.writes ⊆ ((wSeg7).map (Proc.devRef (τ := τ) .tc)).toFinset := by
  simp only [opsSeg7, List.Forall, StableHlo.nullary_writes, StableHlo.unary_writes, StableHlo.binary_writes, StableHlo.ternary_writes, Finset.singleton_subset_iff]
  repeat' apply And.intro
  all_goals exact List.mem_toFinset.mpr (List.mem_map_of_mem (by decide))

/-- A reference `opsSeg7` does not write keeps its contents. -/
theorem keep_opsSeg7 {r : Ref sig .tc} (V : Valuation τ sig (Elt F)) (hr : r ∉ wSeg7) :
    StableHlo.after opsSeg7 V (Proc.devRef .tc r) = V (Proc.devRef .tc r) :=
  StableHlo.after_of_writes_sub opsSeg7 V opsSeg7_writes hr

/-- The references `opsSeg8` writes, in order. -/
abbrev wSeg8 : List (Ref sig .tc) :=
  [main_v99, main_v100, main_v101]

theorem opsSeg8_writes : (opsSeg8 : List (HloOp τ sig (Elt F))).Forall fun op => op.writes ⊆ ((wSeg8).map (Proc.devRef (τ := τ) .tc)).toFinset := by
  simp only [opsSeg8, List.Forall, StableHlo.nullary_writes, StableHlo.unary_writes, StableHlo.binary_writes, StableHlo.ternary_writes, Finset.singleton_subset_iff]
  repeat' apply And.intro
  all_goals exact List.mem_toFinset.mpr (List.mem_map_of_mem (by decide))

/-- A reference `opsSeg8` does not write keeps its contents. -/
theorem keep_opsSeg8 {r : Ref sig .tc} (V : Valuation τ sig (Elt F)) (hr : r ∉ wSeg8) :
    StableHlo.after opsSeg8 V (Proc.devRef .tc r) = V (Proc.devRef .tc r) :=
  StableHlo.after_of_writes_sub opsSeg8 V opsSeg8_writes hr

/-- The references `opsCall5` writes, in order. -/
abbrev wCall5 : List (Ref sig .tc) :=
  [main_call5_cst, main_call5_v0, main_v102]

theorem opsCall5_writes : (opsCall5 : List (HloOp τ sig (Elt F))).Forall fun op => op.writes ⊆ ((wCall5).map (Proc.devRef (τ := τ) .tc)).toFinset := by
  simp only [opsCall5, List.Forall, StableHlo.nullary_writes, StableHlo.unary_writes, StableHlo.binary_writes, StableHlo.ternary_writes, Finset.singleton_subset_iff]
  repeat' apply And.intro
  all_goals exact List.mem_toFinset.mpr (List.mem_map_of_mem (by decide))

/-- A reference `opsCall5` does not write keeps its contents. -/
theorem keep_opsCall5 {r : Ref sig .tc} (V : Valuation τ sig (Elt F)) (hr : r ∉ wCall5) :
    StableHlo.after opsCall5 V (Proc.devRef .tc r) = V (Proc.devRef .tc r) :=
  StableHlo.after_of_writes_sub opsCall5 V opsCall5_writes hr

/-- The references `opsSeg9` writes, in order. -/
abbrev wSeg9 : List (Ref sig .tc) :=
  [main_v103, main_v104, main_cst_19, main_v105, main_v106, main_cst_20, main_v107, main_v108, main_c_21]

theorem opsSeg9_writes : (opsSeg9 : List (HloOp τ sig (Elt F))).Forall fun op => op.writes ⊆ ((wSeg9).map (Proc.devRef (τ := τ) .tc)).toFinset := by
  simp only [opsSeg9, List.Forall, StableHlo.nullary_writes, StableHlo.unary_writes, StableHlo.binary_writes, StableHlo.ternary_writes, Finset.singleton_subset_iff]
  repeat' apply And.intro
  all_goals exact List.mem_toFinset.mpr (List.mem_map_of_mem (by decide))

/-- A reference `opsSeg9` does not write keeps its contents. -/
theorem keep_opsSeg9 {r : Ref sig .tc} (V : Valuation τ sig (Elt F)) (hr : r ∉ wSeg9) :
    StableHlo.after opsSeg9 V (Proc.devRef .tc r) = V (Proc.devRef .tc r) :=
  StableHlo.after_of_writes_sub opsSeg9 V opsSeg9_writes hr

/-- The references `opsCall6` writes, in order. -/
abbrev wCall6 : List (Ref sig .tc) :=
  [main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_v12, main_call6_cst_3, main_call6_v13, main_call6_cst_4, main_call6_call0_v0, main_call6_call0_v1, main_v109]

theorem opsCall6_writes : (opsCall6 : List (HloOp τ sig (Elt F))).Forall fun op => op.writes ⊆ ((wCall6).map (Proc.devRef (τ := τ) .tc)).toFinset := by
  simp only [opsCall6, List.Forall, StableHlo.nullary_writes, StableHlo.unary_writes, StableHlo.binary_writes, StableHlo.ternary_writes, Finset.singleton_subset_iff]
  repeat' apply And.intro
  all_goals exact List.mem_toFinset.mpr (List.mem_map_of_mem (by decide))

/-- A reference `opsCall6` does not write keeps its contents. -/
theorem keep_opsCall6 {r : Ref sig .tc} (V : Valuation τ sig (Elt F)) (hr : r ∉ wCall6) :
    StableHlo.after opsCall6 V (Proc.devRef .tc r) = V (Proc.devRef .tc r) :=
  StableHlo.after_of_writes_sub opsCall6 V opsCall6_writes hr

/-- The references `opsSeg10` writes, in order. -/
abbrev wSeg10 : List (Ref sig .tc) :=
  [main_v110, main_v111, main_cst_22, main_v112, main_v113, main_v114, main_v115, main_v116, main_v117, main_v118, main_v119, main_v120, main_v121, main_v122]

theorem opsSeg10_writes : (opsSeg10 : List (HloOp τ sig (Elt F))).Forall fun op => op.writes ⊆ ((wSeg10).map (Proc.devRef (τ := τ) .tc)).toFinset := by
  simp only [opsSeg10, List.Forall, StableHlo.nullary_writes, StableHlo.unary_writes, StableHlo.binary_writes, StableHlo.ternary_writes, Finset.singleton_subset_iff]
  repeat' apply And.intro
  all_goals exact List.mem_toFinset.mpr (List.mem_map_of_mem (by decide))

/-- A reference `opsSeg10` does not write keeps its contents. -/
theorem keep_opsSeg10 {r : Ref sig .tc} (V : Valuation τ sig (Elt F)) (hr : r ∉ wSeg10) :
    StableHlo.after opsSeg10 V (Proc.devRef .tc r) = V (Proc.devRef .tc r) :=
  StableHlo.after_of_writes_sub opsSeg10 V opsSeg10_writes hr

/-- The references `opsCall7` writes, in order. -/
abbrev wCall7 : List (Ref sig .tc) :=
  [main_call7_cst, main_call7_v0, main_v123]

theorem opsCall7_writes : (opsCall7 : List (HloOp τ sig (Elt F))).Forall fun op => op.writes ⊆ ((wCall7).map (Proc.devRef (τ := τ) .tc)).toFinset := by
  simp only [opsCall7, List.Forall, StableHlo.nullary_writes, StableHlo.unary_writes, StableHlo.binary_writes, StableHlo.ternary_writes, Finset.singleton_subset_iff]
  repeat' apply And.intro
  all_goals exact List.mem_toFinset.mpr (List.mem_map_of_mem (by decide))

/-- A reference `opsCall7` does not write keeps its contents. -/
theorem keep_opsCall7 {r : Ref sig .tc} (V : Valuation τ sig (Elt F)) (hr : r ∉ wCall7) :
    StableHlo.after opsCall7 V (Proc.devRef .tc r) = V (Proc.devRef .tc r) :=
  StableHlo.after_of_writes_sub opsCall7 V opsCall7_writes hr

/-- The references `opsHead` writes. -/
abbrev wHead : List (Ref sig .tc) :=
  wSeg0 ++ (wCall0 ++ (wSeg1))

/-- A reference `opsHead` does not write keeps its contents. -/
theorem keepHead {r : Ref sig .tc} (V : Valuation τ sig (Elt F)) (hr : r ∉ wHead) :
    StableHlo.after opsHead V (Proc.devRef .tc r) = V (Proc.devRef .tc r) := by
  simp only [wHead, List.mem_append, not_or] at hr
  obtain ⟨hSeg0, hCall0, hSeg1⟩ := hr
  simp only [opsHead, StableHlo.after_append]
  rw [keep_opsSeg1 _ hSeg1, keep_opsCall0 _ hCall0, keep_opsSeg0 _ hSeg0]

/-- The references `opsTail` writes. -/
abbrev wTail : List (Ref sig .tc) :=
  wSeg2 ++ (wSeg3 ++ (wCall1 ++ (wSeg4 ++ (wCall2 ++ (wSeg5 ++ (wCall3 ++ (wSeg6 ++ (wCall4 ++ (wSeg7 ++ (wSeg8 ++ (wCall5 ++ (wSeg9 ++ (wCall6 ++ (wSeg10 ++ (wCall7)))))))))))))))

/-- A reference `opsTail` does not write keeps its contents. -/
theorem keepTail {r : Ref sig .tc} (V : Valuation τ sig (Elt F)) (hr : r ∉ wTail) :
    StableHlo.after opsTail V (Proc.devRef .tc r) = V (Proc.devRef .tc r) := by
  simp only [wTail, List.mem_append, not_or] at hr
  obtain ⟨hSeg2, hSeg3, hCall1, hSeg4, hCall2, hSeg5, hCall3, hSeg6, hCall4, hSeg7, hSeg8, hCall5, hSeg9, hCall6, hSeg10, hCall7⟩ := hr
  simp only [opsTail, StableHlo.after_append]
  rw [keep_opsCall7 _ hCall7, keep_opsSeg10 _ hSeg10, keep_opsCall6 _ hCall6, keep_opsSeg9 _ hSeg9, keep_opsCall5 _ hCall5, keep_opsSeg8 _ hSeg8, keep_opsSeg7 _ hSeg7, keep_opsCall4 _ hCall4, keep_opsSeg6 _ hSeg6, keep_opsCall3 _ hCall3, keep_opsSeg5 _ hSeg5, keep_opsCall2 _ hCall2, keep_opsSeg4 _ hSeg4, keep_opsCall1 _ hCall1, keep_opsSeg3 _ hSeg3, keep_opsSeg2 _ hSeg2]

/-! ## The attention head -/

/-- The lifted points. -/
theorem head_v0 (Vl : Valuation τ sig (Elt F)) :
    StableHlo.after opsHead Vl (Proc.devRef .tc main_v0)
      = AttnLayer.lift (Vl (Proc.devRef .tc main_arg0)) (Vl (Proc.devRef .tc main_arg2)) := by
  simp only [opsHead, StableHlo.after_append]
  rw [keep_opsSeg1 _ (by decide), keep_opsCall0 _ (by decide)]
  after_results
  rfl

set_option maxHeartbeats 4000000 in
/-- The head's output: the softmax of the scores against the projected keys, times the projected values, projected once more. -/
theorem head_v44 (Vl : Valuation τ sig (Elt F)) :
    StableHlo.after opsHead Vl (Proc.devRef .tc main_v44)
      = AttnLayer.attnRef (AttnLayer.lift (Vl (Proc.devRef .tc main_arg0)) (Vl (Proc.devRef .tc main_arg2))) (Vl (Proc.devRef .tc main_arg6))
          (AttnLayer.projM (AttnLayer.kvFeat (AttnLayer.lift (Vl (Proc.devRef .tc main_arg0)) (Vl (Proc.devRef .tc main_arg2))) (Vl (Proc.devRef .tc main_arg1)) (Vl (Proc.devRef .tc main_arg3)) (Vl (Proc.devRef .tc main_arg4)) (Vl (Proc.devRef .tc main_arg5))) (Vl (Proc.devRef .tc main_arg7)))
          (AttnLayer.projM (AttnLayer.kvFeat (AttnLayer.lift (Vl (Proc.devRef .tc main_arg0)) (Vl (Proc.devRef .tc main_arg2))) (Vl (Proc.devRef .tc main_arg1)) (Vl (Proc.devRef .tc main_arg3)) (Vl (Proc.devRef .tc main_arg4)) (Vl (Proc.devRef .tc main_arg5))) (Vl (Proc.devRef .tc main_arg8)))
          (Vl (Proc.devRef .tc main_arg9)) := by
  simp only [opsHead, StableHlo.after_append]
  after_results_simp
  simp only [TRef.ofBuf, TRef.toBuf, cast_eq]
  rfl

/-! ## Everything after the attention head -/

set_option maxHeartbeats 40000000 in
set_option maxRecDepth 100000 in
/-- After the rest of the operations the result's buffer holds the layer's tail of what the buffers of %0 and %44 held. -/
theorem tail_value (Vl : Valuation τ sig (Elt F)) :
    StableHlo.after opsTail Vl (Proc.devRef .tc main_v123)
      = AttnLayer.layerTail (Vl (Proc.devRef .tc main_v0)) (Vl (Proc.devRef .tc main_v44)) (Vl (Proc.devRef .tc main_arg10)) (Vl (Proc.devRef .tc main_arg11)) (Vl (Proc.devRef .tc main_arg12)) (Vl (Proc.devRef .tc main_arg13)) (Vl (Proc.devRef .tc main_arg14)) (Vl (Proc.devRef .tc main_arg15)) (Vl (Proc.devRef .tc main_arg16)) (Vl (Proc.devRef .tc main_arg17)) (Vl (Proc.devRef .tc main_arg18)) (Vl (Proc.devRef .tc main_arg19)) := by
  simp only [opsTail, StableHlo.after_append]
  after_results_simp
  simp only [TRef.ofBuf, TRef.toBuf, cast_eq]
  rfl

/-! ## The arguments are never written -/

theorem kept_arg0 (Vl : Valuation τ sig (Elt F)) :
    StableHlo.after (opsHead ++ opsTail) Vl (Proc.devRef .tc main_arg0) = (Vl (Proc.devRef .tc main_arg0)) := by
  rw [StableHlo.after_append, keepTail _ (by decide), keepHead _ (by decide)]

theorem kept_arg1 (Vl : Valuation τ sig (Elt F)) :
    StableHlo.after (opsHead ++ opsTail) Vl (Proc.devRef .tc main_arg1) = (Vl (Proc.devRef .tc main_arg1)) := by
  rw [StableHlo.after_append, keepTail _ (by decide), keepHead _ (by decide)]

theorem kept_arg2 (Vl : Valuation τ sig (Elt F)) :
    StableHlo.after (opsHead ++ opsTail) Vl (Proc.devRef .tc main_arg2) = (Vl (Proc.devRef .tc main_arg2)) := by
  rw [StableHlo.after_append, keepTail _ (by decide), keepHead _ (by decide)]

theorem kept_arg3 (Vl : Valuation τ sig (Elt F)) :
    StableHlo.after (opsHead ++ opsTail) Vl (Proc.devRef .tc main_arg3) = (Vl (Proc.devRef .tc main_arg3)) := by
  rw [StableHlo.after_append, keepTail _ (by decide), keepHead _ (by decide)]

theorem kept_arg4 (Vl : Valuation τ sig (Elt F)) :
    StableHlo.after (opsHead ++ opsTail) Vl (Proc.devRef .tc main_arg4) = (Vl (Proc.devRef .tc main_arg4)) := by
  rw [StableHlo.after_append, keepTail _ (by decide), keepHead _ (by decide)]

theorem kept_arg5 (Vl : Valuation τ sig (Elt F)) :
    StableHlo.after (opsHead ++ opsTail) Vl (Proc.devRef .tc main_arg5) = (Vl (Proc.devRef .tc main_arg5)) := by
  rw [StableHlo.after_append, keepTail _ (by decide), keepHead _ (by decide)]

theorem kept_arg6 (Vl : Valuation τ sig (Elt F)) :
    StableHlo.after (opsHead ++ opsTail) Vl (Proc.devRef .tc main_arg6) = (Vl (Proc.devRef .tc main_arg6)) := by
  rw [StableHlo.after_append, keepTail _ (by decide), keepHead _ (by decide)]

theorem kept_arg7 (Vl : Valuation τ sig (Elt F)) :
    StableHlo.after (opsHead ++ opsTail) Vl (Proc.devRef .tc main_arg7) = (Vl (Proc.devRef .tc main_arg7)) := by
  rw [StableHlo.after_append, keepTail _ (by decide), keepHead _ (by decide)]

theorem kept_arg8 (Vl : Valuation τ sig (Elt F)) :
    StableHlo.after (opsHead ++ opsTail) Vl (Proc.devRef .tc main_arg8) = (Vl (Proc.devRef .tc main_arg8)) := by
  rw [StableHlo.after_append, keepTail _ (by decide), keepHead _ (by decide)]

theorem kept_arg9 (Vl : Valuation τ sig (Elt F)) :
    StableHlo.after (opsHead ++ opsTail) Vl (Proc.devRef .tc main_arg9) = (Vl (Proc.devRef .tc main_arg9)) := by
  rw [StableHlo.after_append, keepTail _ (by decide), keepHead _ (by decide)]

theorem kept_arg10 (Vl : Valuation τ sig (Elt F)) :
    StableHlo.after (opsHead ++ opsTail) Vl (Proc.devRef .tc main_arg10) = (Vl (Proc.devRef .tc main_arg10)) := by
  rw [StableHlo.after_append, keepTail _ (by decide), keepHead _ (by decide)]

theorem kept_arg11 (Vl : Valuation τ sig (Elt F)) :
    StableHlo.after (opsHead ++ opsTail) Vl (Proc.devRef .tc main_arg11) = (Vl (Proc.devRef .tc main_arg11)) := by
  rw [StableHlo.after_append, keepTail _ (by decide), keepHead _ (by decide)]

theorem kept_arg12 (Vl : Valuation τ sig (Elt F)) :
    StableHlo.after (opsHead ++ opsTail) Vl (Proc.devRef .tc main_arg12) = (Vl (Proc.devRef .tc main_arg12)) := by
  rw [StableHlo.after_append, keepTail _ (by decide), keepHead _ (by decide)]

theorem kept_arg13 (Vl : Valuation τ sig (Elt F)) :
    StableHlo.after (opsHead ++ opsTail) Vl (Proc.devRef .tc main_arg13) = (Vl (Proc.devRef .tc main_arg13)) := by
  rw [StableHlo.after_append, keepTail _ (by decide), keepHead _ (by decide)]

theorem kept_arg14 (Vl : Valuation τ sig (Elt F)) :
    StableHlo.after (opsHead ++ opsTail) Vl (Proc.devRef .tc main_arg14) = (Vl (Proc.devRef .tc main_arg14)) := by
  rw [StableHlo.after_append, keepTail _ (by decide), keepHead _ (by decide)]

theorem kept_arg15 (Vl : Valuation τ sig (Elt F)) :
    StableHlo.after (opsHead ++ opsTail) Vl (Proc.devRef .tc main_arg15) = (Vl (Proc.devRef .tc main_arg15)) := by
  rw [StableHlo.after_append, keepTail _ (by decide), keepHead _ (by decide)]

theorem kept_arg16 (Vl : Valuation τ sig (Elt F)) :
    StableHlo.after (opsHead ++ opsTail) Vl (Proc.devRef .tc main_arg16) = (Vl (Proc.devRef .tc main_arg16)) := by
  rw [StableHlo.after_append, keepTail _ (by decide), keepHead _ (by decide)]

theorem kept_arg17 (Vl : Valuation τ sig (Elt F)) :
    StableHlo.after (opsHead ++ opsTail) Vl (Proc.devRef .tc main_arg17) = (Vl (Proc.devRef .tc main_arg17)) := by
  rw [StableHlo.after_append, keepTail _ (by decide), keepHead _ (by decide)]

theorem kept_arg18 (Vl : Valuation τ sig (Elt F)) :
    StableHlo.after (opsHead ++ opsTail) Vl (Proc.devRef .tc main_arg18) = (Vl (Proc.devRef .tc main_arg18)) := by
  rw [StableHlo.after_append, keepTail _ (by decide), keepHead _ (by decide)]

theorem kept_arg19 (Vl : Valuation τ sig (Elt F)) :
    StableHlo.after (opsHead ++ opsTail) Vl (Proc.devRef .tc main_arg19) = (Vl (Proc.devRef .tc main_arg19)) := by
  rw [StableHlo.after_append, keepTail _ (by decide), keepHead _ (by decide)]

/-! ## The whole program -/

/-- The program's result: the tail of the layer applied to the lifted points and the attention head's output. -/
theorem result (Vl : Valuation τ sig (Elt F)) :
    StableHlo.after (opsHead ++ opsTail) Vl (Proc.devRef .tc main_v123)
      = AttnLayer.layerTail (AttnLayer.lift (Vl (Proc.devRef .tc main_arg0)) (Vl (Proc.devRef .tc main_arg2)))
          (AttnLayer.attnRef (AttnLayer.lift (Vl (Proc.devRef .tc main_arg0)) (Vl (Proc.devRef .tc main_arg2))) (Vl (Proc.devRef .tc main_arg6))
          (AttnLayer.projM (AttnLayer.kvFeat (AttnLayer.lift (Vl (Proc.devRef .tc main_arg0)) (Vl (Proc.devRef .tc main_arg2))) (Vl (Proc.devRef .tc main_arg1)) (Vl (Proc.devRef .tc main_arg3)) (Vl (Proc.devRef .tc main_arg4)) (Vl (Proc.devRef .tc main_arg5))) (Vl (Proc.devRef .tc main_arg7)))
          (AttnLayer.projM (AttnLayer.kvFeat (AttnLayer.lift (Vl (Proc.devRef .tc main_arg0)) (Vl (Proc.devRef .tc main_arg2))) (Vl (Proc.devRef .tc main_arg1)) (Vl (Proc.devRef .tc main_arg3)) (Vl (Proc.devRef .tc main_arg4)) (Vl (Proc.devRef .tc main_arg5))) (Vl (Proc.devRef .tc main_arg8)))
          (Vl (Proc.devRef .tc main_arg9)))
          (Vl (Proc.devRef .tc main_arg10)) (Vl (Proc.devRef .tc main_arg11)) (Vl (Proc.devRef .tc main_arg12)) (Vl (Proc.devRef .tc main_arg13)) (Vl (Proc.devRef .tc main_arg14)) (Vl (Proc.devRef .tc main_arg15)) (Vl (Proc.devRef .tc main_arg16)) (Vl (Proc.devRef .tc main_arg17)) (Vl (Proc.devRef .tc main_arg18)) (Vl (Proc.devRef .tc main_arg19)) := by
  rw [StableHlo.after_append, tail_value, head_v0, head_v44,
    keepHead (r := main_arg10) _ (by decide), keepHead (r := main_arg11) _ (by decide), keepHead (r := main_arg12) _ (by decide), keepHead (r := main_arg13) _ (by decide), keepHead (r := main_arg14) _ (by decide), keepHead (r := main_arg15) _ (by decide), keepHead (r := main_arg16) _ (by decide), keepHead (r := main_arg17) _ (by decide), keepHead (r := main_arg18) _ (by decide), keepHead (r := main_arg19) _ (by decide)]

end Cert.ReferenceIdeal.Hand

end
-- ==== Proof.RefAsm.lean ====
/-
  The idealized reference program's run with its result named: the result array is the layer function of the
  argument arrays, and the arguments are kept.  The program is a straight sequence of host operations; its first
  part computes the lifted points and the attention head with normalised softmax weights, its second part the
  layer's tail.
-/
import proofs.«421826_j62139586839041_3_alg».proof.Proof.RefRun
import proofs.«421826_j62139586839041_3_alg».proof.Proof.RefValue
import proofs.«421826_j62139586839041_3_alg».proof.Proof.Layer

noncomputable section

namespace Cert.ReferenceIdeal.Hand

open Cert.ReferenceIdeal Cert.ReferenceIdeal.Gen Idealize.ShloMosaic Idealize.ShloMosaic.TcCoe Idealize.SL.Sem AttnLayer

variable {F : FTy → Type} [FloatOps F]

theorem value_run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v123) = layerOut (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨(h c main_v123).trans (result (F := F) (StableHlo.launchContents m c)),
    (h c main_arg0).trans (kept_arg0 (F := F) (StableHlo.launchContents m c)),
    (h c main_arg1).trans (kept_arg1 (F := F) (StableHlo.launchContents m c)),
    (h c main_arg2).trans (kept_arg2 (F := F) (StableHlo.launchContents m c)),
    (h c main_arg3).trans (kept_arg3 (F := F) (StableHlo.launchContents m c)),
    (h c main_arg4).trans (kept_arg4 (F := F) (StableHlo.launchContents m c)),
    (h c main_arg5).trans (kept_arg5 (F := F) (StableHlo.launchContents m c)),
    (h c main_arg6).trans (kept_arg6 (F := F) (StableHlo.launchContents m c)),
    (h c main_arg7).trans (kept_arg7 (F := F) (StableHlo.launchContents m c)),
    (h c main_arg8).trans (kept_arg8 (F := F) (StableHlo.launchContents m c)),
    (h c main_arg9).trans (kept_arg9 (F := F) (StableHlo.launchContents m c)),
    (h c main_arg10).trans (kept_arg10 (F := F) (StableHlo.launchContents m c)),
    (h c main_arg11).trans (kept_arg11 (F := F) (StableHlo.launchContents m c)),
    (h c main_arg12).trans (kept_arg12 (F := F) (StableHlo.launchContents m c)),
    (h c main_arg13).trans (kept_arg13 (F := F) (StableHlo.launchContents m c)),
    (h c main_arg14).trans (kept_arg14 (F := F) (StableHlo.launchContents m c)),
    (h c main_arg15).trans (kept_arg15 (F := F) (StableHlo.launchContents m c)),
    (h c main_arg16).trans (kept_arg16 (F := F) (StableHlo.launchContents m c)),
    (h c main_arg17).trans (kept_arg17 (F := F) (StableHlo.launchContents m c)),
    (h c main_arg18).trans (kept_arg18 (F := F) (StableHlo.launchContents m c)),
    (h c main_arg19).trans (kept_arg19 (F := F) (StableHlo.launchContents m c))⟩) (run (F := F) m ρ)

end Cert.ReferenceIdeal.Hand

end
-- ==== Proof.PreReal.lean ====
/-
  The precondition read back as a statement about numbers. The predicate is a conjunction, over the float
  arguments, of "every entry x satisfies |x| < +∞", each conjunct an all-reduction by "and" of the entrywise
  comparison of max x (-x) against the pattern 0x7F800000, which denotes +∞. An extended real whose absolute
  value is below +∞ is neither infinity, so it is a real number. Hence every entry of each argument is real;
  the seven arguments the head reads (0, 2, 3, 4, 5, 6, 7) are stated.
-/
import proofs.«421826_j62139586839041_3_alg».proof.Defs
import proofs.«421826_j62139586839041_3_alg».proof.Proof.Gen.Pre_finite_inputs
import proofs.«421826_j62139586839041_3_alg».proof.Proof.Head
import Idealize.ShloMosaic.Lib.ReduceAll

noncomputable section

namespace Cert.Proof.Hand

open Idealize.ShloMosaic Idealize.SL.Sem

/-- The shape of rank zero has exactly one index. -/
instance subsingleton_scalar_idx : Subsingleton Cert.Pre_finite_inputs.S_.Idx :=
  ⟨fun a b => funext fun d => d.elim0⟩

/-- The pattern 0x7F800000 (sign 0, exponent all ones, fraction 0) denotes +∞. -/
theorem inf_pattern : Ideal.ofBits .f32 0x7F800000#32 = (⊤ : EReal) := by
  simp [Ideal.ofBits, Ideal.ieee]

/-- |x| < +∞ makes x a real number: at x = +∞ the maximum of x and -x is +∞, at x = -∞ likewise. -/
theorem real_of_abs_lt_inf (x : EReal)
    (h : Ideal.cmp .olt (max x (-x)) (Ideal.ofBits .f32 0x7F800000#32) = 1#1) : ∃ r : ℝ, x = (r : EReal) := by
  rw [inf_pattern] at h
  induction x using EReal.rec with
  | bot => simp [Ideal.cmp] at h
  | coe r => exact ⟨r, rfl⟩
  | top => simp [Ideal.cmp] at h

/-- One conjunct of the predicate, at any shape: if the all-reduction of |x| < +∞ is 1 then every entry of x is real. -/
theorem allReal_of_all {S : Shape} {axes : List (Fin S.rank)} (x : S.Idx → EReal)
    (hb : Cert.Pre_finite_inputs.S_.BroadcastsInDim S (![] : Fin 0 → Fin S.rank))
    (hr : S.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
      (cmpf .olt (Host.absf (F := Ideal) (φ := .f32) x)
        (broadcastInDim S ![] hb (constant (F := Ideal) Cert.Pre_finite_inputs.S_ .f32 0x7F800000#32)))
      init hr hu j = 1#1) : AttnLayer.AllReal x := by
  intro i
  have hi := Host.reduce_andi_all _ init hr hu j e i
  exact real_of_abs_lt_inf (x i) hi

/-- Under the precondition, on every device, the arguments 0, 2, 3, 4, 5, 6, 7 hold real numbers only.
    The predicate is the left-nested conjunction ((((c0 ∧ c2) ∧ c3) ∧ …) ∧ c19) of its nineteen conjuncts. -/
theorem real_args (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    AttnLayer.AllReal (m ((c.tc : Thread Cert.KernelIdeal.nD Cert.KernelIdeal.τ).loc Cert.KernelIdeal.main_arg0))
    ∧ AttnLayer.AllReal (m ((c.tc : Thread Cert.KernelIdeal.nD Cert.KernelIdeal.τ).loc Cert.KernelIdeal.main_arg2))
    ∧ AttnLayer.AllReal (m ((c.tc : Thread Cert.KernelIdeal.nD Cert.KernelIdeal.τ).loc Cert.KernelIdeal.main_arg3))
    ∧ AttnLayer.AllReal (m ((c.tc : Thread Cert.KernelIdeal.nD Cert.KernelIdeal.τ).loc Cert.KernelIdeal.main_arg4))
    ∧ AttnLayer.AllReal (m ((c.tc : Thread Cert.KernelIdeal.nD Cert.KernelIdeal.τ).loc Cert.KernelIdeal.main_arg5))
    ∧ AttnLayer.AllReal (m ((c.tc : Thread Cert.KernelIdeal.nD Cert.KernelIdeal.τ).loc Cert.KernelIdeal.main_arg6))
    ∧ AttnLayer.AllReal (m ((c.tc : Thread Cert.KernelIdeal.nD Cert.KernelIdeal.τ).loc Cert.KernelIdeal.main_arg7)) := by
  have h0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Idealize.ShloMosaic.andi] at h0
  simp only [IntOp.andi_eq_one] at h0
  obtain ⟨⟨⟨⟨⟨⟨⟨⟨⟨⟨⟨⟨⟨⟨⟨⟨⟨⟨a0, a2⟩, a3⟩, a4⟩, a5⟩, a6⟩, a7⟩, -⟩, -⟩, -⟩, -⟩, -⟩, -⟩, -⟩, -⟩, -⟩, -⟩, -⟩, -⟩ := h0
  exact ⟨allReal_of_all _ _ _ _ _ _ a0, allReal_of_all _ _ _ _ _ _ a2, allReal_of_all _ _ _ _ _ _ a3,
    allReal_of_all _ _ _ _ _ _ a4, allReal_of_all _ _ _ _ _ _ a5, allReal_of_all _ _ _ _ _ _ a6,
    allReal_of_all _ _ _ _ _ _ a7⟩

end Cert.Proof.Hand
-- ==== Proof.lean ====
/-
  The certificate of one transformer layer over a point cloud: a kernel program whose attention head runs as one
  region of 32 tiles of 512 query rows, each against all 6144 keys, against a reference made of host operations only.

  The three programs run to the end, fault nowhere and keep their arguments: for the two kernel programs (the
  printed one and its idealization, which differ in nothing but the instance they are read at) by the library's
  frame run of a region between host operations, the tile body run once symbolically; for the reference by the run of
  a straight sequence of host operations.

  At the ideal instance both programs compute the layer function of the arguments (AttnLayer.layerOut): the host
  operations around the head are the same compositions on both sides; the kernel's head divides the weighted sum of
  the values by the sum of the weights, the reference divides each weight first, and the two agree because under the
  precondition every score is a real number, so the sum of the weights is a real number at least 1 and
  multiplication by its reciprocal distributes over the weighted sum.
-/
import proofs.«421826_j62139586839041_3_alg».proof.Defs
import proofs.«421826_j62139586839041_3_alg».proof.Proof.Gen.Kernel
import proofs.«421826_j62139586839041_3_alg».proof.Proof.Gen.KernelIdeal
import proofs.«421826_j62139586839041_3_alg».proof.Proof.Gen.ReferenceIdeal
import proofs.«421826_j62139586839041_3_alg».proof.Proof.Gen.Pre_finite_inputs
import proofs.«421826_j62139586839041_3_alg».proof.Proof.KFrame
import proofs.«421826_j62139586839041_3_alg».proof.Proof.KIRun
import proofs.«421826_j62139586839041_3_alg».proof.Proof.RefAsm
import proofs.«421826_j62139586839041_3_alg».proof.Proof.PreReal
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.value_run (F := Ideal) m ρ)

/-- Both idealized programs end with the layer function of the arguments: the kernel's by its run under real-valued
    inputs, the reference's by its run from arguments that agree with the kernel's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => AttnLayer.layerOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)),
    Cert.KernelIdeal.Hand.value_run m ρ (fun c => Cert.Proof.Hand.real_args m hpre c), ?_⟩
  refine (θ_run Cert.ReferenceIdeal.defs _ _).mono (fun r h c => ⟨(h c).1.trans ?_, (h c).2⟩)
    (Cert.ReferenceIdeal.Hand.value_run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
